-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x3072 : Shape := ⟨2, ![1024, 3072]⟩
abbrev S3072 : Shape := ⟨1, ![3072]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part2 {F : FTy → Type} [FloatOps F] (main_arg7 : FVec F S3072 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  main_v38

def fn_part1 {F : FTy → Type} [FloatOps F] (main_arg4 : FVec F S1024x3072 .f32) (main_arg5 : FVec F S1024x3072 .f32) (main_arg6 : FVec F S3072 .f32) (main_arg7 : FVec F S3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg5
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S1024x3072 .f32) (main_arg3 : FVec F S1024x3072 .f32) (main_arg4 : FVec F S1024x3072 .f32) (main_arg5 : FVec F S1024x3072 .f32) (main_arg6 : FVec F S3072 .f32) (main_arg7 : FVec F S3072 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_arg6 main_arg7 main_v13 main_v16
-- ==== Kernel.lean ====
abbrev S4096x2048 : Shape := ⟨2, ![4096, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1x1024x1024 : Shape := ⟨3, ![1, 1024, 1024]⟩
abbrev S3x1024x1024 : Shape := ⟨3, ![3, 1024, 1024]⟩
abbrev S1x1024 : Shape := ⟨2, ![1, 1024]⟩
abbrev S3x1024 : Shape := ⟨2, ![3, 1024]⟩
abbrev S4096x1024 : Shape := ⟨2, ![4096, 1024]⟩
abbrev S128x1024 : Shape := ⟨2, ![128, 1024]⟩

abbrev nBuf : Space → Nat
  | .hbm => 61
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S3x1024x1024, .f32⟩
  | .hbm, ⟨30, _⟩ => ⟨S3x1024x1024, .bf16⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S3x1024x1024, .f32⟩
  | .hbm, ⟨35, _⟩ => ⟨S3x1024x1024, .bf16⟩
  | .hbm, ⟨36, _⟩ => ⟨S1x1024x1024, .f32⟩
  | .hbm, ⟨37, _⟩ => ⟨S1x1024x1024, .f32⟩
  | .hbm, ⟨38, _⟩ => ⟨S1x1024x1024, .f32⟩
  | .hbm, ⟨39, _⟩ => ⟨S3x1024x1024, .f32⟩
  | .hbm, ⟨40, _⟩ => ⟨S3x1024x1024, .bf16⟩
  | .hbm, ⟨41, _⟩ => ⟨S1x1024x1024, .f32⟩
  | .hbm, ⟨42, _⟩ => ⟨S1x1024x1024, .f32⟩
  | .hbm, ⟨43, _⟩ => ⟨S1x1024x1024, .f32⟩
  | .hbm, ⟨44, _⟩ => ⟨S3x1024x1024, .f32⟩
  | .hbm, ⟨45, _⟩ => ⟨S3x1024x1024, .bf16⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S3x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S3x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S3x1024x1024, .bf16⟩
  | .local _ .vmem, ⟨9, _⟩ => ⟨S3x1024x1024, .bf16⟩
  | .local _ .vmem, ⟨10, _⟩ => ⟨S3x1024x1024, .bf16⟩
  | .local _ .vmem, ⟨11, _⟩ => ⟨S3x1024x1024, .bf16⟩
  | .local _ .vmem, ⟨12, _⟩ => ⟨S3x1024, .f32⟩
  | .local _ .vmem, ⟨13, _⟩ => ⟨S3x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50_0 : Ref sig .tc := ⟨.hbm, 58, rfl⟩
abbrev main_v50_1 : Ref sig .tc := ⟨.hbm, 59, rfl⟩
abbrev main_v51 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  slices_S3072_S1024_0 : S3072.Slices ![0] S1024
  slices_S3072_S1024_1024 : S3072.Slices ![1024] S1024
  slices_S3072_S1024_2048 : S3072.Slices ![2048] S1024
  bcast_S1024x1024_S1x1024x1024_1_2 : S1024x1024.BroadcastsInDim S1x1024x1024 (![1, 2] : Fin 2 → Fin S1x1024x1024.rank)
  concatenates_S1x1024x1024_S1x1024x1024_S1x1024x1024_S3x1024x1024_d0 : Shape.Concatenates [S1x1024x1024, S1x1024x1024, S1x1024x1024] S3x1024x1024 0
  bitsLt_bf16_f32 : FTy.bits .bf16 < FTy.bits .f32
  bcast_S1024_S1x1024_1 : S1024.BroadcastsInDim S1x1024 (![1] : Fin 1 → Fin S1x1024.rank)
  concatenates_S1x1024_S1x1024_S1x1024_S3x1024_d0 : Shape.Concatenates [S1x1024, S1x1024, S1x1024] S3x1024 0
  slices_S4096x2048_S4096x1024_0_0 : S4096x2048.Slices ![0, 0] S4096x1024
  slices_S4096x2048_S4096x1024_0_1024 : S4096x2048.Slices ![0, 1024] S4096x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  shapeCasts_S1024_S1x1024 : S1024.ShapeCasts S1x1024
  broadcasts_S1x1024_S128x1024 : S1x1024.Broadcasts S128x1024
  concatenates_S4096x1024_S4096x1024_S4096x2048_d1 : Shape.Concatenates [S4096x1024, S4096x1024] S4096x2048 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024x1024.size a ≤ S3x1024x1024.size a
  hwx0_4 : ∀ i : grid0.Coords, EltTy.bits .bf16 = 32 ∨ (Rect.block (s := S3x1024x1024) S3x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1024x1024.size a ≤ S3x1024x1024.size a
  hwx0_5 : ∀ i : grid0.Coords, EltTy.bits .bf16 = 32 ∨ (Rect.block (s := S3x1024x1024) S3x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1024x1024.size a ≤ S3x1024x1024.size a
  hwx0_6 : ∀ i : grid0.Coords, EltTy.bits .bf16 = 32 ∨ (Rect.block (s := S3x1024x1024) S3x1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1024x1024.size a ≤ S3x1024x1024.size a
  hwx0_7 : ∀ i : grid0.Coords, EltTy.bits .bf16 = 32 ∨ (Rect.block (s := S3x1024x1024) S3x1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1024.size a ≤ S3x1024.size a
  hwx0_8 : ∀ i : grid0.Coords, EltTy.bits .f32 = 32 ∨ (Rect.block (s := S3x1024) S3x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x1024.size a ≤ S3x1024.size a
  hwx0_9 : ∀ i : grid0.Coords, EltTy.bits .f32 = 32 ∨ (Rect.block (s := S3x1024) S3x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1024.size a ≤ S4096x1024.size a
  hwx0_11 : ∀ i : grid0.Coords, EltTy.bits .f32 = 32 ∨ (Rect.block (s := S4096x1024) S128x1024.size (cc0_transform_11 i) (hinb0_11 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v46) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S3x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S3x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S3x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S3x1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S3x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S3x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v50_1) S128x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1024x3072, .f32⟩
  | .hbm, ⟨3, _⟩ => ⟨S1024x3072, .f32⟩
  | .hbm, ⟨4, _⟩ => ⟨S1024x3072, .f32⟩
  | .hbm, ⟨5, _⟩ => ⟨S1024x3072, .f32⟩
  | .hbm, ⟨6, _⟩ => ⟨S3072, .f32⟩
  | .hbm, ⟨7, _⟩ => ⟨S3072, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024x1024, .f32⟩
  | .hbm, ⟨27, _⟩ => ⟨S1024x2048, .f32⟩
  | .hbm, ⟨28, _⟩ => ⟨S1024x2048, .f32⟩
  | .hbm, ⟨29, _⟩ => ⟨S2048x2048, .f32⟩
  | .hbm, ⟨30, _⟩ => ⟨S4096x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S1024x1024, .f32⟩
  | .hbm, ⟨36, _⟩ => ⟨S1024x2048, .f32⟩
  | .hbm, ⟨37, _⟩ => ⟨S1024x2048, .f32⟩
  | .hbm, ⟨38, _⟩ => ⟨S2048x2048, .f32⟩
  | .hbm, ⟨39, _⟩ => ⟨S4096x2048, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S1024x1024, .f32⟩
  | .hbm, ⟨45, _⟩ => ⟨S1024x2048, .f32⟩
  | .hbm, ⟨46, _⟩ => ⟨S1024x2048, .f32⟩
  | .hbm, ⟨47, _⟩ => ⟨S2048x2048, .f32⟩
  | .hbm, ⟨48, _⟩ => ⟨S4096x2048, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S1024x1024, .f32⟩
  | .hbm, ⟨54, _⟩ => ⟨S1024x2048, .f32⟩
  | .hbm, ⟨55, _⟩ => ⟨S1024x2048, .f32⟩
  | .hbm, ⟨56, _⟩ => ⟨S2048x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S4096x2048, .f32⟩
  | .hbm, ⟨72, _⟩ => ⟨S4096x2048, .f32⟩
  | .hbm, ⟨73, _⟩ => ⟨S1024x1024, .f32⟩
  | .hbm, ⟨74, _⟩ => ⟨S1024x2048, .f32⟩
  | .hbm, ⟨75, _⟩ => ⟨S1024x2048, .f32⟩
  | .hbm, ⟨76, _⟩ => ⟨S2048x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S1024x1024, .f32⟩
  | .hbm, ⟨95, _⟩ => ⟨S1024x2048, .f32⟩
  | .hbm, ⟨96, _⟩ => ⟨S1024x2048, .f32⟩
  | .hbm, ⟨97, _⟩ => ⟨S2048x2048, .f32⟩
  | .hbm, ⟨98, _⟩ => ⟨S4096x2048, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst : Ref sig .tc := ⟨.hbm, 59, rfl⟩
abbrev main_v51 : Ref sig .tc := ⟨.hbm, 60, rfl⟩
abbrev main_v52 : Ref sig .tc := ⟨.hbm, 61, rfl⟩
abbrev main_cst_0 : Ref sig .tc := ⟨.hbm, 62, rfl⟩
abbrev main_v53 : Ref sig .tc := ⟨.hbm, 63, rfl⟩
abbrev main_v54 : Ref sig .tc := ⟨.hbm, 64, rfl⟩
abbrev main_cst_1 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_v63 : Ref sig .tc := ⟨.hbm, 81, rfl⟩
abbrev main_cst_4 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_cst_6 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_7 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S1024x3072_S1024x1024_0_0 : S1024x3072.Slices ![0, 0] S1024x1024
  slices_S1024x3072_S1024x1024_0_1024 : S1024x3072.Slices ![0, 1024] S1024x1024
  slices_S1024x3072_S1024x1024_0_2048 : S1024x3072.Slices ![0, 2048] S1024x1024
  slices_S3072_S1024_0 : S3072.Slices ![0] S1024
  slices_S3072_S1024_1024 : S3072.Slices ![1024] S1024
  slices_S3072_S1024_2048 : S3072.Slices ![2048] S1024
  concatenates_S1024x1024_S1024x1024_S1024x2048_d1 : Shape.Concatenates [S1024x1024, S1024x1024] S1024x2048 1
  concatenates_S1024x2048_S1024x2048_S2048x2048_d0 : Shape.Concatenates [S1024x2048, S1024x2048] S2048x2048 0
  concatenates_S1024_S1024_S2048_d0 : Shape.Concatenates [S1024, S1024] S2048 0
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.Around.lean ====
/-
  @main around its one kernel region.

  @main is fifty host operations (slices of the eight arguments, the gates' stacking, the change of the weights'
  format), the region, and one host operation after it (the two result arrays joined side by side).  Here: the contents
  every buffer has when the region is entered (`V`: the fold of the fifty operations over the launch memory), @main as
  that region continued by the last operation, the side conditions that last operation owes the frame run (it touches
  unscoped buffers only, allocates nothing, writes no array the region stages), the eight argument arrays unwritten by
  the operations before and after the region, each staged array's block at a grid point (`iblk`), that an input
  window's staging buffer holds that block at every point whether or not it is fetched there (the six weight and bias
  windows are fetched once, their block index never moving), and the frame claim's post read off a frame run's.
-/
import proofs.«126988_j23922967838776_1_alg».proof.Proof.Gen.Kernel.Launch
import proofs.«126988_j23922967838776_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch memory after the fifty host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the fifty operations, the region, and the last operation: it reduces to the region continued by that one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only: arrays of the pipeline or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are written by no host operation -/

/-- No host operation before the region writes `main_arg0` (the input rows): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (the previous state rows): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (the input weights' real parts): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (the input weights' imaginary parts): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (the recurrent weights' real parts): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (the recurrent weights' imaginary parts): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (the bias's real parts): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg6` ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7` (the bias's imaginary parts): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg7` ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is the region-entry one and whose body leaves the block in place: where the window is not fetched its
    block index has not moved; no window is cut at its array's edge and none is ever idle. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the eight argument arrays
    (none of them staged by a window: each is among the buffers the run leaves as the last operation leaves them, and
    that operation and the fifty before the region write none of them) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.Kernel.Around

end
-- ==== Proof.K.Body.lean ====
/-
  The kernel body as a function of the ten input blocks it is handed.

  The body reads the whole of each input block (the four [128, 1024] activation blocks; each of the three [1024, 1024]
  gate slabs of the four weight blocks; each of the three rows of the two bias blocks), computes, and stores two whole
  [128, 1024] blocks: the new state's real parts and its imaginary parts.  Each value the body computes on the way is
  named here after the quantity it is (the reset gate's real part, the candidate's imaginary part, ...) as the
  corresponding payload of the loads; the two stored blocks are `newRe` and `newIm`.  The body's triple says: run on
  whole staging buffers holding the input blocks, it terminates with the inputs untouched and the two output buffers
  holding `outRe`, `outIm` (one covering store each).
-/
import proofs.«126988_j23922967838776_1_alg».proof.Proof.Gen.Kernel.Launch
import proofs.«126988_j23922967838776_1_alg».proof.Proof.Gen.Kernel.Skeleton
import proofs.«126988_j23922967838776_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [128, 1024] block. -/
abbrev rAct : Rect S128x1024 := Rect.unit (s := S128x1024) ![0, 0] S128x1024.size inb_S128x1024_S128x1024_0_0
/-- Gate 0, 1, 2 of a [3, 1024, 1024] weight block. -/
abbrev rG0 : Rect S3x1024x1024 := Rect.unit (s := S3x1024x1024) ![0, 0, 0] S1x1024x1024.size inb_S3x1024x1024_S1x1024x1024_0_0_0
abbrev rG1 : Rect S3x1024x1024 := Rect.unit (s := S3x1024x1024) ![1, 0, 0] S1x1024x1024.size inb_S3x1024x1024_S1x1024x1024_1_0_0
abbrev rG2 : Rect S3x1024x1024 := Rect.unit (s := S3x1024x1024) ![2, 0, 0] S1x1024x1024.size inb_S3x1024x1024_S1x1024x1024_2_0_0
/-- Gate 0, 1, 2 of a [3, 1024] bias block. -/
abbrev rB0 : Rect S3x1024 := Rect.unit (s := S3x1024) ![0, 0] S1x1024.size inb_S3x1024_S1x1024_0_0
abbrev rB1 : Rect S3x1024 := Rect.unit (s := S3x1024) ![1, 0] S1x1024.size inb_S3x1024_S1x1024_1_0
abbrev rB2 : Rect S3x1024 := Rect.unit (s := S3x1024) ![2, 0] S1x1024.size inb_S3x1024_S1x1024_2_0

/-! ## The body's values, from the input blocks

`x0, x1`: the input rows' real and imaginary parts; `x2, x3`: the state rows'; `x4, x5`: the input weights' real and
imaginary parts (three gates); `x6, x7`: the recurrent weights'; `x8, x9`: the biases'. -/

section Values

variable (x0 x1 x2 x3 : Vec F S128x1024 .f32) (x4 x5 x6 x7 : Vec F S3x1024x1024 .bf16) (x8 x9 : Vec F S3x1024 .f32)

/-- The state rows, real and imaginary parts, as loaded. -/
def hRe : FVec F S128x1024 .f32 := k0_pay3 (View.ld x2 rAct)
def hIm : FVec F S128x1024 .f32 := k0_pay4 (View.ld x3 rAct)
/-- The input and state rows as matrix operands. -/
def xReB : FVec F S128x1024 .bf16 := k0_pay5 (View.ld x0 rAct)
def xImB : FVec F S128x1024 .bf16 := k0_pay6 (View.ld x1 rAct)
def hReB : FVec F S128x1024 .bf16 := k0_pay7 (View.ld x2 rAct)
def hImB : FVec F S128x1024 .bf16 := k0_pay8 (View.ld x3 rAct)
/-- The input weights' gates: real parts z, r, h; imaginary parts z, r, h. -/
def wRe0 : FVec F S1024x1024 .bf16 := k0_pay9 (View.ld x4 rG0)
def wRe1 : FVec F S1024x1024 .bf16 := k0_pay10 (View.ld x4 rG1)
def wRe2 : FVec F S1024x1024 .bf16 := k0_pay11 (View.ld x4 rG2)
def wIm0 : FVec F S1024x1024 .bf16 := k0_pay12 (View.ld x5 rG0)
def wIm1 : FVec F S1024x1024 .bf16 := k0_pay13 (View.ld x5 rG1)
def wIm2 : FVec F S1024x1024 .bf16 := k0_pay14 (View.ld x5 rG2)
/-- The recurrent weights' gates. -/
def uRe0 : FVec F S1024x1024 .bf16 := k0_pay15 (View.ld x6 rG0)
def uRe1 : FVec F S1024x1024 .bf16 := k0_pay16 (View.ld x6 rG1)
def uRe2 : FVec F S1024x1024 .bf16 := k0_pay17 (View.ld x6 rG2)
def uIm0 : FVec F S1024x1024 .bf16 := k0_pay18 (View.ld x7 rG0)
def uIm1 : FVec F S1024x1024 .bf16 := k0_pay19 (View.ld x7 rG1)
def uIm2 : FVec F S1024x1024 .bf16 := k0_pay20 (View.ld x7 rG2)
/-- The biases' gates r and h (gate z's enter through the payloads that add them). -/
def bRe1 : FVec F S1024 .f32 := k0_pay21 (View.ld x8 rB1)
def bRe2 : FVec F S1024 .f32 := k0_pay22 (View.ld x8 rB2)
def bIm1 : FVec F S1024 .f32 := k0_pay23 (View.ld x9 rB1)
def bIm2 : FVec F S1024 .f32 := k0_pay24 (View.ld x9 rB2)

/-- x W_z, imaginary part, without its bias. -/
def xzIm0 : FVec F S128x1024 .f32 := k0_pay25 (xReB x0) (xImB x1) (wRe0 x4) (wIm0 x5)
/-- x W_z + b_z, real part. -/
def xzRe : FVec F S128x1024 .f32 := k0_pay26 (xReB x0) (xImB x1) (wRe0 x4) (wIm0 x5) (View.ld x8 rB0)
/-- b_z's imaginary part, one copy per row. -/
def bzIm : FVec F S128x1024 .f32 := k0_pay27 (View.ld x9 rB0)
/-- x W_z + b_z, imaginary part. -/
def xzIm : FVec F S128x1024 .f32 := k0_pay28 (xzIm0 x0 x1 x4 x5) (bzIm x9)
/-- x W_r + b_r, real and imaginary parts. -/
def xrRe : FVec F S128x1024 .f32 := k0_pay29 (xReB x0) (xImB x1) (wRe1 x4) (wIm1 x5) (bRe1 x8)
def xrIm : FVec F S128x1024 .f32 := k0_pay30 (xReB x0) (xImB x1) (wRe1 x4) (wIm1 x5) (bIm1 x9)
/-- x W_h + b_h, real and imaginary parts. -/
def xhRe : FVec F S128x1024 .f32 := k0_pay31 (xReB x0) (xImB x1) (wRe2 x4) (wIm2 x5) (bRe2 x8)
def xhIm : FVec F S128x1024 .f32 := k0_pay32 (xReB x0) (xImB x1) (wRe2 x4) (wIm2 x5) (bIm2 x9)
/-- h U_z, imaginary part. -/
def hzIm : FVec F S128x1024 .f32 := k0_pay33 (hReB x2) (hImB x3) (uRe0 x6) (uIm0 x7)
/-- h U_r, real and imaginary parts. -/
def hrRe : FVec F S128x1024 .f32 := k0_pay34 (hReB x2) (hImB x3) (uRe1 x6) (uIm1 x7)
def hrIm : FVec F S128x1024 .f32 := k0_pay35 (hReB x2) (hImB x3) (uRe1 x6) (uIm1 x7)
/-- 0.2 (x W_z + b_z + h U_z) + 0.5, real part. -/
def zPreRe : FVec F S128x1024 .f32 := k0_pay36 (hReB x2) (hImB x3) (uRe0 x6) (uIm0 x7) (xzRe x0 x1 x4 x5 x8)
/-- The update gate, real and imaginary parts. -/
def zRe : FVec F S128x1024 .f32 := k0_pay37 (zPreRe x0 x1 x2 x3 x4 x5 x6 x7 x8)
def zIm : FVec F S128x1024 .f32 := k0_pay38 (xzIm x0 x1 x4 x5 x9) (hzIm x2 x3 x6 x7)
/-- (r * h) U_h, imaginary part; and x W_h + b_h + (r * h) U_h, real part. -/
def rhIm : FVec F S128x1024 .f32 :=
  k0_pay41 (hRe x2) (hIm x3) (uRe2 x6) (uIm2 x7) (xrRe x0 x1 x4 x5 x8) (xrIm x0 x1 x4 x5 x9) (hrRe x2 x3 x6 x7) (hrIm x2 x3 x6 x7)
def cPreRe : FVec F S128x1024 .f32 :=
  k0_pay42 (hRe x2) (hIm x3) (uRe2 x6) (uIm2 x7) (xrRe x0 x1 x4 x5 x8) (xrIm x0 x1 x4 x5 x9) (xhRe x0 x1 x4 x5 x8) (hrRe x2 x3 x6 x7) (hrIm x2 x3 x6 x7)

/-- The new state's real parts: the block stored into the first output. -/
def newRe : FVec F S128x1024 .f32 := k0_pay1 (hRe x2) (zRe x0 x1 x2 x3 x4 x5 x6 x7 x8) (cPreRe x0 x1 x2 x3 x4 x5 x6 x7 x8 x9)
/-- The new state's imaginary parts: the block stored into the second output. -/
def newIm : FVec F S128x1024 .f32 :=
  k0_pay2 (hIm x3) (xhIm x0 x1 x4 x5 x9) (zIm x0 x1 x2 x3 x4 x5 x6 x7 x9) (rhIm x0 x1 x2 x3 x4 x5 x6 x7 x8 x9)

/-- The first output's staging buffer after the body: its one store, of the whole block. -/
def outRe : Vec F S128x1024 .f32 := View.canon [⟨rAct, newRe x0 x1 x2 x3 x4 x5 x6 x7 x8 x9⟩]
/-- The second output's staging buffer after the body. -/
def outIm : Vec F S128x1024 .f32 := View.canon [⟨rAct, newIm x0 x1 x2 x3 x4 x5 x6 x7 x8 x9⟩]

end Values

/-- One store of the whole block covers the buffer. -/
theorem cover (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 4000000 in
/-- The kernel body on whole staging memrefs, the inputs' at contents `x0 … x9` and the outputs' at anything, runs to the
    continuation holding the inputs' as they were and the outputs' at `outRe`, `outIm` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S3x1024x1024 .bf16) (harg5 : arg5.IsWhole) (arg6 : Memref sig .tc .vmem S3x1024x1024 .bf16) (harg6 : arg6.IsWhole) (arg7 : Memref sig .tc .vmem S3x1024x1024 .bf16) (harg7 : arg7.IsWhole) (arg8 : Memref sig .tc .vmem S3x1024x1024 .bf16) (harg8 : arg8.IsWhole) (arg9 : Memref sig .tc .vmem S3x1024 .f32) (harg9 : arg9.IsWhole) (arg10 : Memref sig .tc .vmem S3x1024 .f32) (harg10 : arg10.IsWhole) (arg11 : Memref sig .tc .vmem S128x1024 .f32) (harg11 : arg11.IsWhole) (arg12 : Memref sig .tc .vmem S128x1024 .f32) (harg12 : arg12.IsWhole)
    (x0 x1 x2 x3 : Vec F S128x1024 .f32) (x4 x5 x6 x7 : Vec F S3x1024x1024 .bf16) (x8 x9 : Vec F S3x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (outRe x0 x1 x2 x3 x4 x5 x6 x7 x8 x9) ∗ owns (c : Thread nD τ) arg12 fullShare (outIm x0 x1 x2 x3 x4 x5 x6 x7 x8 x9)) -∗ K ⟨⟩))
      ⊢ wp frame (wpE (defs₀ (F := F)) Variants.none c none) E (cc0__cgru_kernel i arg1 harg1 arg2 harg2 arg3 harg3 arg4 harg4 arg5 harg5 arg6 harg6 arg7 harg7 arg8 harg8 arg9 harg9 arg10 harg10 arg11 harg11 arg12 harg12) K := by
  simp only [cc0__cgru_kernel_eq_skeleton]; unfold cc0__cgru_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover _)
  iexists _; isplitr
  swap; · iexact H11
  ipureintro
  try dsimp only
  exact View.read_writes_eq_canon _ _ _ (cover _)

end Cert.Kernel.Body

end
-- ==== Proof.K.Run.lean ====
/-
  The frame run of the one pipeline, and the frame.

  The proof data: every staged array as the region finds it; after the body at grid point `t` each input window's buffer
  still at its block and the two output windows' buffers at the body's two stored blocks (`Body.outRe`, `Body.outIm` of
  the ten input blocks at `t`); nothing carried between points beyond what the class's invariant holds (the scoped rest
  and the generator register, untouched); nothing owed; full shares.  The body obligation at a generic point is the
  body's triple at the blocks; the library's frame run around the region then gives every staged array after the run
  as the library computes it from this data, and every other unscoped buffer as the last host operation leaves it.
-/
import proofs.«126988_j23922967838776_1_alg».proof.Proof.K.Around
import proofs.«126988_j23922967838776_1_alg».proof.Proof.K.Body

set_option maxRecDepth 16384

noncomputable section

namespace Cert.Kernel.Run

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Body.outRe (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => Body.outIm (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (the definition projected; the fold `V` is never opened). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = Body.outRe (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = Body.outIm (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point. -/
theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d
theorem before_8 (c : Dev nD) (t : Fin cfg0.N) (d) : (dats m 0 c).before 8 t d = iblk m c 8 t :=
  before_of_8 m (dats m 0 c) (A_eq m c 8) (after_8 m c) t d
theorem before_9 (c : Dev nD) (t : Fin cfg0.N) (d) : (dats m 0 c).before 9 t d = iblk m c 9 t :=
  before_of_9 m (dats m 0 c) (A_eq m c 9) (after_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Body.sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every staged array at
    what the library computes from the proof data and every other unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Run

end
-- ==== Proof.KI.Around.lean ====
/-
  @main around its one kernel region.

  @main is fifty host operations (slices of the eight arguments, the gates' stacking, the change of the weights'
  format), the region, and one host operation after it (the two result arrays joined side by side).  Here: the contents
  every buffer has when the region is entered (`V`: the fold of the fifty operations over the launch memory), @main as
  that region continued by the last operation, the side conditions that last operation owes the frame run (it touches
  unscoped buffers only, allocates nothing, writes no array the region stages), the eight argument arrays unwritten by
  the operations before and after the region, each staged array's block at a grid point (`iblk`), that an input
  window's staging buffer holds that block at every point whether or not it is fetched there (the six weight and bias
  windows are fetched once, their block index never moving), and the frame claim's post read off a frame run's.
-/
import proofs.«126988_j23922967838776_1_alg».proof.Proof.Gen.KernelIdeal.Launch
import proofs.«126988_j23922967838776_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- Core `c`'s buffer contents when the region is entered: the launch memory after the fifty host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the fifty operations, the region, and the last operation: it reduces to the region continued by that one. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only: arrays of the pipeline or buffers that
    bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments are written by no host operation -/

/-- No host operation before the region writes `main_arg0` (the input rows): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1` (the previous state rows): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2` (the input weights' real parts): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3` (the input weights' imaginary parts): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg3` ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4` (the recurrent weights' real parts): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg4` ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5` (the recurrent weights' imaginary parts): the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg5` ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6` (the bias's real parts): the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg6` ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7` (the bias's imaginary parts): the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it: `main_arg7` ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not, for any proof data
    whose array is the region-entry one and whose body leaves the block in place: where the window is not fetched its
    block index has not moved; no window is cut at its array's edge and none is ever idle. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a frame run's post read at the eight argument arrays
    (none of them staged by a window: each is among the buffers the run leaves as the last operation leaves them, and
    that operation and the fifty before the region write none of them) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.KernelIdeal.Around

end
-- ==== Proof.KI.Body.lean ====
/-
  The kernel body as a function of the ten input blocks it is handed.

  The body reads the whole of each input block (the four [128, 1024] activation blocks; each of the three [1024, 1024]
  gate slabs of the four weight blocks; each of the three rows of the two bias blocks), computes, and stores two whole
  [128, 1024] blocks: the new state's real parts and its imaginary parts.  Each value the body computes on the way is
  named here after the quantity it is (the reset gate's real part, the candidate's imaginary part, ...) as the
  corresponding payload of the loads; the two stored blocks are `newRe` and `newIm`.  The body's triple says: run on
  whole staging buffers holding the input blocks, it terminates with the inputs untouched and the two output buffers
  holding `outRe`, `outIm` (one covering store each).
-/
import proofs.«126988_j23922967838776_1_alg».proof.Proof.Gen.KernelIdeal.Launch
import proofs.«126988_j23922967838776_1_alg».proof.Proof.Gen.KernelIdeal.Skeleton
import proofs.«126988_j23922967838776_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [128, 1024] block. -/
abbrev rAct : Rect S128x1024 := Rect.unit (s := S128x1024) ![0, 0] S128x1024.size inb_S128x1024_S128x1024_0_0
/-- Gate 0, 1, 2 of a [3, 1024, 1024] weight block. -/
abbrev rG0 : Rect S3x1024x1024 := Rect.unit (s := S3x1024x1024) ![0, 0, 0] S1x1024x1024.size inb_S3x1024x1024_S1x1024x1024_0_0_0
abbrev rG1 : Rect S3x1024x1024 := Rect.unit (s := S3x1024x1024) ![1, 0, 0] S1x1024x1024.size inb_S3x1024x1024_S1x1024x1024_1_0_0
abbrev rG2 : Rect S3x1024x1024 := Rect.unit (s := S3x1024x1024) ![2, 0, 0] S1x1024x1024.size inb_S3x1024x1024_S1x1024x1024_2_0_0
/-- Gate 0, 1, 2 of a [3, 1024] bias block. -/
abbrev rB0 : Rect S3x1024 := Rect.unit (s := S3x1024) ![0, 0] S1x1024.size inb_S3x1024_S1x1024_0_0
abbrev rB1 : Rect S3x1024 := Rect.unit (s := S3x1024) ![1, 0] S1x1024.size inb_S3x1024_S1x1024_1_0
abbrev rB2 : Rect S3x1024 := Rect.unit (s := S3x1024) ![2, 0] S1x1024.size inb_S3x1024_S1x1024_2_0

/-! ## The body's values, from the input blocks

`x0, x1`: the input rows' real and imaginary parts; `x2, x3`: the state rows'; `x4, x5`: the input weights' real and
imaginary parts (three gates); `x6, x7`: the recurrent weights'; `x8, x9`: the biases'. -/

section Values

variable (x0 x1 x2 x3 : Vec F S128x1024 .f32) (x4 x5 x6 x7 : Vec F S3x1024x1024 .bf16) (x8 x9 : Vec F S3x1024 .f32)

/-- The state rows, real and imaginary parts, as loaded. -/
def hRe : FVec F S128x1024 .f32 := k0_pay3 (View.ld x2 rAct)
def hIm : FVec F S128x1024 .f32 := k0_pay4 (View.ld x3 rAct)
/-- The input and state rows as matrix operands. -/
def xReB : FVec F S128x1024 .bf16 := k0_pay5 (View.ld x0 rAct)
def xImB : FVec F S128x1024 .bf16 := k0_pay6 (View.ld x1 rAct)
def hReB : FVec F S128x1024 .bf16 := k0_pay7 (View.ld x2 rAct)
def hImB : FVec F S128x1024 .bf16 := k0_pay8 (View.ld x3 rAct)
/-- The input weights' gates: real parts z, r, h; imaginary parts z, r, h. -/
def wRe0 : FVec F S1024x1024 .bf16 := k0_pay9 (View.ld x4 rG0)
def wRe1 : FVec F S1024x1024 .bf16 := k0_pay10 (View.ld x4 rG1)
def wRe2 : FVec F S1024x1024 .bf16 := k0_pay11 (View.ld x4 rG2)
def wIm0 : FVec F S1024x1024 .bf16 := k0_pay12 (View.ld x5 rG0)
def wIm1 : FVec F S1024x1024 .bf16 := k0_pay13 (View.ld x5 rG1)
def wIm2 : FVec F S1024x1024 .bf16 := k0_pay14 (View.ld x5 rG2)
/-- The recurrent weights' gates. -/
def uRe0 : FVec F S1024x1024 .bf16 := k0_pay15 (View.ld x6 rG0)
def uRe1 : FVec F S1024x1024 .bf16 := k0_pay16 (View.ld x6 rG1)
def uRe2 : FVec F S1024x1024 .bf16 := k0_pay17 (View.ld x6 rG2)
def uIm0 : FVec F S1024x1024 .bf16 := k0_pay18 (View.ld x7 rG0)
def uIm1 : FVec F S1024x1024 .bf16 := k0_pay19 (View.ld x7 rG1)
def uIm2 : FVec F S1024x1024 .bf16 := k0_pay20 (View.ld x7 rG2)
/-- The biases' gates r and h (gate z's enter through the payloads that add them). -/
def bRe1 : FVec F S1024 .f32 := k0_pay21 (View.ld x8 rB1)
def bRe2 : FVec F S1024 .f32 := k0_pay22 (View.ld x8 rB2)
def bIm1 : FVec F S1024 .f32 := k0_pay23 (View.ld x9 rB1)
def bIm2 : FVec F S1024 .f32 := k0_pay24 (View.ld x9 rB2)

/-- x W_z, imaginary part, without its bias. -/
def xzIm0 : FVec F S128x1024 .f32 := k0_pay25 (xReB x0) (xImB x1) (wRe0 x4) (wIm0 x5)
/-- x W_z + b_z, real part. -/
def xzRe : FVec F S128x1024 .f32 := k0_pay26 (xReB x0) (xImB x1) (wRe0 x4) (wIm0 x5) (View.ld x8 rB0)
/-- b_z's imaginary part, one copy per row. -/
def bzIm : FVec F S128x1024 .f32 := k0_pay27 (View.ld x9 rB0)
/-- x W_z + b_z, imaginary part. -/
def xzIm : FVec F S128x1024 .f32 := k0_pay28 (xzIm0 x0 x1 x4 x5) (bzIm x9)
/-- x W_r + b_r, real and imaginary parts. -/
def xrRe : FVec F S128x1024 .f32 := k0_pay29 (xReB x0) (xImB x1) (wRe1 x4) (wIm1 x5) (bRe1 x8)
def xrIm : FVec F S128x1024 .f32 := k0_pay30 (xReB x0) (xImB x1) (wRe1 x4) (wIm1 x5) (bIm1 x9)
/-- x W_h + b_h, real and imaginary parts. -/
def xhRe : FVec F S128x1024 .f32 := k0_pay31 (xReB x0) (xImB x1) (wRe2 x4) (wIm2 x5) (bRe2 x8)
def xhIm : FVec F S128x1024 .f32 := k0_pay32 (xReB x0) (xImB x1) (wRe2 x4) (wIm2 x5) (bIm2 x9)
/-- h U_z, imaginary part. -/
def hzIm : FVec F S128x1024 .f32 := k0_pay33 (hReB x2) (hImB x3) (uRe0 x6) (uIm0 x7)
/-- h U_r, real and imaginary parts. -/
def hrRe : FVec F S128x1024 .f32 := k0_pay34 (hReB x2) (hImB x3) (uRe1 x6) (uIm1 x7)
def hrIm : FVec F S128x1024 .f32 := k0_pay35 (hReB x2) (hImB x3) (uRe1 x6) (uIm1 x7)
/-- 0.2 (x W_z + b_z + h U_z) + 0.5, real part. -/
def zPreRe : FVec F S128x1024 .f32 := k0_pay36 (hReB x2) (hImB x3) (uRe0 x6) (uIm0 x7) (xzRe x0 x1 x4 x5 x8)
/-- The update gate, real and imaginary parts. -/
def zRe : FVec F S128x1024 .f32 := k0_pay37 (zPreRe x0 x1 x2 x3 x4 x5 x6 x7 x8)
def zIm : FVec F S128x1024 .f32 := k0_pay38 (xzIm x0 x1 x4 x5 x9) (hzIm x2 x3 x6 x7)
/-- (r * h) U_h, imaginary part; and x W_h + b_h + (r * h) U_h, real part. -/
def rhIm : FVec F S128x1024 .f32 :=
  k0_pay41 (hRe x2) (hIm x3) (uRe2 x6) (uIm2 x7) (xrRe x0 x1 x4 x5 x8) (xrIm x0 x1 x4 x5 x9) (hrRe x2 x3 x6 x7) (hrIm x2 x3 x6 x7)
def cPreRe : FVec F S128x1024 .f32 :=
  k0_pay42 (hRe x2) (hIm x3) (uRe2 x6) (uIm2 x7) (xrRe x0 x1 x4 x5 x8) (xrIm x0 x1 x4 x5 x9) (xhRe x0 x1 x4 x5 x8) (hrRe x2 x3 x6 x7) (hrIm x2 x3 x6 x7)

/-- The new state's real parts: the block stored into the first output. -/
def newRe : FVec F S128x1024 .f32 := k0_pay1 (hRe x2) (zRe x0 x1 x2 x3 x4 x5 x6 x7 x8) (cPreRe x0 x1 x2 x3 x4 x5 x6 x7 x8 x9)
/-- The new state's imaginary parts: the block stored into the second output. -/
def newIm : FVec F S128x1024 .f32 :=
  k0_pay2 (hIm x3) (xhIm x0 x1 x4 x5 x9) (zIm x0 x1 x2 x3 x4 x5 x6 x7 x9) (rhIm x0 x1 x2 x3 x4 x5 x6 x7 x8 x9)

/-- The first output's staging buffer after the body: its one store, of the whole block. -/
def outRe : Vec F S128x1024 .f32 := View.canon [⟨rAct, newRe x0 x1 x2 x3 x4 x5 x6 x7 x8 x9⟩]
/-- The second output's staging buffer after the body. -/
def outIm : Vec F S128x1024 .f32 := View.canon [⟨rAct, newIm x0 x1 x2 x3 x4 x5 x6 x7 x8 x9⟩]

end Values

/-- One store of the whole block covers the buffer. -/
theorem cover (p0 : Vec F S128x1024 .f32) (y : S128x1024.Idx) :
    ∃ pc ∈ ([⟨rAct, p0⟩] : List (View.Piece (Elt F) S128x1024 .f32)), y ∈ pc.1.set :=
  View.cover_of_tiled [⟨rAct, p0⟩] S128x1024.size (by rfl) y

/-! ## The body's triple -/

set_option maxHeartbeats 4000000 in
/-- The kernel body on whole staging memrefs, the inputs' at contents `x0 … x9` and the outputs' at anything, runs to the
    continuation holding the inputs' as they were and the outputs' at `outRe`, `outIm` of the inputs. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S3x1024x1024 .bf16) (harg5 : arg5.IsWhole) (arg6 : Memref sig .tc .vmem S3x1024x1024 .bf16) (harg6 : arg6.IsWhole) (arg7 : Memref sig .tc .vmem S3x1024x1024 .bf16) (harg7 : arg7.IsWhole) (arg8 : Memref sig .tc .vmem S3x1024x1024 .bf16) (harg8 : arg8.IsWhole) (arg9 : Memref sig .tc .vmem S3x1024 .f32) (harg9 : arg9.IsWhole) (arg10 : Memref sig .tc .vmem S3x1024 .f32) (harg10 : arg10.IsWhole) (arg11 : Memref sig .tc .vmem S128x1024 .f32) (harg11 : arg11.IsWhole) (arg12 : Memref sig .tc .vmem S128x1024 .f32) (harg12 : arg12.IsWhole)
    (x0 x1 x2 x3 : Vec F S128x1024 .f32) (x4 x5 x6 x7 : Vec F S3x1024x1024 .bf16) (x8 x9 : Vec F S3x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (outRe x0 x1 x2 x3 x4 x5 x6 x7 x8 x9) ∗ owns (c : Thread nD τ) arg12 fullShare (outIm x0 x1 x2 x3 x4 x5 x6 x7 x8 x9)) -∗ K ⟨⟩))
      ⊢ wp frame (wpE (defs₀ (F := F)) Variants.none c none) E (cc0__cgru_kernel i arg1 harg1 arg2 harg2 arg3 harg3 arg4 harg4 arg5 harg5 arg6 harg6 arg7 harg7 arg8 harg8 arg9 harg9 arg10 harg10 arg11 harg11 arg12 harg12) K := by
  simp only [cc0__cgru_kernel_eq_skeleton]; unfold cc0__cgru_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover _)
  iexists _; isplitr
  swap; · iexact H11
  ipureintro
  try dsimp only
  exact View.read_writes_eq_canon _ _ _ (cover _)

end Cert.KernelIdeal.Body

end
-- ==== Proof.KI.Run.lean ====
/-
  The frame run of the one pipeline, and the frame.

  The proof data: every staged array as the region finds it; after the body at grid point `t` each input window's buffer
  still at its block and the two output windows' buffers at the body's two stored blocks (`Body.outRe`, `Body.outIm` of
  the ten input blocks at `t`); nothing carried between points beyond what the class's invariant holds (the scoped rest
  and the generator register, untouched); nothing owed; full shares.  The body obligation at a generic point is the
  body's triple at the blocks; the library's frame run around the region then gives every staged array after the run
  as the library computes it from this data, and every other unscoped buffer as the last host operation leaves it.
-/
import proofs.«126988_j23922967838776_1_alg».proof.Proof.KI.Around
import proofs.«126988_j23922967838776_1_alg».proof.Proof.KI.Body

set_option maxRecDepth 16384

noncomputable section

namespace Cert.KernelIdeal.Run

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Body.outRe (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => Body.outIm (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (the definition projected; the fold `V` is never opened). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = Body.outRe (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after_11 (c : Dev nD) (t : Fin cfg0.N) : (dats m 0 c).after 11 t = Body.outIm (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point. -/
theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d
theorem before_8 (c : Dev nD) (t : Fin cfg0.N) (d) : (dats m 0 c).before 8 t d = iblk m c 8 t :=
  before_of_8 m (dats m 0 c) (A_eq m c 8) (after_8 m c) t d
theorem before_9 (c : Dev nD) (t : Fin cfg0.N) (d) : (dats m 0 c).before 9 t d = iblk m c 9 t :=
  before_of_9 m (dats m 0 c) (A_eq m c 9) (after_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Body.sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every staged array at
    what the library computes from the proof data and every other unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Run

end
-- ==== Proof.Spec.lean ====
/-
  A complex-valued gated recurrent cell in exact arithmetic on the extended reals.

  A state row is a complex vector of 1024 entries kept as two real rows, the real parts and the imaginary parts.  A gate's
  weight is a complex 1024 x 1024 matrix kept the same way.  The product of a row (a_re, a_im) with a gate (W_re, W_im)
  is taken as the cell takes it:
      real part       a_re W_re + a_im W_im,
      imaginary part  a_im W_re - a_re W_im.
  With the hard sigmoid s(y) = min 1 (max 0 (0.2 y + 0.5)) applied to each part separately, the cell computes, for
  the input row x and the previous state h,
      z = s (x W_z + b_z + h U_z),   r = s (x W_r + b_r + h U_r),
      c = tanh (x W_h + b_h + (r * h) U_h),          (r * h entrywise, each part by itself)
      out = z * h + (1 - z) * c.
  Everything here is stated for ONE row and ONE output column, over plain functions of finite indices, and then read
  off the argument arrays: a [4096, 2048] activation array holds a row's real parts in columns 0..1023 and its
  imaginary parts in columns 1024..2047; a [1024, 3072] weight array holds the three gates z, r, h side by side.
-/
import Idealize.ShloMosaic.PureOps.Ideal
import Idealize.ShloMosaic.Lib.ValueIdx

noncomputable section

namespace Cert.Gru

open Idealize.ShloMosaic Idealize.ShloMosaic.ValueIdx

/-- Half of one state row: the real parts, or the imaginary parts. -/
abbrev Row := Fin 1024 → EReal
/-- One part of one gate's weight: row k, column j. -/
abbrev Mat := Fin 1024 → Fin 1024 → EReal

/-- An extended real that is a real number. -/
def IsReal (y : EReal) : Prop := ∃ r : ℝ, y = (r : EReal)

/-- Real part of a row times a gate, at column j. -/
def cre (ar ai : Row) (Wre Wim : Mat) (j : Fin 1024) : EReal :=
  (∑ k : Fin 1024, ar k * Wre k j) + (∑ k : Fin 1024, ai k * Wim k j)

/-- Imaginary part of a row times a gate, at column j. -/
def cim (ar ai : Row) (Wre Wim : Mat) (j : Fin 1024) : EReal :=
  (∑ k : Fin 1024, ai k * Wre k j) - (∑ k : Fin 1024, ar k * Wim k j)

/-- The hard sigmoid: 0.2 y + 0.5 clipped to [0, 1]; the four constants are the single-precision ones. -/
def hsig (y : EReal) : EReal :=
  min (Ideal.ofBits .f32 0x3F800000#32)
    (max (Ideal.ofBits .f32 0x00000000#32) (Ideal.ofBits .f32 0x3E4CCCCD#32 * y + Ideal.ofBits .f32 0x3F000000#32))

/-- What one output row depends on: the input row and the previous state row (each as real and imaginary parts), the
    three gates (z, r, h: index 0, 1, 2) of the input weights W and of the recurrent weights U, and the gates' biases. -/
structure Cell where
  xr : Row
  xi : Row
  hr : Row
  hi : Row
  Wr : Fin 3 → Mat
  Wi : Fin 3 → Mat
  Ur : Fin 3 → Mat
  Ui : Fin 3 → Mat
  br : Fin 3 → Row
  bi : Fin 3 → Row

namespace Cell

variable (C : Cell)

/-- Update gate, real part. -/
def zre (j : Fin 1024) : EReal := hsig ((cre C.xr C.xi (C.Wr 0) (C.Wi 0) j + C.br 0 j) + cre C.hr C.hi (C.Ur 0) (C.Ui 0) j)
/-- Update gate, imaginary part. -/
def zim (j : Fin 1024) : EReal := hsig ((cim C.xr C.xi (C.Wr 0) (C.Wi 0) j + C.bi 0 j) + cim C.hr C.hi (C.Ur 0) (C.Ui 0) j)
/-- Reset gate, real part. -/
def rre (j : Fin 1024) : EReal := hsig ((cre C.xr C.xi (C.Wr 1) (C.Wi 1) j + C.br 1 j) + cre C.hr C.hi (C.Ur 1) (C.Ui 1) j)
/-- Reset gate, imaginary part. -/
def rim (j : Fin 1024) : EReal := hsig ((cim C.xr C.xi (C.Wr 1) (C.Wi 1) j + C.bi 1 j) + cim C.hr C.hi (C.Ur 1) (C.Ui 1) j)

/-- The reset state, real parts: r_re * h_re. -/
def pre : Row := fun k => C.rre k * C.hr k
/-- The reset state, imaginary parts: r_im * h_im. -/
def pim : Row := fun k => C.rim k * C.hi k

/-- Candidate state, real part. -/
def candRe (j : Fin 1024) : EReal :=
  Ideal.tanh ((cre C.xr C.xi (C.Wr 2) (C.Wi 2) j + C.br 2 j) + cre C.pre C.pim (C.Ur 2) (C.Ui 2) j)
/-- Candidate state, imaginary part. -/
def candIm (j : Fin 1024) : EReal :=
  Ideal.tanh ((cim C.xr C.xi (C.Wr 2) (C.Wi 2) j + C.bi 2 j) + cim C.pre C.pim (C.Ur 2) (C.Ui 2) j)

/-- New state, real part. -/
def ore (j : Fin 1024) : EReal :=
  C.zre j * C.hr j + (Ideal.ofBits .f32 0x3F800000#32 - C.zre j) * C.candRe j
/-- New state, imaginary part. -/
def oim (j : Fin 1024) : EReal :=
  C.zim j * C.hi j + (Ideal.ofBits .f32 0x3F800000#32 - C.zim j) * C.candIm j

end Cell

/-! ## Read off the argument arrays -/

/-- A [4096, 2048] array of activations: row b, real parts then imaginary parts. -/
abbrev Act := (⟨2, ![4096, 2048]⟩ : Shape).Idx → EReal
/-- A [1024, 3072] weight array: the gates z, r, h side by side. -/
abbrev Wts := (⟨2, ![1024, 3072]⟩ : Shape).Idx → EReal
/-- A [3072] bias: the gates z, r, h one after the other. -/
abbrev Bias := (⟨1, ![3072]⟩ : Shape).Idx → EReal

/-- Column k of the real half. -/
def lo (k : Fin 1024) : Fin 2048 := ⟨k.val, by omega⟩
/-- Column k of the imaginary half. -/
def up (k : Fin 1024) : Fin 2048 := ⟨1024 + k.val, by omega⟩
/-- Column j of gate g. -/
def gcol (g : Fin 3) (j : Fin 1024) : Fin 3072 := ⟨g.val * 1024 + j.val, by omega⟩

/-- Row b's real parts. -/
def rowLo (a : Act) (b : Fin 4096) : Row := fun k => a (ix2 b (lo k))
/-- Row b's imaginary parts. -/
def rowUp (a : Act) (b : Fin 4096) : Row := fun k => a (ix2 b (up k))
/-- Gate g of a weight array. -/
def gate (W : Wts) (g : Fin 3) : Mat := fun k j => W (ix2 k (gcol g j))
/-- Gate g of a bias. -/
def gbias (v : Bias) (g : Fin 3) : Row := fun j => v (ix1 (gcol g j))

/-- Row b's cell, read off the eight argument arrays. -/
def rowCell (x h : Act) (Wr Wi Ur Ui : Wts) (br bi : Bias) (b : Fin 4096) : Cell where
  xr := rowLo x b
  xi := rowUp x b
  hr := rowLo h b
  hi := rowUp h b
  Wr := gate Wr
  Wi := gate Wi
  Ur := gate Ur
  Ui := gate Ui
  br := gbias br
  bi := gbias bi

/-- The new state as one [4096, 2048] array of the eight arguments: row b, real parts then imaginary parts. -/
def out (x h : Act) (Wr Wi Ur Ui : Wts) (br bi : Bias) : Act := fun i =>
  if hlt : (i 1).val < 1024 then (rowCell x h Wr Wi Ur Ui br bi (i 0)).ore ⟨(i 1).val, hlt⟩
  else (rowCell x h Wr Wi Ur Ui br bi (i 0)).oim ⟨(i 1).val - 1024, by have := idx2_lt1 i; omega⟩

end Cert.Gru

end
-- ==== Proof.KI.Entry.lean ====
/-
  What the region finds in the arrays it stages, entry by entry, in exact arithmetic.

  The fifty host operations before the region cut the arguments into the kernel's operands: the input and state arrays
  into their real halves (columns 0..1023) and imaginary halves (columns 1024..2047); each weight array into its three
  gates (columns g*1024 .. g*1024+1023), stacked as a [3, 1024, 1024] array and changed to the matrix unit's format
  (the identity on exact values); each bias into its three gates stacked as [3, 1024].
-/
import proofs.«126988_j23922967838776_1_alg».proof.Proof.KI.Around
import proofs.«126988_j23922967838776_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Cert.KernelIdeal Cert.KernelIdeal.Gen Cert.KernelIdeal.Around
open Idealize.ShloMosaic Idealize.ShloMosaic.TcCoe Idealize.ShloMosaic.ValueIdx Idealize.SL.Sem

variable (m : (ℓ : Loc nD τ sig) → Buf (Elt Ideal) ℓ) (c : Dev nD)

section Reads
variable {α : Type}

/-- A unit axis put in front of a matrix: the entry at (0, k, j) is the matrix's at (k, j). -/
private theorem unit3_apply (X : S1024x1024.Idx → α) (k j : Fin 1024) :
    broadcastInDim S1x1024x1024 ![1, 2] bcast_S1024x1024_S1x1024x1024_1_2 X (ix3 (0 : Fin 1) k j) = X (ix2 k j) :=
  broadcastInDim_apply ![1, 2] bcast_S1024x1024_S1x1024x1024_1_2 X (ix3 (0 : Fin 1) k j) (ix2 k j) (fun a => match a with
    | ⟨0, _⟩ => rfl
    | ⟨1, _⟩ => rfl)

/-- A unit axis put in front of a vector: the entry at (0, j) is the vector's at j. -/
private theorem unit2_apply (X : S1024.Idx → α) (j : Fin 1024) :
    broadcastInDim S1x1024 ![1] bcast_S1024_S1x1024_1 X (ix2 (0 : Fin 1) j) = X (ix1 j) :=
  broadcastInDim_apply ![1] bcast_S1024_S1x1024_1 X (ix2 (0 : Fin 1) j) (ix1 j) (fun a => match a with
    | ⟨0, _⟩ => rfl)

/-- A band of a vector from position o: the entry at j is the vector's at o + j. -/
private theorem band1_apply {n w : Nat} (o : Nat) (X : (⟨1, ![n]⟩ : Shape).Idx → α)
    (h : (⟨1, ![n]⟩ : Shape).Slices ![o] ⟨1, ![w]⟩) (j : Fin w) (q : Fin n) (hq : q.val = o + j.val) :
    extractStridedSlice ⟨1, ![w]⟩ ![o] X h (ix1 j) = X (ix1 q) :=
  extractStridedSlice_apply _ _ _ _ _ (fun ax => by
    match ax with
    | ⟨0, _⟩ => exact hq)

/-- Three slabs stacked along a new leading axis: slab g of the stack is the g-th one. -/
private theorem stack3_apply (A B C : S1x1024x1024.Idx → α) (g : Fin 3) (k j : Fin 1024) :
    concatenate S3x1024x1024 0 [⟨S1x1024x1024, A⟩, ⟨S1x1024x1024, B⟩, ⟨S1x1024x1024, C⟩]
      concatenates_S1x1024x1024_S1x1024x1024_S1x1024x1024_S3x1024x1024_d0 (ix3 g k j)
      = (![A, B, C] g) (ix3 (0 : Fin 1) k j) :=
  concatenate_ofFn_unit_apply (t := S3x1024x1024) (s₁ := S1x1024x1024) 0 ![A, B, C]
    concatenates_S1x1024x1024_S1x1024x1024_S1x1024x1024_S3x1024x1024_d0 rfl rfl (ix3 g k j) g rfl (ix3 (0 : Fin 1) k j)
    (fun b hb => match b, hb with
      | ⟨0, _⟩, hb => absurd rfl hb
      | ⟨1, _⟩, _ => rfl
      | ⟨2, _⟩, _ => rfl)

/-- Three rows stacked along a new leading axis: row g of the stack is the g-th one. -/
private theorem stack2_apply (A B C : S1x1024.Idx → α) (g : Fin 3) (j : Fin 1024) :
    concatenate S3x1024 0 [⟨S1x1024, A⟩, ⟨S1x1024, B⟩, ⟨S1x1024, C⟩]
      concatenates_S1x1024_S1x1024_S1x1024_S3x1024_d0 (ix2 g j)
      = (![A, B, C] g) (ix2 (0 : Fin 1) j) :=
  concatenate_ofFn_unit_apply (t := S3x1024) (s₁ := S1x1024) 0 ![A, B, C]
    concatenates_S1x1024_S1x1024_S1x1024_S3x1024_d0 rfl rfl (ix2 g j) g rfl (ix2 (0 : Fin 1) j)
    (fun b hb => match b, hb with
      | ⟨0, _⟩, hb => absurd rfl hb
      | ⟨1, _⟩, _ => rfl)

/-- The three column bands of a weight array, each given a leading unit axis and stacked: the entry at (g, k, j) is the
    array's at row k, column g * 1024 + j. -/
private theorem gates_apply (W : S1024x3072.Idx → α) (g : Fin 3) (k j : Fin 1024) :
    concatenate S3x1024x1024 0
      [⟨S1x1024x1024, broadcastInDim S1x1024x1024 ![1, 2] bcast_S1024x1024_S1x1024x1024_1_2
          (extractStridedSlice S1024x1024 ![0, 0] W slices_S1024x3072_S1024x1024_0_0)⟩,
       ⟨S1x1024x1024, broadcastInDim S1x1024x1024 ![1, 2] bcast_S1024x1024_S1x1024x1024_1_2
          (extractStridedSlice S1024x1024 ![0, 1024] W slices_S1024x3072_S1024x1024_0_1024)⟩,
       ⟨S1x1024x1024, broadcastInDim S1x1024x1024 ![1, 2] bcast_S1024x1024_S1x1024x1024_1_2
          (extractStridedSlice S1024x1024 ![0, 2048] W slices_S1024x3072_S1024x1024_0_2048)⟩]
      concatenates_S1x1024x1024_S1x1024x1024_S1x1024x1024_S3x1024x1024_d0 (ix3 g k j)
      = W (ix2 k (Gru.gcol g j)) := by
  rw [stack3_apply]
  match g with
  | ⟨0, hg⟩ =>
    exact (unit3_apply (extractStridedSlice S1024x1024 ![0, 0] W slices_S1024x3072_S1024x1024_0_0) k j).trans
      (slice2_axis1_apply 0 W _ k j (Gru.gcol ⟨0, hg⟩ j) (by show 0 * 1024 + j.val = 0 + j.val; omega))
  | ⟨1, hg⟩ =>
    exact (unit3_apply (extractStridedSlice S1024x1024 ![0, 1024] W slices_S1024x3072_S1024x1024_0_1024) k j).trans
      (slice2_axis1_apply 1024 W _ k j (Gru.gcol ⟨1, hg⟩ j) (by show 1 * 1024 + j.val = 1024 + j.val; omega))
  | ⟨2, hg⟩ =>
    exact (unit3_apply (extractStridedSlice S1024x1024 ![0, 2048] W slices_S1024x3072_S1024x1024_0_2048) k j).trans
      (slice2_axis1_apply 2048 W _ k j (Gru.gcol ⟨2, hg⟩ j) (by show 2 * 1024 + j.val = 2048 + j.val; omega))

/-- The three bands of a bias vector, each given a leading unit axis and stacked: the entry at (g, j) is the vector's at
    g * 1024 + j. -/
private theorem biases_apply (v : S3072.Idx → α) (g : Fin 3) (j : Fin 1024) :
    concatenate S3x1024 0
      [⟨S1x1024, broadcastInDim S1x1024 ![1] bcast_S1024_S1x1024_1 (extractStridedSlice S1024 ![0] v slices_S3072_S1024_0)⟩,
       ⟨S1x1024, broadcastInDim S1x1024 ![1] bcast_S1024_S1x1024_1 (extractStridedSlice S1024 ![1024] v slices_S3072_S1024_1024)⟩,
       ⟨S1x1024, broadcastInDim S1x1024 ![1] bcast_S1024_S1x1024_1 (extractStridedSlice S1024 ![2048] v slices_S3072_S1024_2048)⟩]
      concatenates_S1x1024_S1x1024_S1x1024_S3x1024_d0 (ix2 g j)
      = v (ix1 (Gru.gcol g j)) := by
  rw [stack2_apply]
  match g with
  | ⟨0, hg⟩ =>
    exact (unit2_apply (extractStridedSlice S1024 ![0] v slices_S3072_S1024_0) j).trans
      (band1_apply 0 v _ j (Gru.gcol ⟨0, hg⟩ j) (by show 0 * 1024 + j.val = 0 + j.val; omega))
  | ⟨1, hg⟩ =>
    exact (unit2_apply (extractStridedSlice S1024 ![1024] v slices_S3072_S1024_1024) j).trans
      (band1_apply 1024 v _ j (Gru.gcol ⟨1, hg⟩ j) (by show 1 * 1024 + j.val = 1024 + j.val; omega))
  | ⟨2, hg⟩ =>
    exact (unit2_apply (extractStridedSlice S1024 ![2048] v slices_S3072_S1024_2048) j).trans
      (band1_apply 2048 v _ j (Gru.gcol ⟨2, hg⟩ j) (by show 2 * 1024 + j.val = 2048 + j.val; omega))

end Reads

section Fold

/-- What a three-operand operation leaves in its result buffer, each operand's contents named at its own buffer. -/
private theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Fold

/-- Unfolds the contents of one buffer after the host operations: at its own result buffer an operation leaves its
    function's value of its operands' contents, at any other buffer what was there. -/
local macro "entry_results" : tactic =>
  `(tactic| simp (disch := decide) only [StableHlo.after_cons, StableHlo.after_nil,
      StableHlo.unary_result', nary3_result, StableHlo.unary_result_ne', StableHlo.nary_result_ne'])

/-- The input rows' real parts: columns 0..1023 of the first argument. -/
theorem xRe (b : Fin 4096) (k : Fin 1024) :
    (V m c main_v46 : S4096x1024.Idx → EReal) (ix2 b k) = (m ((c : Thread nD τ).loc main_arg0) : S4096x2048.Idx → EReal) (ix2 b (Gru.lo k)) := by
  show StableHlo.after hostOps0 (fun b => m (c, b)) (Proc.devRef .tc main_v46) (ix2 b k) = _
  entry_results
  exact slice2_axis1_apply 0 _ _ b k (Gru.lo k) (by show k.val = 0 + k.val; omega)
/-- The input rows' imaginary parts: columns 1024..2047. -/
theorem xIm (b : Fin 4096) (k : Fin 1024) :
    (V m c main_v47 : S4096x1024.Idx → EReal) (ix2 b k) = (m ((c : Thread nD τ).loc main_arg0) : S4096x2048.Idx → EReal) (ix2 b (Gru.up k)) := by
  show StableHlo.after hostOps0 (fun b => m (c, b)) (Proc.devRef .tc main_v47) (ix2 b k) = _
  entry_results
  exact slice2_axis1_apply 1024 _ _ b k (Gru.up k) (by show 1024 + k.val = 1024 + k.val; rfl)
/-- The state rows' real parts. -/
theorem hRe (b : Fin 4096) (k : Fin 1024) :
    (V m c main_v48 : S4096x1024.Idx → EReal) (ix2 b k) = (m ((c : Thread nD τ).loc main_arg1) : S4096x2048.Idx → EReal) (ix2 b (Gru.lo k)) := by
  show StableHlo.after hostOps0 (fun b => m (c, b)) (Proc.devRef .tc main_v48) (ix2 b k) = _
  entry_results
  exact slice2_axis1_apply 0 _ _ b k (Gru.lo k) (by show k.val = 0 + k.val; omega)
/-- The state rows' imaginary parts. -/
theorem hIm (b : Fin 4096) (k : Fin 1024) :
    (V m c main_v49 : S4096x1024.Idx → EReal) (ix2 b k) = (m ((c : Thread nD τ).loc main_arg1) : S4096x2048.Idx → EReal) (ix2 b (Gru.up k)) := by
  show StableHlo.after hostOps0 (fun b => m (c, b)) (Proc.devRef .tc main_v49) (ix2 b k) = _
  entry_results
  exact slice2_axis1_apply 1024 _ _ b k (Gru.up k) (by show 1024 + k.val = 1024 + k.val; rfl)
/-- The input weights' real parts, gate g. -/
theorem wRe (g : Fin 3) (k j : Fin 1024) :
    (V m c main_v22 : S3x1024x1024.Idx → EReal) (ix3 g k j) = (m ((c : Thread nD τ).loc main_arg2) : S1024x3072.Idx → EReal) (ix2 k (Gru.gcol g j)) := by
  show StableHlo.after hostOps0 (fun b => m (c, b)) (Proc.devRef .tc main_v22) (ix3 g k j) = _
  entry_results
  exact gates_apply _ g k j
/-- The input weights' imaginary parts, gate g. -/
theorem wIm (g : Fin 3) (k j : Fin 1024) :
    (V m c main_v27 : S3x1024x1024.Idx → EReal) (ix3 g k j) = (m ((c : Thread nD τ).loc main_arg3) : S1024x3072.Idx → EReal) (ix2 k (Gru.gcol g j)) := by
  show StableHlo.after hostOps0 (fun b => m (c, b)) (Proc.devRef .tc main_v27) (ix3 g k j) = _
  entry_results
  exact gates_apply _ g k j
/-- The recurrent weights' real parts, gate g. -/
theorem uRe (g : Fin 3) (k j : Fin 1024) :
    (V m c main_v32 : S3x1024x1024.Idx → EReal) (ix3 g k j) = (m ((c : Thread nD τ).loc main_arg4) : S1024x3072.Idx → EReal) (ix2 k (Gru.gcol g j)) := by
  show StableHlo.after hostOps0 (fun b => m (c, b)) (Proc.devRef .tc main_v32) (ix3 g k j) = _
  entry_results
  exact gates_apply _ g k j
/-- The recurrent weights' imaginary parts, gate g. -/
theorem uIm (g : Fin 3) (k j : Fin 1024) :
    (V m c main_v37 : S3x1024x1024.Idx → EReal) (ix3 g k j) = (m ((c : Thread nD τ).loc main_arg5) : S1024x3072.Idx → EReal) (ix2 k (Gru.gcol g j)) := by
  show StableHlo.after hostOps0 (fun b => m (c, b)) (Proc.devRef .tc main_v37) (ix3 g k j) = _
  entry_results
  exact gates_apply _ g k j
/-- The bias's real parts, gate g. -/
theorem bRe (g : Fin 3) (j : Fin 1024) :
    (V m c main_v41 : S3x1024.Idx → EReal) (ix2 g j) = (m ((c : Thread nD τ).loc main_arg6) : S3072.Idx → EReal) (ix1 (Gru.gcol g j)) := by
  show StableHlo.after hostOps0 (fun b => m (c, b)) (Proc.devRef .tc main_v41) (ix2 g j) = _
  entry_results
  exact biases_apply _ g j
/-- The bias's imaginary parts, gate g. -/
theorem bIm (g : Fin 3) (j : Fin 1024) :
    (V m c main_v45 : S3x1024.Idx → EReal) (ix2 g j) = (m ((c : Thread nD τ).loc main_arg7) : S3072.Idx → EReal) (ix1 (Gru.gcol g j)) := by
  show StableHlo.after hostOps0 (fun b => m (c, b)) (Proc.devRef .tc main_v45) (ix2 g j) = _
  entry_results
  exact biases_apply _ g j

end Cert.KernelIdeal.Entry

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KI.Cell.lean ====
/-
  The body's two stored blocks, entry by entry, in exact arithmetic.

  Row p of the two [128, 1024] blocks the body stores depends on row p of the four activation blocks and on the whole of
  the weight and bias blocks: it is the cell of the specification (Spec.lean) at those rows.  The matrix unit's product
  into a zero accumulator is the plain sum over k; the changes of format are the identity; the bias row is added to
  every row.
-/
import proofs.«126988_j23922967838776_1_alg».proof.Proof.KI.Body
import proofs.«126988_j23922967838776_1_alg».proof.Proof.Spec
import proofs.«126988_j23922967838776_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Cell

open Cert.KernelIdeal Cert.KernelIdeal.Gen
open Idealize.ShloMosaic Idealize.ShloMosaic.ValueIdx

variable (x0 x1 x2 x3 : Vec Ideal S128x1024 .f32) (x4 x5 x6 x7 : Vec Ideal S3x1024x1024 .bf16) (x8 x9 : Vec Ideal S3x1024 .f32)

/-- Row p's cell, read off the ten input blocks. -/
def blockCell (p : Fin 128) : Gru.Cell where
  xr := fun k => x0 (ix2 p k)
  xi := fun k => x1 (ix2 p k)
  hr := fun k => x2 (ix2 p k)
  hi := fun k => x3 (ix2 p k)
  Wr := fun g k j => x4 (ix3 g k j)
  Wi := fun g k j => x5 (ix3 g k j)
  Ur := fun g k j => x6 (ix3 g k j)
  Ui := fun g k j => x7 (ix3 g k j)
  br := fun g j => x8 (ix2 g j)
  bi := fun g j => x9 (ix2 g j)

/-! ## Reading a block, a gate's slab and a bias row -/

/-- The matrix unit's product into a zero accumulator, at row p and column q, is the sum over k of l[p,k] r[k,q]. -/
private theorem mm_apply {φ₁ φ₂ : FTy} (l : FVec Ideal S128x1024 φ₁) (r : FVec Ideal S1024x1024 φ₂) (p : Fin 128) (q : Fin 1024) :
    matmul dot_S128x1024_S1024x1024_S128x1024_1_0_0_1_n_n none l r (constant S128x1024 .f32 0x00000000#32) (ix2 p q)
      = ∑ k : Fin 1024, l (ix2 p k) * r (ix2 k q) :=
  plain_matmul_zero_apply (M := 128) (K := 1024) (N := 1024) none l r (ix2 p q)

/-- The whole activation block read at (p, q). -/
private theorem ld_act {e : EltTy} (x : Vec Ideal S128x1024 e) (p : Fin 128) (q : Fin 1024) :
    View.ld x Body.rAct (ix2 p q) = x (ix2 p q) := by
  refine congrArg x (funext fun a => Fin.ext ?_)
  match a with
  | ⟨0, _⟩ => show 0 + 1 * p.val = p.val; omega
  | ⟨1, _⟩ => show 0 + 1 * q.val = q.val; omega

/-- Gate 0's slab read at (0, k, j) is the weight block at (0, k, j). -/
private theorem ld_g0 {e : EltTy} (x : Vec Ideal S3x1024x1024 e) (u : Fin 1) (k j : Fin 1024) :
    View.ld x Body.rG0 (ix3 u k j) = x (ix3 (0 : Fin 3) k j) := by
  refine congrArg x (funext fun a => Fin.ext ?_)
  match a with
  | ⟨0, _⟩ => show 0 + 1 * u.val = 0; omega
  | ⟨1, _⟩ => show 0 + 1 * k.val = k.val; omega
  | ⟨2, _⟩ => show 0 + 1 * j.val = j.val; omega

/-- Gate 0's bias row read at (0, j) is the bias block at (0, j). -/
private theorem ld_b0 {e : EltTy} (x : Vec Ideal S3x1024 e) (u : Fin 1) (j : Fin 1024) :
    View.ld x Body.rB0 (ix2 u j) = x (ix2 (0 : Fin 3) j) := by
  refine congrArg x (funext fun a => Fin.ext ?_)
  match a with
  | ⟨0, _⟩ => show 0 + 1 * u.val = 0; omega
  | ⟨1, _⟩ => show 0 + 1 * j.val = j.val; omega

/-- Gate 1's slab read at (0, k, j) is the weight block at (1, k, j). -/
private theorem ld_g1 {e : EltTy} (x : Vec Ideal S3x1024x1024 e) (u : Fin 1) (k j : Fin 1024) :
    View.ld x Body.rG1 (ix3 u k j) = x (ix3 (1 : Fin 3) k j) := by
  refine congrArg x (funext fun a => Fin.ext ?_)
  match a with
  | ⟨0, _⟩ => show 1 + 1 * u.val = 1; omega
  | ⟨1, _⟩ => show 0 + 1 * k.val = k.val; omega
  | ⟨2, _⟩ => show 0 + 1 * j.val = j.val; omega

/-- Gate 1's bias row read at (0, j) is the bias block at (1, j). -/
private theorem ld_b1 {e : EltTy} (x : Vec Ideal S3x1024 e) (u : Fin 1) (j : Fin 1024) :
    View.ld x Body.rB1 (ix2 u j) = x (ix2 (1 : Fin 3) j) := by
  refine congrArg x (funext fun a => Fin.ext ?_)
  match a with
  | ⟨0, _⟩ => show 1 + 1 * u.val = 1; omega
  | ⟨1, _⟩ => show 0 + 1 * j.val = j.val; omega

/-- Gate 2's slab read at (0, k, j) is the weight block at (2, k, j). -/
private theorem ld_g2 {e : EltTy} (x : Vec Ideal S3x1024x1024 e) (u : Fin 1) (k j : Fin 1024) :
    View.ld x Body.rG2 (ix3 u k j) = x (ix3 (2 : Fin 3) k j) := by
  refine congrArg x (funext fun a => Fin.ext ?_)
  match a with
  | ⟨0, _⟩ => show 2 + 1 * u.val = 2; omega
  | ⟨1, _⟩ => show 0 + 1 * k.val = k.val; omega
  | ⟨2, _⟩ => show 0 + 1 * j.val = j.val; omega

/-- Gate 2's bias row read at (0, j) is the bias block at (2, j). -/
private theorem ld_b2 {e : EltTy} (x : Vec Ideal S3x1024 e) (u : Fin 1) (j : Fin 1024) :
    View.ld x Body.rB2 (ix2 u j) = x (ix2 (2 : Fin 3) j) := by
  refine congrArg x (funext fun a => Fin.ext ?_)
  match a with
  | ⟨0, _⟩ => show 2 + 1 * u.val = 2; omega
  | ⟨1, _⟩ => show 0 + 1 * j.val = j.val; omega

/-- A row of 1024 entries spread over the 128 rows reads its entry q in every row. -/
private theorem row_apply (c : FVec Ideal S1024 .f32) (p : Fin 128) (q : Fin 1024) :
    broadcastTo S128x1024 (shapeCast S1x1024 c shapeCasts_S1024_S1x1024) broadcasts_S1x1024_S128x1024 (ix2 p q) = c (ix1 q) :=
  (broadcastTo_1b_ab_apply _ _ p q).trans (shapeCast_a_1a_apply c _ 0 q)

/-- The same of a [1, 1024] row flattened first. -/
private theorem row0_apply (c : Vec Ideal S1x1024 .f32) (p : Fin 128) (q : Fin 1024) :
    broadcastTo S128x1024 (shapeCast S1x1024 (shapeCast S1024 c shapeCasts_S1x1024_S1024) shapeCasts_S1024_S1x1024)
        broadcasts_S1x1024_S128x1024 (ix2 p q) = c (ix2 (0 : Fin 1) q) :=
  (row_apply _ p q).trans (shapeCast_1a_a_apply c _ q)

/-! ## The body's named values, each read at (p, q) from the values before it -/

private theorem pay25_apply (a b : FVec Ideal S128x1024 .bf16) (w v : FVec Ideal S1024x1024 .bf16) (p : Fin 128) (q : Fin 1024) :
    k0_pay25 (F := Ideal) a b w v (ix2 p q)
      = (∑ k : Fin 1024, b (ix2 p k) * w (ix2 k q)) - (∑ k : Fin 1024, a (ix2 p k) * v (ix2 k q)) := by
  have h : k0_pay25 (F := Ideal) a b w v (ix2 p q)
      = matmul dot_S128x1024_S1024x1024_S128x1024_1_0_0_1_n_n none b w (constant S128x1024 .f32 0x00000000#32) (ix2 p q) - matmul dot_S128x1024_S1024x1024_S128x1024_1_0_0_1_n_n none a v (constant S128x1024 .f32 0x00000000#32) (ix2 p q) := rfl
  rw [h, mm_apply, mm_apply]

private theorem pay26_apply (a b : FVec Ideal S128x1024 .bf16) (w v : FVec Ideal S1024x1024 .bf16) (c : Vec Ideal S1x1024 .f32) (p : Fin 128) (q : Fin 1024) :
    k0_pay26 (F := Ideal) a b w v c (ix2 p q)
      = ((∑ k : Fin 1024, a (ix2 p k) * w (ix2 k q)) + (∑ k : Fin 1024, b (ix2 p k) * v (ix2 k q))) + c (ix2 (0 : Fin 1) q) := by
  have h : k0_pay26 (F := Ideal) a b w v c (ix2 p q)
      = (matmul dot_S128x1024_S1024x1024_S128x1024_1_0_0_1_n_n none a w (constant S128x1024 .f32 0x00000000#32) (ix2 p q) + matmul dot_S128x1024_S1024x1024_S128x1024_1_0_0_1_n_n none b v (constant S128x1024 .f32 0x00000000#32) (ix2 p q)) + broadcastTo S128x1024 (shapeCast S1x1024 (shapeCast S1024 c shapeCasts_S1x1024_S1024) shapeCasts_S1024_S1x1024) broadcasts_S1x1024_S128x1024 (ix2 p q) := rfl
  rw [h, mm_apply, mm_apply, row0_apply]

private theorem pay27_apply (c : Vec Ideal S1x1024 .f32) (p : Fin 128) (q : Fin 1024) :
    k0_pay27 (F := Ideal) c (ix2 p q)
      = c (ix2 (0 : Fin 1) q) := by
  have h : k0_pay27 (F := Ideal) c (ix2 p q)
      = broadcastTo S128x1024 (shapeCast S1x1024 (shapeCast S1024 c shapeCasts_S1x1024_S1024) shapeCasts_S1024_S1x1024) broadcasts_S1x1024_S128x1024 (ix2 p q) := rfl
  rw [h, row0_apply]

private theorem pay29_apply (a b : FVec Ideal S128x1024 .bf16) (w v : FVec Ideal S1024x1024 .bf16) (c : FVec Ideal S1024 .f32) (p : Fin 128) (q : Fin 1024) :
    k0_pay29 (F := Ideal) a b w v c (ix2 p q)
      = ((∑ k : Fin 1024, a (ix2 p k) * w (ix2 k q)) + (∑ k : Fin 1024, b (ix2 p k) * v (ix2 k q))) + c (ix1 q) := by
  have h : k0_pay29 (F := Ideal) a b w v c (ix2 p q)
      = (matmul dot_S128x1024_S1024x1024_S128x1024_1_0_0_1_n_n none a w (constant S128x1024 .f32 0x00000000#32) (ix2 p q) + matmul dot_S128x1024_S1024x1024_S128x1024_1_0_0_1_n_n none b v (constant S128x1024 .f32 0x00000000#32) (ix2 p q)) + broadcastTo S128x1024 (shapeCast S1x1024 c shapeCasts_S1024_S1x1024) broadcasts_S1x1024_S128x1024 (ix2 p q) := rfl
  rw [h, mm_apply, mm_apply, row_apply]

private theorem pay31_apply (a b : FVec Ideal S128x1024 .bf16) (w v : FVec Ideal S1024x1024 .bf16) (c : FVec Ideal S1024 .f32) (p : Fin 128) (q : Fin 1024) :
    k0_pay31 (F := Ideal) a b w v c (ix2 p q)
      = ((∑ k : Fin 1024, a (ix2 p k) * w (ix2 k q)) + (∑ k : Fin 1024, b (ix2 p k) * v (ix2 k q))) + c (ix1 q) := by
  have h : k0_pay31 (F := Ideal) a b w v c (ix2 p q)
      = (matmul dot_S128x1024_S1024x1024_S128x1024_1_0_0_1_n_n none a w (constant S128x1024 .f32 0x00000000#32) (ix2 p q) + matmul dot_S128x1024_S1024x1024_S128x1024_1_0_0_1_n_n none b v (constant S128x1024 .f32 0x00000000#32) (ix2 p q)) + broadcastTo S128x1024 (shapeCast S1x1024 c shapeCasts_S1024_S1x1024) broadcasts_S1x1024_S128x1024 (ix2 p q) := rfl
  rw [h, mm_apply, mm_apply, row_apply]

private theorem pay30_apply (a b : FVec Ideal S128x1024 .bf16) (w v : FVec Ideal S1024x1024 .bf16) (c : FVec Ideal S1024 .f32) (p : Fin 128) (q : Fin 1024) :
    k0_pay30 (F := Ideal) a b w v c (ix2 p q)
      = ((∑ k : Fin 1024, b (ix2 p k) * w (ix2 k q)) - (∑ k : Fin 1024, a (ix2 p k) * v (ix2 k q))) + c (ix1 q) := by
  have h : k0_pay30 (F := Ideal) a b w v c (ix2 p q)
      = (matmul dot_S128x1024_S1024x1024_S128x1024_1_0_0_1_n_n none b w (constant S128x1024 .f32 0x00000000#32) (ix2 p q) - matmul dot_S128x1024_S1024x1024_S128x1024_1_0_0_1_n_n none a v (constant S128x1024 .f32 0x00000000#32) (ix2 p q)) + broadcastTo S128x1024 (shapeCast S1x1024 c shapeCasts_S1024_S1x1024) broadcasts_S1x1024_S128x1024 (ix2 p q) := rfl
  rw [h, mm_apply, mm_apply, row_apply]

private theorem pay32_apply (a b : FVec Ideal S128x1024 .bf16) (w v : FVec Ideal S1024x1024 .bf16) (c : FVec Ideal S1024 .f32) (p : Fin 128) (q : Fin 1024) :
    k0_pay32 (F := Ideal) a b w v c (ix2 p q)
      = ((∑ k : Fin 1024, b (ix2 p k) * w (ix2 k q)) - (∑ k : Fin 1024, a (ix2 p k) * v (ix2 k q))) + c (ix1 q) := by
  have h : k0_pay32 (F := Ideal) a b w v c (ix2 p q)
      = (matmul dot_S128x1024_S1024x1024_S128x1024_1_0_0_1_n_n none b w (constant S128x1024 .f32 0x00000000#32) (ix2 p q) - matmul dot_S128x1024_S1024x1024_S128x1024_1_0_0_1_n_n none a v (constant S128x1024 .f32 0x00000000#32) (ix2 p q)) + broadcastTo S128x1024 (shapeCast S1x1024 c shapeCasts_S1024_S1x1024) broadcasts_S1x1024_S128x1024 (ix2 p q) := rfl
  rw [h, mm_apply, mm_apply, row_apply]

private theorem pay33_apply (a b : FVec Ideal S128x1024 .bf16) (w v : FVec Ideal S1024x1024 .bf16) (p : Fin 128) (q : Fin 1024) :
    k0_pay33 (F := Ideal) a b w v (ix2 p q)
      = (∑ k : Fin 1024, b (ix2 p k) * w (ix2 k q)) - (∑ k : Fin 1024, a (ix2 p k) * v (ix2 k q)) := by
  have h : k0_pay33 (F := Ideal) a b w v (ix2 p q)
      = matmul dot_S128x1024_S1024x1024_S128x1024_1_0_0_1_n_n none b w (constant S128x1024 .f32 0x00000000#32) (ix2 p q) - matmul dot_S128x1024_S1024x1024_S128x1024_1_0_0_1_n_n none a v (constant S128x1024 .f32 0x00000000#32) (ix2 p q) := rfl
  rw [h, mm_apply, mm_apply]

private theorem pay35_apply (a b : FVec Ideal S128x1024 .bf16) (w v : FVec Ideal S1024x1024 .bf16) (p : Fin 128) (q : Fin 1024) :
    k0_pay35 (F := Ideal) a b w v (ix2 p q)
      = (∑ k : Fin 1024, b (ix2 p k) * w (ix2 k q)) - (∑ k : Fin 1024, a (ix2 p k) * v (ix2 k q)) := by
  have h : k0_pay35 (F := Ideal) a b w v (ix2 p q)
      = matmul dot_S128x1024_S1024x1024_S128x1024_1_0_0_1_n_n none b w (constant S128x1024 .f32 0x00000000#32) (ix2 p q) - matmul dot_S128x1024_S1024x1024_S128x1024_1_0_0_1_n_n none a v (constant S128x1024 .f32 0x00000000#32) (ix2 p q) := rfl
  rw [h, mm_apply, mm_apply]

private theorem pay34_apply (a b : FVec Ideal S128x1024 .bf16) (w v : FVec Ideal S1024x1024 .bf16) (p : Fin 128) (q : Fin 1024) :
    k0_pay34 (F := Ideal) a b w v (ix2 p q)
      = (∑ k : Fin 1024, a (ix2 p k) * w (ix2 k q)) + (∑ k : Fin 1024, b (ix2 p k) * v (ix2 k q)) := by
  have h : k0_pay34 (F := Ideal) a b w v (ix2 p q)
      = matmul dot_S128x1024_S1024x1024_S128x1024_1_0_0_1_n_n none a w (constant S128x1024 .f32 0x00000000#32) (ix2 p q) + matmul dot_S128x1024_S1024x1024_S128x1024_1_0_0_1_n_n none b v (constant S128x1024 .f32 0x00000000#32) (ix2 p q) := rfl
  rw [h, mm_apply, mm_apply]

private theorem pay36_apply (a b : FVec Ideal S128x1024 .bf16) (w v : FVec Ideal S1024x1024 .bf16) (y : FVec Ideal S128x1024 .f32) (p : Fin 128) (q : Fin 1024) :
    k0_pay36 (F := Ideal) a b w v y (ix2 p q)
      = Ideal.ofBits .f32 0x3E4CCCCD#32 * (y (ix2 p q) + ((∑ k : Fin 1024, a (ix2 p k) * w (ix2 k q)) + (∑ k : Fin 1024, b (ix2 p k) * v (ix2 k q)))) + Ideal.ofBits .f32 0x3F000000#32 := by
  have h : k0_pay36 (F := Ideal) a b w v y (ix2 p q)
      = Ideal.ofBits .f32 0x3E4CCCCD#32 * (y (ix2 p q) + (matmul dot_S128x1024_S1024x1024_S128x1024_1_0_0_1_n_n none a w (constant S128x1024 .f32 0x00000000#32) (ix2 p q) + matmul dot_S128x1024_S1024x1024_S128x1024_1_0_0_1_n_n none b v (constant S128x1024 .f32 0x00000000#32) (ix2 p q))) + Ideal.ofBits .f32 0x3F000000#32 := rfl
  rw [h, mm_apply, mm_apply]

private theorem pay28_apply (y z : FVec Ideal S128x1024 .f32) (p : Fin 128) (q : Fin 1024) :
    k0_pay28 (F := Ideal) y z (ix2 p q) = y (ix2 p q) + z (ix2 p q) := rfl

private theorem pay37_apply (y : FVec Ideal S128x1024 .f32) (p : Fin 128) (q : Fin 1024) :
    k0_pay37 (F := Ideal) y (ix2 p q) = min (Ideal.ofBits .f32 0x3F800000#32) (max (Ideal.ofBits .f32 0x00000000#32) (y (ix2 p q))) := rfl

private theorem pay38_apply (y z : FVec Ideal S128x1024 .f32) (p : Fin 128) (q : Fin 1024) :
    k0_pay38 (F := Ideal) y z (ix2 p q) = Gru.hsig (y (ix2 p q) + z (ix2 p q)) := rfl

private theorem pay39_apply (h y z : FVec Ideal S128x1024 .f32) (p : Fin 128) (q : Fin 1024) :
    k0_pay39 (F := Ideal) h y z (ix2 p q) = Gru.hsig (y (ix2 p q) + z (ix2 p q)) * h (ix2 p q) := rfl

private theorem pay40_apply (h y z : FVec Ideal S128x1024 .f32) (p : Fin 128) (q : Fin 1024) :
    k0_pay40 (F := Ideal) h y z (ix2 p q) = Gru.hsig (y (ix2 p q) + z (ix2 p q)) * h (ix2 p q) := rfl

private theorem pay1_apply (h z c : FVec Ideal S128x1024 .f32) (p : Fin 128) (q : Fin 1024) :
    k0_pay1 (F := Ideal) h z c (ix2 p q)
      = z (ix2 p q) * h (ix2 p q) + (Ideal.ofBits .f32 0x3F800000#32 - z (ix2 p q)) * Ideal.tanh (c (ix2 p q)) := rfl

private theorem pay2_apply (h y z r : FVec Ideal S128x1024 .f32) (p : Fin 128) (q : Fin 1024) :
    k0_pay2 (F := Ideal) h y z r (ix2 p q)
      = z (ix2 p q) * h (ix2 p q) + (Ideal.ofBits .f32 0x3F800000#32 - z (ix2 p q)) * Ideal.tanh (y (ix2 p q) + r (ix2 p q)) := rfl

private theorem pay41_apply (h hi : FVec Ideal S128x1024 .f32) (w v : FVec Ideal S1024x1024 .bf16) (y yi z zi : FVec Ideal S128x1024 .f32) (p : Fin 128) (q : Fin 1024) :
    k0_pay41 (F := Ideal) h hi w v y yi z zi (ix2 p q)
      = (∑ k : Fin 1024, (k0_pay40 hi yi zi) (ix2 p k) * w (ix2 k q)) - (∑ k : Fin 1024, (k0_pay39 h y z) (ix2 p k) * v (ix2 k q)) := by
  have h : k0_pay41 (F := Ideal) h hi w v y yi z zi (ix2 p q)
      = matmul dot_S128x1024_S1024x1024_S128x1024_1_0_0_1_n_n none (k0_pay40 hi yi zi) w (constant S128x1024 .f32 0x00000000#32) (ix2 p q) - matmul dot_S128x1024_S1024x1024_S128x1024_1_0_0_1_n_n none (k0_pay39 h y z) v (constant S128x1024 .f32 0x00000000#32) (ix2 p q) := rfl
  rw [h, mm_apply, mm_apply]

private theorem pay42_apply (h hi : FVec Ideal S128x1024 .f32) (w v : FVec Ideal S1024x1024 .bf16) (y yi c z zi : FVec Ideal S128x1024 .f32) (p : Fin 128) (q : Fin 1024) :
    k0_pay42 (F := Ideal) h hi w v y yi c z zi (ix2 p q)
      = c (ix2 p q) + ((∑ k : Fin 1024, (k0_pay39 h y z) (ix2 p k) * w (ix2 k q)) + (∑ k : Fin 1024, (k0_pay40 hi yi zi) (ix2 p k) * v (ix2 k q))) := by
  have h : k0_pay42 (F := Ideal) h hi w v y yi c z zi (ix2 p q)
      = c (ix2 p q) + (matmul dot_S128x1024_S1024x1024_S128x1024_1_0_0_1_n_n none (k0_pay39 h y z) w (constant S128x1024 .f32 0x00000000#32) (ix2 p q) + matmul dot_S128x1024_S1024x1024_S128x1024_1_0_0_1_n_n none (k0_pay40 hi yi zi) v (constant S128x1024 .f32 0x00000000#32) (ix2 p q)) := rfl
  rw [h, mm_apply, mm_apply]

/-! ## The loaded values at an index

The changes of format and the casts to the same shape are the identity; a gate's [1, 1024, 1024] slab viewed
[1024, 1024] and a [1, 1024] row viewed [1024] drop the unit coordinate. -/

private theorem hRe_apply (p : Fin 128) (q : Fin 1024) : Body.hRe (F := Ideal) x2 (ix2 p q) = x2 (ix2 p q) :=
  (congrFun (shapeCast_self (View.ld x2 Body.rAct) shapeCasts_S128x1024_S128x1024) (ix2 p q)).trans (ld_act x2 p q)

private theorem hIm_apply (p : Fin 128) (q : Fin 1024) : Body.hIm (F := Ideal) x3 (ix2 p q) = x3 (ix2 p q) :=
  (congrFun (shapeCast_self (View.ld x3 Body.rAct) shapeCasts_S128x1024_S128x1024) (ix2 p q)).trans (ld_act x3 p q)

private theorem xReB_apply (p : Fin 128) (q : Fin 1024) : Body.xReB (F := Ideal) x0 (ix2 p q) = x0 (ix2 p q) :=
  (congrFun (shapeCast_self (View.ld x0 Body.rAct) shapeCasts_S128x1024_S128x1024) (ix2 p q)).trans (ld_act x0 p q)

private theorem xImB_apply (p : Fin 128) (q : Fin 1024) : Body.xImB (F := Ideal) x1 (ix2 p q) = x1 (ix2 p q) :=
  (congrFun (shapeCast_self (View.ld x1 Body.rAct) shapeCasts_S128x1024_S128x1024) (ix2 p q)).trans (ld_act x1 p q)

private theorem hReB_apply (p : Fin 128) (q : Fin 1024) : Body.hReB (F := Ideal) x2 (ix2 p q) = x2 (ix2 p q) :=
  (congrFun (shapeCast_self (View.ld x2 Body.rAct) shapeCasts_S128x1024_S128x1024) (ix2 p q)).trans (ld_act x2 p q)

private theorem hImB_apply (p : Fin 128) (q : Fin 1024) : Body.hImB (F := Ideal) x3 (ix2 p q) = x3 (ix2 p q) :=
  (congrFun (shapeCast_self (View.ld x3 Body.rAct) shapeCasts_S128x1024_S128x1024) (ix2 p q)).trans (ld_act x3 p q)

private theorem wRe0_apply (k j : Fin 1024) : Body.wRe0 (F := Ideal) x4 (ix2 k j) = x4 (ix3 (0 : Fin 3) k j) :=
  (shapeCast_1ab_ab_apply (View.ld x4 Body.rG0) shapeCasts_S1x1024x1024_S1024x1024 k j).trans (ld_g0 x4 0 k j)

private theorem wRe1_apply (k j : Fin 1024) : Body.wRe1 (F := Ideal) x4 (ix2 k j) = x4 (ix3 (1 : Fin 3) k j) :=
  (shapeCast_1ab_ab_apply (View.ld x4 Body.rG1) shapeCasts_S1x1024x1024_S1024x1024 k j).trans (ld_g1 x4 0 k j)

private theorem wRe2_apply (k j : Fin 1024) : Body.wRe2 (F := Ideal) x4 (ix2 k j) = x4 (ix3 (2 : Fin 3) k j) :=
  (shapeCast_1ab_ab_apply (View.ld x4 Body.rG2) shapeCasts_S1x1024x1024_S1024x1024 k j).trans (ld_g2 x4 0 k j)

private theorem wIm0_apply (k j : Fin 1024) : Body.wIm0 (F := Ideal) x5 (ix2 k j) = x5 (ix3 (0 : Fin 3) k j) :=
  (shapeCast_1ab_ab_apply (View.ld x5 Body.rG0) shapeCasts_S1x1024x1024_S1024x1024 k j).trans (ld_g0 x5 0 k j)

private theorem wIm1_apply (k j : Fin 1024) : Body.wIm1 (F := Ideal) x5 (ix2 k j) = x5 (ix3 (1 : Fin 3) k j) :=
  (shapeCast_1ab_ab_apply (View.ld x5 Body.rG1) shapeCasts_S1x1024x1024_S1024x1024 k j).trans (ld_g1 x5 0 k j)

private theorem wIm2_apply (k j : Fin 1024) : Body.wIm2 (F := Ideal) x5 (ix2 k j) = x5 (ix3 (2 : Fin 3) k j) :=
  (shapeCast_1ab_ab_apply (View.ld x5 Body.rG2) shapeCasts_S1x1024x1024_S1024x1024 k j).trans (ld_g2 x5 0 k j)

private theorem uRe0_apply (k j : Fin 1024) : Body.uRe0 (F := Ideal) x6 (ix2 k j) = x6 (ix3 (0 : Fin 3) k j) :=
  (shapeCast_1ab_ab_apply (View.ld x6 Body.rG0) shapeCasts_S1x1024x1024_S1024x1024 k j).trans (ld_g0 x6 0 k j)

private theorem uRe1_apply (k j : Fin 1024) : Body.uRe1 (F := Ideal) x6 (ix2 k j) = x6 (ix3 (1 : Fin 3) k j) :=
  (shapeCast_1ab_ab_apply (View.ld x6 Body.rG1) shapeCasts_S1x1024x1024_S1024x1024 k j).trans (ld_g1 x6 0 k j)

private theorem uRe2_apply (k j : Fin 1024) : Body.uRe2 (F := Ideal) x6 (ix2 k j) = x6 (ix3 (2 : Fin 3) k j) :=
  (shapeCast_1ab_ab_apply (View.ld x6 Body.rG2) shapeCasts_S1x1024x1024_S1024x1024 k j).trans (ld_g2 x6 0 k j)

private theorem uIm0_apply (k j : Fin 1024) : Body.uIm0 (F := Ideal) x7 (ix2 k j) = x7 (ix3 (0 : Fin 3) k j) :=
  (shapeCast_1ab_ab_apply (View.ld x7 Body.rG0) shapeCasts_S1x1024x1024_S1024x1024 k j).trans (ld_g0 x7 0 k j)

private theorem uIm1_apply (k j : Fin 1024) : Body.uIm1 (F := Ideal) x7 (ix2 k j) = x7 (ix3 (1 : Fin 3) k j) :=
  (shapeCast_1ab_ab_apply (View.ld x7 Body.rG1) shapeCasts_S1x1024x1024_S1024x1024 k j).trans (ld_g1 x7 0 k j)

private theorem uIm2_apply (k j : Fin 1024) : Body.uIm2 (F := Ideal) x7 (ix2 k j) = x7 (ix3 (2 : Fin 3) k j) :=
  (shapeCast_1ab_ab_apply (View.ld x7 Body.rG2) shapeCasts_S1x1024x1024_S1024x1024 k j).trans (ld_g2 x7 0 k j)

private theorem bRe1_apply (j : Fin 1024) : Body.bRe1 (F := Ideal) x8 (ix1 j) = x8 (ix2 (1 : Fin 3) j) :=
  (shapeCast_1a_a_apply (View.ld x8 Body.rB1) shapeCasts_S1x1024_S1024 j).trans (ld_b1 x8 0 j)

private theorem bRe2_apply (j : Fin 1024) : Body.bRe2 (F := Ideal) x8 (ix1 j) = x8 (ix2 (2 : Fin 3) j) :=
  (shapeCast_1a_a_apply (View.ld x8 Body.rB2) shapeCasts_S1x1024_S1024 j).trans (ld_b2 x8 0 j)

private theorem bIm1_apply (j : Fin 1024) : Body.bIm1 (F := Ideal) x9 (ix1 j) = x9 (ix2 (1 : Fin 3) j) :=
  (shapeCast_1a_a_apply (View.ld x9 Body.rB1) shapeCasts_S1x1024_S1024 j).trans (ld_b1 x9 0 j)

private theorem bIm2_apply (j : Fin 1024) : Body.bIm2 (F := Ideal) x9 (ix1 j) = x9 (ix2 (2 : Fin 3) j) :=
  (shapeCast_1a_a_apply (View.ld x9 Body.rB2) shapeCasts_S1x1024_S1024 j).trans (ld_b2 x9 0 j)

/-! ## The body's values as the specification's, at row p

Each product of a row with a gate is the specification's real or imaginary part of the complex product; the gates, the
reset state, the candidate and the new state follow in the specification's order of operations. -/

private theorem xzIm0_apply (p : Fin 128) (q : Fin 1024) :
    Body.xzIm0 (F := Ideal) x0 x1 x4 x5 (ix2 p q)
      = Gru.cim (blockCell x0 x1 x2 x3 x4 x5 x6 x7 x8 x9 p).xr (blockCell x0 x1 x2 x3 x4 x5 x6 x7 x8 x9 p).xi ((blockCell x0 x1 x2 x3 x4 x5 x6 x7 x8 x9 p).Wr 0) ((blockCell x0 x1 x2 x3 x4 x5 x6 x7 x8 x9 p).Wi 0) q := by
  unfold Body.xzIm0
  rw [pay25_apply]
  simp only [xReB_apply, xImB_apply, wRe0_apply, wIm0_apply]
  rfl

private theorem xzRe_apply (p : Fin 128) (q : Fin 1024) :
    Body.xzRe (F := Ideal) x0 x1 x4 x5 x8 (ix2 p q)
      = Gru.cre (blockCell x0 x1 x2 x3 x4 x5 x6 x7 x8 x9 p).xr (blockCell x0 x1 x2 x3 x4 x5 x6 x7 x8 x9 p).xi ((blockCell x0 x1 x2 x3 x4 x5 x6 x7 x8 x9 p).Wr 0) ((blockCell x0 x1 x2 x3 x4 x5 x6 x7 x8 x9 p).Wi 0) q + (blockCell x0 x1 x2 x3 x4 x5 x6 x7 x8 x9 p).br 0 q := by
  unfold Body.xzRe
  rw [pay26_apply, ld_b0]
  simp only [xReB_apply, xImB_apply, wRe0_apply, wIm0_apply]
  rfl

private theorem bzIm_apply (p : Fin 128) (q : Fin 1024) :
    Body.bzIm (F := Ideal) x9 (ix2 p q)
      = (blockCell x0 x1 x2 x3 x4 x5 x6 x7 x8 x9 p).bi 0 q := by
  unfold Body.bzIm
  rw [pay27_apply, ld_b0]
  rfl

private theorem xzIm_apply (p : Fin 128) (q : Fin 1024) :
    Body.xzIm (F := Ideal) x0 x1 x4 x5 x9 (ix2 p q)
      = Gru.cim (blockCell x0 x1 x2 x3 x4 x5 x6 x7 x8 x9 p).xr (blockCell x0 x1 x2 x3 x4 x5 x6 x7 x8 x9 p).xi ((blockCell x0 x1 x2 x3 x4 x5 x6 x7 x8 x9 p).Wr 0) ((blockCell x0 x1 x2 x3 x4 x5 x6 x7 x8 x9 p).Wi 0) q + (blockCell x0 x1 x2 x3 x4 x5 x6 x7 x8 x9 p).bi 0 q := by
  unfold Body.xzIm
  rw [pay28_apply, xzIm0_apply x0 x1 x2 x3 x4 x5 x6 x7 x8 x9, bzIm_apply x0 x1 x2 x3 x4 x5 x6 x7 x8 x9]

private theorem xrRe_apply (p : Fin 128) (q : Fin 1024) :
    Body.xrRe (F := Ideal) x0 x1 x4 x5 x8 (ix2 p q)
      = Gru.cre (blockCell x0 x1 x2 x3 x4 x5 x6 x7 x8 x9 p).xr (blockCell x0 x1 x2 x3 x4 x5 x6 x7 x8 x9 p).xi ((blockCell x0 x1 x2 x3 x4 x5 x6 x7 x8 x9 p).Wr 1) ((blockCell x0 x1 x2 x3 x4 x5 x6 x7 x8 x9 p).Wi 1) q + (blockCell x0 x1 x2 x3 x4 x5 x6 x7 x8 x9 p).br 1 q := by
  unfold Body.xrRe
  rw [pay29_apply]
  simp only [xReB_apply, xImB_apply, wRe1_apply, wIm1_apply, bRe1_apply, bIm1_apply]
  rfl

private theorem xrIm_apply (p : Fin 128) (q : Fin 1024) :
    Body.xrIm (F := Ideal) x0 x1 x4 x5 x9 (ix2 p q)
      = Gru.cim (blockCell x0 x1 x2 x3 x4 x5 x6 x7 x8 x9 p).xr (blockCell x0 x1 x2 x3 x4 x5 x6 x7 x8 x9 p).xi ((blockCell x0 x1 x2 x3 x4 x5 x6 x7 x8 x9 p).Wr 1) ((blockCell x0 x1 x2 x3 x4 x5 x6 x7 x8 x9 p).Wi 1) q + (blockCell x0 x1 x2 x3 x4 x5 x6 x7 x8 x9 p).bi 1 q := by
  unfold Body.xrIm
  rw [pay30_apply]
  simp only [xReB_apply, xImB_apply, wRe1_apply, wIm1_apply, bRe1_apply, bIm1_apply]
  rfl

private theorem xhRe_apply (p : Fin 128) (q : Fin 1024) :
    Body.xhRe (F := Ideal) x0 x1 x4 x5 x8 (ix2 p q)
      = Gru.cre (blockCell x0 x1 x2 x3 x4 x5 x6 x7 x8 x9 p).xr (blockCell x0 x1 x2 x3 x4 x5 x6 x7 x8 x9 p).xi ((blockCell x0 x1 x2 x3 x4 x5 x6 x7 x8 x9 p).Wr 2) ((blockCell x0 x1 x2 x3 x4 x5 x6 x7 x8 x9 p).Wi 2) q + (blockCell x0 x1 x2 x3 x4 x5 x6 x7 x8 x9 p).br 2 q := by
  unfold Body.xhRe
  rw [pay31_apply]
  simp only [xReB_apply, xImB_apply, wRe2_apply, wIm2_apply, bRe2_apply, bIm2_apply]
  rfl

private theorem xhIm_apply (p : Fin 128) (q : Fin 1024) :
    Body.xhIm (F := Ideal) x0 x1 x4 x5 x9 (ix2 p q)
      = Gru.cim (blockCell x0 x1 x2 x3 x4 x5 x6 x7 x8 x9 p).xr (blockCell x0 x1 x2 x3 x4 x5 x6 x7 x8 x9 p).xi ((blockCell x0 x1 x2 x3 x4 x5 x6 x7 x8 x9 p).Wr 2) ((blockCell x0 x1 x2 x3 x4 x5 x6 x7 x8 x9 p).Wi 2) q + (blockCell x0 x1 x2 x3 x4 x5 x6 x7 x8 x9 p).bi 2 q := by
  unfold Body.xhIm
  rw [pay32_apply]
  simp only [xReB_apply, xImB_apply, wRe2_apply, wIm2_apply, bRe2_apply, bIm2_apply]
  rfl

private theorem hzIm_apply (p : Fin 128) (q : Fin 1024) :
    Body.hzIm (F := Ideal) x2 x3 x6 x7 (ix2 p q)
      = Gru.cim (blockCell x0 x1 x2 x3 x4 x5 x6 x7 x8 x9 p).hr (blockCell x0 x1 x2 x3 x4 x5 x6 x7 x8 x9 p).hi ((blockCell x0 x1 x2 x3 x4 x5 x6 x7 x8 x9 p).Ur 0) ((blockCell x0 x1 x2 x3 x4 x5 x6 x7 x8 x9 p).Ui 0) q := by
  unfold Body.hzIm
  rw [pay33_apply]
  simp only [hReB_apply, hImB_apply, uRe0_apply, uIm0_apply]
  rfl

private theorem hrRe_apply (p : Fin 128) (q : Fin 1024) :
    Body.hrRe (F := Ideal) x2 x3 x6 x7 (ix2 p q)
      = Gru.cre (blockCell x0 x1 x2 x3 x4 x5 x6 x7 x8 x9 p).hr (blockCell x0 x1 x2 x3 x4 x5 x6 x7 x8 x9 p).hi ((blockCell x0 x1 x2 x3 x4 x5 x6 x7 x8 x9 p).Ur 1) ((blockCell x0 x1 x2 x3 x4 x5 x6 x7 x8 x9 p).Ui 1) q := by
  unfold Body.hrRe
  rw [pay34_apply]
  simp only [hReB_apply, hImB_apply, uRe1_apply, uIm1_apply]
  rfl

private theorem hrIm_apply (p : Fin 128) (q : Fin 1024) :
    Body.hrIm (F := Ideal) x2 x3 x6 x7 (ix2 p q)
      = Gru.cim (blockCell x0 x1 x2 x3 x4 x5 x6 x7 x8 x9 p).hr (blockCell x0 x1 x2 x3 x4 x5 x6 x7 x8 x9 p).hi ((blockCell x0 x1 x2 x3 x4 x5 x6 x7 x8 x9 p).Ur 1) ((blockCell x0 x1 x2 x3 x4 x5 x6 x7 x8 x9 p).Ui 1) q := by
  unfold Body.hrIm
  rw [pay35_apply]
  simp only [hReB_apply, hImB_apply, uRe1_apply, uIm1_apply]
  rfl

private theorem zPreRe_apply (p : Fin 128) (q : Fin 1024) :
    Body.zPreRe (F := Ideal) x0 x1 x2 x3 x4 x5 x6 x7 x8 (ix2 p q)
      = Ideal.ofBits .f32 0x3E4CCCCD#32 * ((Gru.cre (blockCell x0 x1 x2 x3 x4 x5 x6 x7 x8 x9 p).xr (blockCell x0 x1 x2 x3 x4 x5 x6 x7 x8 x9 p).xi ((blockCell x0 x1 x2 x3 x4 x5 x6 x7 x8 x9 p).Wr 0) ((blockCell x0 x1 x2 x3 x4 x5 x6 x7 x8 x9 p).Wi 0) q + (blockCell x0 x1 x2 x3 x4 x5 x6 x7 x8 x9 p).br 0 q) + Gru.cre (blockCell x0 x1 x2 x3 x4 x5 x6 x7 x8 x9 p).hr (blockCell x0 x1 x2 x3 x4 x5 x6 x7 x8 x9 p).hi ((blockCell x0 x1 x2 x3 x4 x5 x6 x7 x8 x9 p).Ur 0) ((blockCell x0 x1 x2 x3 x4 x5 x6 x7 x8 x9 p).Ui 0) q) + Ideal.ofBits .f32 0x3F000000#32 := by
  unfold Body.zPreRe
  rw [pay36_apply, xzRe_apply x0 x1 x2 x3 x4 x5 x6 x7 x8 x9]
  simp only [hReB_apply, hImB_apply, uRe0_apply, uIm0_apply]
  rfl

private theorem zRe_apply (p : Fin 128) (q : Fin 1024) :
    Body.zRe (F := Ideal) x0 x1 x2 x3 x4 x5 x6 x7 x8 (ix2 p q)
      = (blockCell x0 x1 x2 x3 x4 x5 x6 x7 x8 x9 p).zre q := by
  unfold Body.zRe
  rw [pay37_apply, zPreRe_apply x0 x1 x2 x3 x4 x5 x6 x7 x8 x9]
  rfl

private theorem zIm_apply (p : Fin 128) (q : Fin 1024) :
    Body.zIm (F := Ideal) x0 x1 x2 x3 x4 x5 x6 x7 x9 (ix2 p q)
      = (blockCell x0 x1 x2 x3 x4 x5 x6 x7 x8 x9 p).zim q := by
  unfold Body.zIm
  rw [pay38_apply, xzIm_apply x0 x1 x2 x3 x4 x5 x6 x7 x8 x9, hzIm_apply x0 x1 x2 x3 x4 x5 x6 x7 x8 x9]
  rfl

private theorem pre_apply (p : Fin 128) (q : Fin 1024) :
    k0_pay39 (F := Ideal) (Body.hRe x2) (Body.xrRe x0 x1 x4 x5 x8) (Body.hrRe x2 x3 x6 x7) (ix2 p q)
      = (blockCell x0 x1 x2 x3 x4 x5 x6 x7 x8 x9 p).pre q := by
  rw [pay39_apply, xrRe_apply x0 x1 x2 x3 x4 x5 x6 x7 x8 x9, hrRe_apply x0 x1 x2 x3 x4 x5 x6 x7 x8 x9, hRe_apply]
  rfl

private theorem pim_apply (p : Fin 128) (q : Fin 1024) :
    k0_pay40 (F := Ideal) (Body.hIm x3) (Body.xrIm x0 x1 x4 x5 x9) (Body.hrIm x2 x3 x6 x7) (ix2 p q)
      = (blockCell x0 x1 x2 x3 x4 x5 x6 x7 x8 x9 p).pim q := by
  rw [pay40_apply, xrIm_apply x0 x1 x2 x3 x4 x5 x6 x7 x8 x9, hrIm_apply x0 x1 x2 x3 x4 x5 x6 x7 x8 x9, hIm_apply]
  rfl

private theorem rhIm_apply (p : Fin 128) (q : Fin 1024) :
    Body.rhIm (F := Ideal) x0 x1 x2 x3 x4 x5 x6 x7 x8 x9 (ix2 p q)
      = Gru.cim (blockCell x0 x1 x2 x3 x4 x5 x6 x7 x8 x9 p).pre (blockCell x0 x1 x2 x3 x4 x5 x6 x7 x8 x9 p).pim ((blockCell x0 x1 x2 x3 x4 x5 x6 x7 x8 x9 p).Ur 2) ((blockCell x0 x1 x2 x3 x4 x5 x6 x7 x8 x9 p).Ui 2) q := by
  unfold Body.rhIm
  rw [pay41_apply]
  simp only [pre_apply x0 x1 x2 x3 x4 x5 x6 x7 x8 x9 p, pim_apply x0 x1 x2 x3 x4 x5 x6 x7 x8 x9 p, uRe2_apply, uIm2_apply]
  rfl

private theorem cPreRe_apply (p : Fin 128) (q : Fin 1024) :
    Body.cPreRe (F := Ideal) x0 x1 x2 x3 x4 x5 x6 x7 x8 x9 (ix2 p q)
      = (Gru.cre (blockCell x0 x1 x2 x3 x4 x5 x6 x7 x8 x9 p).xr (blockCell x0 x1 x2 x3 x4 x5 x6 x7 x8 x9 p).xi ((blockCell x0 x1 x2 x3 x4 x5 x6 x7 x8 x9 p).Wr 2) ((blockCell x0 x1 x2 x3 x4 x5 x6 x7 x8 x9 p).Wi 2) q + (blockCell x0 x1 x2 x3 x4 x5 x6 x7 x8 x9 p).br 2 q) + Gru.cre (blockCell x0 x1 x2 x3 x4 x5 x6 x7 x8 x9 p).pre (blockCell x0 x1 x2 x3 x4 x5 x6 x7 x8 x9 p).pim ((blockCell x0 x1 x2 x3 x4 x5 x6 x7 x8 x9 p).Ur 2) ((blockCell x0 x1 x2 x3 x4 x5 x6 x7 x8 x9 p).Ui 2) q := by
  unfold Body.cPreRe
  rw [pay42_apply, xhRe_apply x0 x1 x2 x3 x4 x5 x6 x7 x8 x9]
  simp only [pre_apply x0 x1 x2 x3 x4 x5 x6 x7 x8 x9 p, pim_apply x0 x1 x2 x3 x4 x5 x6 x7 x8 x9 p, uRe2_apply, uIm2_apply]
  rfl

private theorem newRe_apply (p : Fin 128) (q : Fin 1024) :
    Body.newRe (F := Ideal) x0 x1 x2 x3 x4 x5 x6 x7 x8 x9 (ix2 p q)
      = (blockCell x0 x1 x2 x3 x4 x5 x6 x7 x8 x9 p).ore q := by
  unfold Body.newRe
  rw [pay1_apply, zRe_apply x0 x1 x2 x3 x4 x5 x6 x7 x8 x9, hRe_apply, cPreRe_apply x0 x1 x2 x3 x4 x5 x6 x7 x8 x9]
  rfl

private theorem newIm_apply (p : Fin 128) (q : Fin 1024) :
    Body.newIm (F := Ideal) x0 x1 x2 x3 x4 x5 x6 x7 x8 x9 (ix2 p q)
      = (blockCell x0 x1 x2 x3 x4 x5 x6 x7 x8 x9 p).oim q := by
  unfold Body.newIm
  rw [pay2_apply, zIm_apply x0 x1 x2 x3 x4 x5 x6 x7 x8 x9, hIm_apply, xhIm_apply x0 x1 x2 x3 x4 x5 x6 x7 x8 x9, rhIm_apply x0 x1 x2 x3 x4 x5 x6 x7 x8 x9]
  rfl

/-- The offsets of the whole-block rectangle are zero on both axes. -/
private theorem off_zero : (![0, 0] : Fin S128x1024.rank → Nat) = fun _ => 0 := by
  funext a
  match a with
  | ⟨0, _⟩ => rfl
  | ⟨1, _⟩ => rfl

/-- The first stored block at row p, column q: the new state's real part. -/
theorem outRe_apply (p : Fin 128) (q : Fin 1024) :
    Body.outRe (F := Ideal) x0 x1 x2 x3 x4 x5 x6 x7 x8 x9 (ix2 p q) = (blockCell x0 x1 x2 x3 x4 x5 x6 x7 x8 x9 p).ore q := by
  have hc : Body.outRe (F := Ideal) x0 x1 x2 x3 x4 x5 x6 x7 x8 x9 = Body.newRe x0 x1 x2 x3 x4 x5 x6 x7 x8 x9 :=
    View.canon_unit_zero off_zero inb_S128x1024_S128x1024_0_0 _
  rw [hc]
  exact newRe_apply x0 x1 x2 x3 x4 x5 x6 x7 x8 x9 p q

/-- The second stored block at row p, column q: the new state's imaginary part. -/
theorem outIm_apply (p : Fin 128) (q : Fin 1024) :
    Body.outIm (F := Ideal) x0 x1 x2 x3 x4 x5 x6 x7 x8 x9 (ix2 p q) = (blockCell x0 x1 x2 x3 x4 x5 x6 x7 x8 x9 p).oim q := by
  have hc : Body.outIm (F := Ideal) x0 x1 x2 x3 x4 x5 x6 x7 x8 x9 = Body.newIm x0 x1 x2 x3 x4 x5 x6 x7 x8 x9 :=
    View.canon_unit_zero off_zero inb_S128x1024_S128x1024_0_0 _
  rw [hc]
  exact newIm_apply x0 x1 x2 x3 x4 x5 x6 x7 x8 x9 p q

end Cert.KernelIdeal.Cell

end
-- ==== Proof.KI.Blocks.lean ====
/-
  The blocks the body is handed at a grid point, read off the arguments.

  Grid point t handles rows 128 t .. 128 t + 127: each of the four activation windows hands the body that block of
  rows of its array, and the six weight and bias windows always their whole array.  With what the host operations put
  in those arrays (Entry.lean), the cell the body sees in row p of its blocks at point t is the cell of row 128 t + p
  of the eight arguments.
-/
import proofs.«126988_j23922967838776_1_alg».proof.Proof.KI.Run
import proofs.«126988_j23922967838776_1_alg».proof.Proof.KI.Entry
import proofs.«126988_j23922967838776_1_alg».proof.Proof.KI.Cell
import proofs.«126988_j23922967838776_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Value

open Cert.KernelIdeal Cert.KernelIdeal.Gen Cert.KernelIdeal.Around Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Row b's cell, read off the arguments as launched on core c. -/
def cellAt (c : Dev nD) (b : Fin 4096) : Gru.Cell :=
  Gru.rowCell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b

/-- What the first result array ends holding: the new state's real parts. -/
def GRe (c : Dev nD) : S4096x1024.Idx → EReal := fun i => (cellAt m c ⟨(i 0).val, idx2_lt0 i⟩).ore ⟨(i 1).val, idx2_lt1 i⟩
/-- What the second result array ends holding: the new state's imaginary parts. -/
def GIm (c : Dev nD) : S4096x1024.Idx → EReal := fun i => (cellAt m c ⟨(i 0).val, idx2_lt0 i⟩).oim ⟨(i 1).val, idx2_lt1 i⟩

/-! ## The ten input blocks at a grid point, at their literal types -/

abbrev B0 (c : Dev nD) (t : Fin cfg0.N) : Vec Ideal S128x1024 .f32 := iblk m c 0 t
abbrev B1 (c : Dev nD) (t : Fin cfg0.N) : Vec Ideal S128x1024 .f32 := iblk m c 1 t
abbrev B2 (c : Dev nD) (t : Fin cfg0.N) : Vec Ideal S128x1024 .f32 := iblk m c 2 t
abbrev B3 (c : Dev nD) (t : Fin cfg0.N) : Vec Ideal S128x1024 .f32 := iblk m c 3 t
abbrev B4 (c : Dev nD) (t : Fin cfg0.N) : Vec Ideal S3x1024x1024 .bf16 := iblk m c 4 t
abbrev B5 (c : Dev nD) (t : Fin cfg0.N) : Vec Ideal S3x1024x1024 .bf16 := iblk m c 5 t
abbrev B6 (c : Dev nD) (t : Fin cfg0.N) : Vec Ideal S3x1024x1024 .bf16 := iblk m c 6 t
abbrev B7 (c : Dev nD) (t : Fin cfg0.N) : Vec Ideal S3x1024x1024 .bf16 := iblk m c 7 t
abbrev B8 (c : Dev nD) (t : Fin cfg0.N) : Vec Ideal S3x1024 .f32 := iblk m c 8 t
abbrev B9 (c : Dev nD) (t : Fin cfg0.N) : Vec Ideal S3x1024 .f32 := iblk m c 9 t

/-! ## The windows' blocks at a grid point -/

/-- The printed index maps, decided over the grid: the activation and result windows' block row is the grid point,
    everything else stays at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_4.index t (0 : Fin 3) = 0 ∧ win0_4.index t (1 : Fin 3) = 0 ∧ win0_4.index t (2 : Fin 3) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row 128 t + p is a row of the arrays. -/
theorem row_lt (t : Fin cfg0.N) (p : Fin 128) : t.val * 128 + p.val < 4096 := by
  have ht : t.val < 32 := lt_of_lt_of_eq t.isLt N_0
  have := p.isLt; omega

/-- An activation window's block at point t, row p: row 128 t + p of its array. -/
theorem blk_act0 (c : Dev nD) (t : Fin cfg0.N) (p : Fin 128) (k : Fin 1024) :
    (iblk m c 0 t : S128x1024.Idx → EReal) (ix2 p k) = (V m c main_v46 : S4096x1024.Idx → EReal) (ix2 ⟨t.val * 128 + p.val, row_lt t p⟩ k) := by
  obtain ⟨e0, e1, e2, e3, e4, e5, e6, e7, e8, e9, e10, e11, e12, e13, e14, e15, e16, e17, e18, e19, e20, e21, e22, e23, e24, e25, e26, e27⟩ := idx_facts t
  show (V m c main_v46 : S4096x1024.Idx → EReal) (((cfg0.win 0).blk t).view.emb (ix2 p k)) = _
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 1024 + 1 * k.val = k.val; omega
theorem blk_act1 (c : Dev nD) (t : Fin cfg0.N) (p : Fin 128) (k : Fin 1024) :
    (iblk m c 1 t : S128x1024.Idx → EReal) (ix2 p k) = (V m c main_v47 : S4096x1024.Idx → EReal) (ix2 ⟨t.val * 128 + p.val, row_lt t p⟩ k) := by
  obtain ⟨e0, e1, e2, e3, e4, e5, e6, e7, e8, e9, e10, e11, e12, e13, e14, e15, e16, e17, e18, e19, e20, e21, e22, e23, e24, e25, e26, e27⟩ := idx_facts t
  show (V m c main_v47 : S4096x1024.Idx → EReal) (((cfg0.win 1).blk t).view.emb (ix2 p k)) = _
  refine congrArg _ (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega
theorem blk_act2 (c : Dev nD) (t : Fin cfg0.N) (p : Fin 128) (k : Fin 1024) :
    (iblk m c 2 t : S128x1024.Idx → EReal) (ix2 p k) = (V m c main_v48 : S4096x1024.Idx → EReal) (ix2 ⟨t.val * 128 + p.val, row_lt t p⟩ k) := by
  obtain ⟨e0, e1, e2, e3, e4, e5, e6, e7, e8, e9, e10, e11, e12, e13, e14, e15, e16, e17, e18, e19, e20, e21, e22, e23, e24, e25, e26, e27⟩ := idx_facts t
  show (V m c main_v48 : S4096x1024.Idx → EReal) (((cfg0.win 2).blk t).view.emb (ix2 p k)) = _
  refine congrArg _ (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * k.val = k.val; omega
theorem blk_act3 (c : Dev nD) (t : Fin cfg0.N) (p : Fin 128) (k : Fin 1024) :
    (iblk m c 3 t : S128x1024.Idx → EReal) (ix2 p k) = (V m c main_v49 : S4096x1024.Idx → EReal) (ix2 ⟨t.val * 128 + p.val, row_lt t p⟩ k) := by
  obtain ⟨e0, e1, e2, e3, e4, e5, e6, e7, e8, e9, e10, e11, e12, e13, e14, e15, e16, e17, e18, e19, e20, e21, e22, e23, e24, e25, e26, e27⟩ := idx_facts t
  show (V m c main_v49 : S4096x1024.Idx → EReal) (((cfg0.win 3).blk t).view.emb (ix2 p k)) = _
  refine congrArg _ (funext fun a => Fin.ext ?_)
  match a with
  | ⟨0, _⟩ => show win0_3.index t (0 : Fin 2) * 128 + 1 * p.val = t.val * 128 + p.val; omega
  | ⟨1, _⟩ => show win0_3.index t (1 : Fin 2) * 1024 + 1 * k.val = k.val; omega

/-- A weight window's block is its whole array. -/
theorem blk_wt4 (c : Dev nD) (t : Fin cfg0.N) (g : Fin 3) (k j : Fin 1024) :
    (iblk m c 4 t : S3x1024x1024.Idx → EReal) (ix3 g k j) = (V m c main_v22 : S3x1024x1024.Idx → EReal) (ix3 g k j) := by
  obtain ⟨e0, e1, e2, e3, e4, e5, e6, e7, e8, e9, e10, e11, e12, e13, e14, e15, e16, e17, e18, e19, e20, e21, e22, e23, e24, e25, e26, e27⟩ := idx_facts t
  show (V m c main_v22 : S3x1024x1024.Idx → EReal) (((cfg0.win 4).blk t).view.emb (ix3 g k j)) = _
  refine congrArg _ (funext fun a => Fin.ext ?_)
  match a with
  | ⟨0, _⟩ => show win0_4.index t (0 : Fin 3) * 3 + 1 * g.val = g.val; omega
  | ⟨1, _⟩ => show win0_4.index t (1 : Fin 3) * 1024 + 1 * k.val = k.val; omega
  | ⟨2, _⟩ => show win0_4.index t (2 : Fin 3) * 1024 + 1 * j.val = j.val; omega
theorem blk_wt5 (c : Dev nD) (t : Fin cfg0.N) (g : Fin 3) (k j : Fin 1024) :
    (iblk m c 5 t : S3x1024x1024.Idx → EReal) (ix3 g k j) = (V m c main_v27 : S3x1024x1024.Idx → EReal) (ix3 g k j) := by
  obtain ⟨e0, e1, e2, e3, e4, e5, e6, e7, e8, e9, e10, e11, e12, e13, e14, e15, e16, e17, e18, e19, e20, e21, e22, e23, e24, e25, e26, e27⟩ := idx_facts t
  show (V m c main_v27 : S3x1024x1024.Idx → EReal) (((cfg0.win 5).blk t).view.emb (ix3 g k j)) = _
  refine congrArg _ (funext fun a => Fin.ext ?_)
  match a with
  | ⟨0, _⟩ => show win0_5.index t (0 : Fin 3) * 3 + 1 * g.val = g.val; omega
  | ⟨1, _⟩ => show win0_5.index t (1 : Fin 3) * 1024 + 1 * k.val = k.val; omega
  | ⟨2, _⟩ => show win0_5.index t (2 : Fin 3) * 1024 + 1 * j.val = j.val; omega
theorem blk_wt6 (c : Dev nD) (t : Fin cfg0.N) (g : Fin 3) (k j : Fin 1024) :
    (iblk m c 6 t : S3x1024x1024.Idx → EReal) (ix3 g k j) = (V m c main_v32 : S3x1024x1024.Idx → EReal) (ix3 g k j) := by
  obtain ⟨e0, e1, e2, e3, e4, e5, e6, e7, e8, e9, e10, e11, e12, e13, e14, e15, e16, e17, e18, e19, e20, e21, e22, e23, e24, e25, e26, e27⟩ := idx_facts t
  show (V m c main_v32 : S3x1024x1024.Idx → EReal) (((cfg0.win 6).blk t).view.emb (ix3 g k j)) = _
  refine congrArg _ (funext fun a => Fin.ext ?_)
  match a with
  | ⟨0, _⟩ => show win0_6.index t (0 : Fin 3) * 3 + 1 * g.val = g.val; omega
  | ⟨1, _⟩ => show win0_6.index t (1 : Fin 3) * 1024 + 1 * k.val = k.val; omega
  | ⟨2, _⟩ => show win0_6.index t (2 : Fin 3) * 1024 + 1 * j.val = j.val; omega
theorem blk_wt7 (c : Dev nD) (t : Fin cfg0.N) (g : Fin 3) (k j : Fin 1024) :
    (iblk m c 7 t : S3x1024x1024.Idx → EReal) (ix3 g k j) = (V m c main_v37 : S3x1024x1024.Idx → EReal) (ix3 g k j) := by
  obtain ⟨e0, e1, e2, e3, e4, e5, e6, e7, e8, e9, e10, e11, e12, e13, e14, e15, e16, e17, e18, e19, e20, e21, e22, e23, e24, e25, e26, e27⟩ := idx_facts t
  show (V m c main_v37 : S3x1024x1024.Idx → EReal) (((cfg0.win 7).blk t).view.emb (ix3 g k j)) = _
  refine congrArg _ (funext fun a => Fin.ext ?_)
  match a with
  | ⟨0, _⟩ => show win0_7.index t (0 : Fin 3) * 3 + 1 * g.val = g.val; omega
  | ⟨1, _⟩ => show win0_7.index t (1 : Fin 3) * 1024 + 1 * k.val = k.val; omega
  | ⟨2, _⟩ => show win0_7.index t (2 : Fin 3) * 1024 + 1 * j.val = j.val; omega

/-- A bias window's block is its whole array. -/
theorem blk_b8 (c : Dev nD) (t : Fin cfg0.N) (g : Fin 3) (j : Fin 1024) :
    (iblk m c 8 t : S3x1024.Idx → EReal) (ix2 g j) = (V m c main_v41 : S3x1024.Idx → EReal) (ix2 g j) := by
  obtain ⟨e0, e1, e2, e3, e4, e5, e6, e7, e8, e9, e10, e11, e12, e13, e14, e15, e16, e17, e18, e19, e20, e21, e22, e23, e24, e25, e26, e27⟩ := idx_facts t
  show (V m c main_v41 : S3x1024.Idx → EReal) (((cfg0.win 8).blk t).view.emb (ix2 g j)) = _
  refine congrArg _ (funext fun a => Fin.ext ?_)
  match a with
  | ⟨0, _⟩ => show win0_8.index t (0 : Fin 2) * 3 + 1 * g.val = g.val; omega
  | ⟨1, _⟩ => show win0_8.index t (1 : Fin 2) * 1024 + 1 * j.val = j.val; omega
theorem blk_b9 (c : Dev nD) (t : Fin cfg0.N) (g : Fin 3) (j : Fin 1024) :
    (iblk m c 9 t : S3x1024.Idx → EReal) (ix2 g j) = (V m c main_v45 : S3x1024.Idx → EReal) (ix2 g j) := by
  obtain ⟨e0, e1, e2, e3, e4, e5, e6, e7, e8, e9, e10, e11, e12, e13, e14, e15, e16, e17, e18, e19, e20, e21, e22, e23, e24, e25, e26, e27⟩ := idx_facts t
  show (V m c main_v45 : S3x1024.Idx → EReal) (((cfg0.win 9).blk t).view.emb (ix2 g j)) = _
  refine congrArg _ (funext fun a => Fin.ext ?_)
  match a with
  | ⟨0, _⟩ => show win0_9.index t (0 : Fin 2) * 3 + 1 * g.val = g.val; omega
  | ⟨1, _⟩ => show win0_9.index t (1 : Fin 2) * 1024 + 1 * j.val = j.val; omega

/-- The cell the body sees in row p of its blocks at point t is row 128 t + p's cell of the arguments. -/
theorem cell_eq (c : Dev nD) (t : Fin cfg0.N) (p : Fin 128) :
    Cell.blockCell (B0 m c t) (B1 m c t) (B2 m c t) (B3 m c t) (B4 m c t) (B5 m c t) (B6 m c t) (B7 m c t) (B8 m c t) (B9 m c t) p = cellAt m c ⟨t.val * 128 + p.val, row_lt t p⟩ := by
  unfold Cell.blockCell cellAt Gru.rowCell
  congr 1
  · funext k; exact (blk_act0 m c t p k).trans (Entry.xRe m c _ k)
  · funext k; exact (blk_act1 m c t p k).trans (Entry.xIm m c _ k)
  · funext k; exact (blk_act2 m c t p k).trans (Entry.hRe m c _ k)
  · funext k; exact (blk_act3 m c t p k).trans (Entry.hIm m c _ k)
  · funext g k j; exact (blk_wt4 m c t g k j).trans (Entry.wRe m c g k j)
  · funext g k j; exact (blk_wt5 m c t g k j).trans (Entry.wIm m c g k j)
  · funext g k j; exact (blk_wt6 m c t g k j).trans (Entry.uRe m c g k j)
  · funext g k j; exact (blk_wt7 m c t g k j).trans (Entry.uIm m c g k j)
  · funext g j; exact (blk_b8 m c t g j).trans (Entry.bRe m c g j)
  · funext g j; exact (blk_b9 m c t g j).trans (Entry.bIm m c g j)

/-- Row p of the first block the body stores at point t: row 128 t + p's new real parts. -/
theorem outRe_row (c : Dev nD) (t : Fin cfg0.N) (p : Fin 128) (q : Fin 1024) :
    Body.outRe (F := Ideal) (B0 m c t) (B1 m c t) (B2 m c t) (B3 m c t) (B4 m c t) (B5 m c t) (B6 m c t) (B7 m c t) (B8 m c t) (B9 m c t) (ix2 p q) = (cellAt m c ⟨t.val * 128 + p.val, row_lt t p⟩).ore q :=
  (Cell.outRe_apply (B0 m c t) (B1 m c t) (B2 m c t) (B3 m c t) (B4 m c t) (B5 m c t) (B6 m c t) (B7 m c t) (B8 m c t) (B9 m c t) p q).trans (congrArg (fun C => Gru.Cell.ore C q) (cell_eq m c t p))

/-- Row p of the second block the body stores at point t: row 128 t + p's new imaginary parts. -/
theorem outIm_row (c : Dev nD) (t : Fin cfg0.N) (p : Fin 128) (q : Fin 1024) :
    Body.outIm (F := Ideal) (B0 m c t) (B1 m c t) (B2 m c t) (B3 m c t) (B4 m c t) (B5 m c t) (B6 m c t) (B7 m c t) (B8 m c t) (B9 m c t) (ix2 p q) = (cellAt m c ⟨t.val * 128 + p.val, row_lt t p⟩).oim q :=
  (Cell.outIm_apply (B0 m c t) (B1 m c t) (B2 m c t) (B3 m c t) (B4 m c t) (B5 m c t) (B6 m c t) (B7 m c t) (B8 m c t) (B9 m c t) p q).trans (congrArg (fun C => Gru.Cell.oim C q) (cell_eq m c t p))

end Cert.KernelIdeal.Value

end
-- ==== Proof.KI.Value.lean ====
/-
  The idealized kernel's result, as one function of its eight arguments.

  Grid point t writes back rows 128 t .. 128 t + 127 of the two result arrays, and those rows are the new state's real
  and imaginary parts at rows 128 t .. 128 t + 127 of the arguments (Blocks.lean).  The blocks of rows tile the two
  arrays, so after the run row b of the first result array is the cell's new real parts at row b, row b of the second
  its new imaginary parts; the last host operation lays the two side by side: the specification's array.
-/
import proofs.«126988_j23922967838776_1_alg».proof.Proof.KI.Blocks
import Idealize.ShloMosaic.Lib.Pipeline.Value
import Idealize.ShloMosaic.Lib.ValueIdx
import Idealize.ShloMosaic.Lib.StableHlo.Run

set_option maxRecDepth 16384

noncomputable section

namespace Cert.KernelIdeal.Value

open Cert.KernelIdeal Cert.KernelIdeal.Gen Cert.KernelIdeal.Around Cert.KernelIdeal.Run
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The first stored block at point t, at any index of the block. -/
theorem outRe_at (c : Dev nD) (t : Fin cfg0.N) (y : S128x1024.Idx) :
    Body.outRe (F := Ideal) (B0 m c t) (B1 m c t) (B2 m c t) (B3 m c t) (B4 m c t) (B5 m c t) (B6 m c t) (B7 m c t) (B8 m c t) (B9 m c t) y
      = (cellAt m c ⟨t.val * 128 + (y 0).val, row_lt t ⟨(y 0).val, idx2_lt0 y⟩⟩).ore ⟨(y 1).val, idx2_lt1 y⟩ := by
  obtain ⟨p, q, rfl⟩ : ∃ (p : Fin 128) (q : Fin 1024), y = ix2 p q := ⟨y 0, y 1, eq_ix2 y⟩
  exact outRe_row m c t p q
/-- The second stored block at point t, at any index of the block. -/
theorem outIm_at (c : Dev nD) (t : Fin cfg0.N) (y : S128x1024.Idx) :
    Body.outIm (F := Ideal) (B0 m c t) (B1 m c t) (B2 m c t) (B3 m c t) (B4 m c t) (B5 m c t) (B6 m c t) (B7 m c t) (B8 m c t) (B9 m c t) y
      = (cellAt m c ⟨t.val * 128 + (y 0).val, row_lt t ⟨(y 0).val, idx2_lt0 y⟩⟩).oim ⟨(y 1).val, idx2_lt1 y⟩ := by
  obtain ⟨p, q, rfl⟩ : ∃ (p : Fin 128) (q : Fin 1024), y = ix2 p q := ⟨y 0, y 1, eq_ix2 y⟩
  exact outIm_row m c t p q

/-- The result arrays at an index whose coordinates are row b and column q. -/
theorem GRe_apply (c : Dev nD) (i : S4096x1024.Idx) (b : Fin 4096) (q : Fin 1024) (hb : (i 0).val = b.val) (hq : (i 1).val = q.val) :
    GRe m c i = (cellAt m c b).ore q := by
  obtain rfl : b = ⟨(i 0).val, idx2_lt0 i⟩ := Fin.ext hb.symm
  obtain rfl : q = ⟨(i 1).val, idx2_lt1 i⟩ := Fin.ext hq.symm
  rfl
theorem GIm_apply (c : Dev nD) (i : S4096x1024.Idx) (b : Fin 4096) (q : Fin 1024) (hb : (i 0).val = b.val) (hq : (i 1).val = q.val) :
    GIm m c i = (cellAt m c b).oim q := by
  obtain rfl : b = ⟨(i 0).val, idx2_lt0 i⟩ := Fin.ext hb.symm
  obtain rfl : q = ⟨(i 1).val, idx2_lt1 i⟩ := Fin.ext hq.symm
  rfl

/-! ## What each grid point writes back, and the arrays after the run -/

/-- Point t writes back rows 128 t .. 128 t + 127 of the new state's real parts. -/
theorem flushedRe_eq (c : Dev nD) (t : Fin cfg0.N) :
    (dats m 0 c).flushed 10 t = ((cfg0.win 10).blk t).view.read (Elt Ideal) (GRe m c) := by
  show (cfg0.win 10).cut (grid0.coords t) ((dats m 0 c).after 10 t) = _
  rw [after_10]
  obtain ⟨e0, e1, e2, e3, e4, e5, e6, e7, e8, e9, e10, e11, e12, e13, e14, e15, e16, e17, e18, e19, e20, e21, e22, e23, e24, e25, e26, e27⟩ := idx_facts t
  funext y
  show Body.outRe (F := Ideal) (B0 m c t) (B1 m c t) (B2 m c t) (B3 m c t) (B4 m c t) (B5 m c t) (B6 m c t) (B7 m c t) (B8 m c t) (B9 m c t) y = GRe m c (((cfg0.win 10).blk t).view.emb y)
  refine (outRe_at m c t y).trans (GRe_apply m c _ _ _ ?_ ?_).symm
  · show win0_10.index t (0 : Fin 2) * 128 + 1 * (y 0).val = t.val * 128 + (y 0).val; omega
  · show win0_10.index t (1 : Fin 2) * 1024 + 1 * (y 1).val = (y 1).val; omega

/-- Point t writes back rows 128 t .. 128 t + 127 of the new state's imaginary parts. -/
theorem flushedIm_eq (c : Dev nD) (t : Fin cfg0.N) :
    (dats m 0 c).flushed 11 t = ((cfg0.win 11).blk t).view.read (Elt Ideal) (GIm m c) := by
  show (cfg0.win 11).cut (grid0.coords t) ((dats m 0 c).after 11 t) = _
  rw [after_11]
  obtain ⟨e0, e1, e2, e3, e4, e5, e6, e7, e8, e9, e10, e11, e12, e13, e14, e15, e16, e17, e18, e19, e20, e21, e22, e23, e24, e25, e26, e27⟩ := idx_facts t
  funext y
  show Body.outIm (F := Ideal) (B0 m c t) (B1 m c t) (B2 m c t) (B3 m c t) (B4 m c t) (B5 m c t) (B6 m c t) (B7 m c t) (B8 m c t) (B9 m c t) y = GIm m c (((cfg0.win 11).blk t).view.emb y)
  refine (outIm_at m c t y).trans (GIm_apply m c _ _ _ ?_ ?_).symm
  · show win0_11.index t (0 : Fin 2) * 128 + 1 * (y 0).val = t.val * 128 + (y 0).val; omega
  · show win0_11.index t (1 : Fin 2) * 1024 + 1 * (y 1).val = (y 1).val; omega

/-- An index of a result array is in point t's block iff each coordinate is in the block's range on its axis. -/
theorem mem_blkRe (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v50_0).slice (win0_10.rect t)).set ↔ _
  rw [View.set_slice_whole, Rect.mem_set_unit]
  exact Iff.rfl
theorem mem_blkIm (t : Fin cfg0.N) (i : S4096x1024.Idx) :
    i ∈ ((cfg0.win 11).blk t).view.set ↔ ∀ a : Fin 2, win0_11.index t a * S128x1024.size a ≤ (i a).val ∧ (i a).val < win0_11.index t a * S128x1024.size a + S128x1024.size a := by
  show i ∈ ((View.whole main_v50_1).slice (win0_11.rect t)).set ↔ _
  rw [View.set_slice_whole, Rect.mem_set_unit]
  exact Iff.rfl

/-- Row r lies in the block of point r / 128: the blocks of rows tile the result arrays. -/
theorem coverRe (i : S4096x1024.Idx) : ∃ t : Fin cfg0.N, (cfg0.win 10).flush t = true ∧ i ∈ ((cfg0.win 10).blk t).view.set := by
  have hi0 : (i 0).val < 4096 := idx2_lt0 i
  have hi1 : (i 1).val < 1024 := idx2_lt1 i
  let t : Fin cfg0.N := ⟨(i 0).val / 128, by rw [show cfg0.N = 32 from N_0]; omega⟩
  obtain ⟨e0, e1, e2, e3, e4, e5, e6, e7, e8, e9, e10, e11, e12, e13, e14, e15, e16, e17, e18, e19, e20, e21, e22, e23, e24, e25, e26, e27⟩ := idx_facts t
  refine ⟨t, flush0_10 t, ?_⟩
  rw [mem_blkRe]
  intro a
  have ht : t.val = (i 0).val / 128 := rfl
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 1024 ≤ (i 1).val ∧ (i 1).val < win0_10.index t (1 : Fin 2) * 1024 + 1024; omega
theorem coverIm (i : S4096x1024.Idx) : ∃ t : Fin cfg0.N, (cfg0.win 11).flush t = true ∧ i ∈ ((cfg0.win 11).blk t).view.set := by
  have hi0 : (i 0).val < 4096 := idx2_lt0 i
  have hi1 : (i 1).val < 1024 := idx2_lt1 i
  let t : Fin cfg0.N := ⟨(i 0).val / 128, by rw [show cfg0.N = 32 from N_0]; omega⟩
  obtain ⟨e0, e1, e2, e3, e4, e5, e6, e7, e8, e9, e10, e11, e12, e13, e14, e15, e16, e17, e18, e19, e20, e21, e22, e23, e24, e25, e26, e27⟩ := idx_facts t
  refine ⟨t, flush0_11 t, ?_⟩
  rw [mem_blkIm]
  intro a
  have ht : t.val = (i 0).val / 128 := rfl
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 1024 ≤ (i 1).val ∧ (i 1).val < win0_11.index t (1 : Fin 2) * 1024 + 1024; omega

/-- The first result array after the run. -/
theorem finalRe (c : Dev nD) : (dats m 0 c).arrAt 10 cfg0.N = GRe m c :=
  (dats m 0 c).arrAt_eq_of_cover 10 (GRe m c) (fun t _ => flushedRe_eq m c t) coverRe
/-- The second result array after the run. -/
theorem finalIm (c : Dev nD) : (dats m 0 c).arrAt 11 cfg0.N = GIm m c :=
  (dats m 0 c).arrAt_eq_of_cover 11 (GIm m c) (fun t _ => flushedIm_eq m c t) coverIm

/-! ## The joined result -/

/-- The last host operation lays the two result arrays side by side: the specification's array. -/
theorem tail_eq (c : Dev nD) :
    (Pipeline.afterTail₀ cfgs (dats m) 0 (V0 m) [hostOps1] c main_v51 : S4096x2048.Idx → EReal)
      = Gru.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v51) = _
  after_results
  have hRe : Pipeline.withArrays (cfgs 0).spec c (V0 m c) (fun w => (dats m 0 c).arrAt w (cfgs 0).N) (Proc.devRef .tc main_v50_0) = GRe m c :=
    (Pipeline.withArrays_arr spec0 launch0.win.arr_inj c _ _ 10).trans (finalRe m c)
  have hIm : Pipeline.withArrays (cfgs 0).spec c (V0 m c) (fun w => (dats m 0 c).arrAt w (cfgs 0).N) (Proc.devRef .tc main_v50_1) = GIm m c :=
    (Pipeline.withArrays_arr spec0 launch0.win.arr_inj c _ _ 11).trans (finalIm m c)
  rw [hRe, hIm]
  funext i
  have hi0 : (i 0).val < 4096 := idx2_lt0 i
  have hi1 : (i 1).val < 2048 := idx2_lt1 i
  by_cases hlt : (i 1).val < 1024
  · refine (concatenate_pair_apply_left (1 : Fin 2) (GRe m c) (GIm m c) concatenates_S4096x1024_S4096x1024_S4096x2048_d1 i rfl
      (ix2 (⟨(i 0).val, hi0⟩ : Fin 4096) (⟨(i 1).val, hlt⟩ : Fin 1024)) (fun b => by
        match b with
        | ⟨0, _⟩ => rfl
        | ⟨1, _⟩ => rfl)).trans ?_
    rw [GRe_apply m c _ ⟨(i 0).val, hi0⟩ ⟨(i 1).val, hlt⟩ rfl rfl]
    unfold Gru.out cellAt
    rw [dif_pos hlt]
    rfl
  · refine (concatenate_pair_apply_right (1 : Fin 2) (GRe m c) (GIm m c) concatenates_S4096x1024_S4096x1024_S4096x2048_d1 i rfl rfl
      (ix2 (⟨(i 0).val, hi0⟩ : Fin 4096) (⟨(i 1).val - 1024, by omega⟩ : Fin 1024)) (fun b hb => by
        match b with
        | ⟨0, _⟩ => rfl
        | ⟨1, _⟩ => exact absurd rfl hb)
      (by show (i 1).val - 1024 + 1024 = (i 1).val; omega)).trans ?_
    rw [GIm_apply m c _ ⟨(i 0).val, hi0⟩ ⟨(i 1).val - 1024, by omega⟩ rfl rfl]
    unfold Gru.out cellAt
    rw [dif_neg hlt]
    rfl

/-! ## The run, read -/

/-- Every weakly fair execution of the idealized kernel's @main terminates with the result array at the specification's
    array of the arguments as launched, and the arguments unchanged. -/
theorem value_run : θ_run defs (onTc (τ := τ) (main (F := Ideal))) ⟨m, fun _ => 0, ρ⟩ (fun r => ∀ c : Dev nD,
      r.2.mem ((c.tc : Thread nD τ).loc main_v51) = Gru.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v51 (Pipeline.mem_restRefs_of main_v51 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Value

end
-- ==== Proof.BlockProduct.lean ====
/-
  The block-matrix form of the complex product.

  A row (a_re | a_im) of 2048 entries times the 2048 x 2048 real matrix
      [ W_re   -W_im ]
      [ W_im    W_re ]
  gives, in its first 1024 columns, a_re W_re + a_im W_im (the real part of the complex product as the cell takes it)
  and, in its last 1024 columns, a_im W_re - a_re W_im (the imaginary part).  The first is regrouping a sum of 2048
  terms into two sums of 1024, which holds for all extended reals.  The second also moves a sign out of a sum,
  sum_k a_k * (-w_k) = -(sum_k a_k * w_k), which fails when terms of both infinite signs meet: it is stated for real
  a_re and W_im.
-/
import proofs.«126988_j23922967838776_1_alg».proof.Proof.Spec
import Idealize.ShloMosaic.Lib.IdealHost

noncomputable section

namespace Cert.Gru

open Idealize.ShloMosaic

/-- The 2048 x 2048 real matrix of a complex 1024 x 1024 one: row k, column c. -/
def blockMat (Wre Wim : Mat) : Fin 2048 → Fin 2048 → EReal := fun k c =>
  if hk : k.val < 1024 then
    (if hc : c.val < 1024 then Wre ⟨k.val, hk⟩ ⟨c.val, hc⟩
     else -(Wim ⟨k.val, hk⟩ ⟨c.val - 1024, by have := c.isLt; omega⟩))
  else
    (if hc : c.val < 1024 then Wim ⟨k.val - 1024, by have := k.isLt; omega⟩ ⟨c.val, hc⟩
     else Wre ⟨k.val - 1024, by have := k.isLt; omega⟩ ⟨c.val - 1024, by have := c.isLt; omega⟩)

/-- A sum over 2048 indices is the sum over the first 1024 plus the sum over the last 1024. -/
theorem sum_halves (f : Fin 2048 → EReal) :
    ∑ k : Fin 2048, f k = (∑ k : Fin 1024, f (lo k)) + ∑ k : Fin 1024, f (up k) := by
  -- 2048 = 1024 + 1024: the first summand's indices keep their value, the second's are shifted by 1024
  have h := Fin.sum_univ_add (a := 1024) (b := 1024) (f : Fin (1024 + 1024) → EReal)
  have hlo : ∀ k : Fin 1024, (Fin.castAdd 1024 k : Fin (1024 + 1024)) = lo k := fun k => Fin.ext rfl
  have hup : ∀ k : Fin 1024, (Fin.natAdd 1024 k : Fin (1024 + 1024)) = up k := fun k => Fin.ext rfl
  simp only [hlo, hup] at h
  exact h

/-- Index k of the imaginary half, less 1024, is k again. -/
private theorem up_sub (k : Fin 1024) (h : (up k).val - 1024 < 1024) : (⟨(up k).val - 1024, h⟩ : Fin 1024) = k :=
  Fin.ext (by show 1024 + k.val - 1024 = k.val; omega)

private theorem not_up_lt (k : Fin 1024) : ¬ (up k).val < 1024 := by
  show ¬ (1024 + k.val < 1024); omega

/-- The four blocks of the matrix, read at the half-indices. -/
private theorem blockMat_lo_lo (Wre Wim : Mat) (k j : Fin 1024) : blockMat Wre Wim (lo k) (lo j) = Wre k j := by
  have hk : (lo k).val < 1024 := k.isLt
  have hj : (lo j).val < 1024 := j.isLt
  unfold blockMat; rw [dif_pos hk, dif_pos hj]; rfl

private theorem blockMat_up_lo (Wre Wim : Mat) (k j : Fin 1024) : blockMat Wre Wim (up k) (lo j) = Wim k j := by
  have hj : (lo j).val < 1024 := j.isLt
  unfold blockMat; rw [dif_neg (not_up_lt k), dif_pos hj, up_sub]; rfl

private theorem blockMat_lo_up (Wre Wim : Mat) (k j : Fin 1024) : blockMat Wre Wim (lo k) (up j) = -(Wim k j) := by
  have hk : (lo k).val < 1024 := k.isLt
  unfold blockMat; rw [dif_pos hk, dif_neg (not_up_lt j), up_sub]; rfl

private theorem blockMat_up_up (Wre Wim : Mat) (k j : Fin 1024) : blockMat Wre Wim (up k) (up j) = Wre k j := by
  unfold blockMat; rw [dif_neg (not_up_lt k), dif_neg (not_up_lt j), up_sub, up_sub]

/-- A finite sum of real numbers, taken in the extended reals, is the real sum. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- For real terms the sign moves out of a finite sum. -/
private theorem sum_neg_real (g : Fin 1024 → ℝ) :
    ∑ k : Fin 1024, -((g k : ℝ) : EReal) = -(∑ k : Fin 1024, ((g k : ℝ) : EReal)) := by
  have h1 : ∀ k, -((g k : ℝ) : EReal) = ((-(g k) : ℝ) : EReal) := fun k => (EReal.coe_neg _).symm
  simp only [h1]
  rw [coe_sum, coe_sum, Finset.sum_neg_distrib, EReal.coe_neg]

/-- The first 1024 columns of the block product are the real part. -/
theorem dot_block_lo (a : Fin 2048 → EReal) (Wre Wim : Mat) (j : Fin 1024) :
    ∑ k : Fin 2048, a k * blockMat Wre Wim k (lo j) = cre (fun k => a (lo k)) (fun k => a (up k)) Wre Wim j := by
  rw [sum_halves]
  simp only [blockMat_lo_lo, blockMat_up_lo]
  rfl

/-- The last 1024 columns of the block product are the imaginary part, for a real row half and a real W_im. -/
theorem dot_block_up (a : Fin 2048 → EReal) (Wre Wim : Mat) (ha : ∀ k : Fin 1024, IsReal (a (lo k)))
    (hW : ∀ k j : Fin 1024, IsReal (Wim k j)) (j : Fin 1024) :
    ∑ k : Fin 2048, a k * blockMat Wre Wim k (up j) = cim (fun k => a (lo k)) (fun k => a (up k)) Wre Wim j := by
  rw [sum_halves]
  simp only [blockMat_lo_up, blockMat_up_up]
  -- the real entries as coercions of real numbers
  choose r hr using ha
  choose w hw using hW
  have hterm : ∀ k : Fin 1024, a (lo k) * -(Wim k j) = -(((r k * w k j : ℝ)) : EReal) := by
    intro k; rw [hr k, hw k j, mul_neg, ← EReal.coe_mul]
  have hterm' : ∀ k : Fin 1024, a (lo k) * Wim k j = (((r k * w k j : ℝ)) : EReal) := by
    intro k; rw [hr k, hw k j, ← EReal.coe_mul]
  unfold cim
  simp only [hterm, hterm']
  rw [sum_neg_real, add_comm, sub_eq_add_neg]

/-- The hard sigmoid of anything is a real number (it lies between 0 and 1). -/
theorem hsig_isReal (y : EReal) : IsReal (hsig y) := by
  -- the value is min 1 (max 0 t): at most 1, at least 0, so neither infinity
  unfold hsig
  rw [Ideal.ofBits_one_f32, Ideal.ofBits_zero_f32]
  generalize Ideal.ofBits .f32 0x3E4CCCCD#32 * y + Ideal.ofBits .f32 0x3F000000#32 = t
  have hle : min (1 : EReal) (max 0 t) ≤ 1 := min_le_left _ _
  have hge : (0 : EReal) ≤ min (1 : EReal) (max 0 t) := le_min zero_le_one (le_max_left _ _)
  have htop : min (1 : EReal) (max 0 t) ≠ ⊤ := ne_top_of_le_ne_top (EReal.coe_ne_top 1) hle
  have hbot : min (1 : EReal) (max 0 t) ≠ ⊥ := ne_bot_of_le_ne_bot EReal.zero_ne_bot hge
  exact ⟨(min (1 : EReal) (max 0 t)).toReal, (EReal.coe_toReal htop hbot).symm⟩

/-- A product of real numbers is a real number. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

end Cert.Gru

end
-- ==== Proof.RefBlocks.lean ====
/-
  The reference's block matrices and joined biases, entry by entry.

  Per gate the reference cuts the gate's 1024 columns out of the real and the imaginary weight array, negates the
  imaginary one, and joins the four pieces into [[W_re, -W_im], [W_im, W_re]]: first side by side (W_re | -W_im) and
  (W_im | W_re), then one above the other.  Per gate it also joins the gate's 1024 real bias entries and 1024 imaginary
  ones end to end.
-/
import proofs.«126988_j23922967838776_1_alg».proof.Proof.Gen.ReferenceIdeal.Read
import proofs.«126988_j23922967838776_1_alg».proof.Proof.Spec
import proofs.«126988_j23922967838776_1_alg».proof.Proof.BlockProduct
import Idealize.ShloMosaic.Lib.Pipeline.Value
import Idealize.ShloMosaic.Lib.ValueIdx
import Idealize.ShloMosaic.Lib.ValueLayout

set_option maxRecDepth 16384

noncomputable section

namespace Cert.RefBlocks

open Cert.ReferenceIdeal Idealize.ShloMosaic Idealize.ShloMosaic.ValueIdx

/-- Gate g's bias joined: the real parts in entries 0..1023, the imaginary parts in entries 1024..2047. -/
def joined (br bi : Gru.Bias) (g : Fin 3) (c : Fin 2048) : EReal :=
  if h : c.val < 1024 then br (ix1 (Gru.gcol g ⟨c.val, h⟩))
  else bi (ix1 (Gru.gcol g ⟨c.val - 1024, by have := c.isLt; omega⟩))

/-- Four 1024 x 1024 pieces joined two by two, read at row k and column c. -/
private theorem quad_apply {α : Type} (A B C D : S1024x1024.Idx → α) (k c : Fin 2048) :
    concatenate S2048x2048 0
      [⟨S1024x2048, concatenate S1024x2048 1 [⟨S1024x1024, A⟩, ⟨S1024x1024, B⟩]
          Gen.concatenates_S1024x1024_S1024x1024_S1024x2048_d1⟩,
       ⟨S1024x2048, concatenate S1024x2048 1 [⟨S1024x1024, C⟩, ⟨S1024x1024, D⟩]
          Gen.concatenates_S1024x1024_S1024x1024_S1024x2048_d1⟩]
      Gen.concatenates_S1024x2048_S1024x2048_S2048x2048_d0 (ix2 k c)
    = if hk : k.val < 1024 then
        (if hc : c.val < 1024 then A (ix2 ⟨k.val, hk⟩ ⟨c.val, hc⟩)
         else B (ix2 ⟨k.val, hk⟩ ⟨c.val - 1024, by have := c.isLt; omega⟩))
      else
        (if hc : c.val < 1024 then C (ix2 ⟨k.val - 1024, by have := k.isLt; omega⟩ ⟨c.val, hc⟩)
         else D (ix2 ⟨k.val - 1024, by have := k.isLt; omega⟩ ⟨c.val - 1024, by have := c.isLt; omega⟩)) := by
  by_cases hk : k.val < 1024
  · rw [dif_pos hk]
    rw [concatenate_pair_apply_left (t := S2048x2048) (s₁ := S1024x2048) (s₂ := S1024x2048) 0 _ _ _ (ix2 k c) rfl
      (ix2 (⟨k.val, hk⟩ : Fin 1024) c) (fun b => by
        match b with
        | ⟨0, _⟩ => rfl
        | ⟨1, _⟩ => rfl)]
    by_cases hc : c.val < 1024
    · rw [dif_pos hc]
      exact concatenate_pair_apply_left (t := S1024x2048) (s₁ := S1024x1024) (s₂ := S1024x1024) 1 _ _ _ _ rfl
        (ix2 (⟨k.val, hk⟩ : Fin 1024) (⟨c.val, hc⟩ : Fin 1024)) (fun b => by
          match b with
          | ⟨0, _⟩ => rfl
          | ⟨1, _⟩ => rfl)
    · rw [dif_neg hc]
      exact concatenate_pair_apply_right (t := S1024x2048) (s₁ := S1024x1024) (s₂ := S1024x1024) 1 _ _ _ _ rfl rfl
        (ix2 (⟨k.val, hk⟩ : Fin 1024) (⟨c.val - 1024, by have := c.isLt; omega⟩ : Fin 1024)) (fun b hb => by
          match b with
          | ⟨0, _⟩ => rfl
          | ⟨1, _⟩ => exact absurd rfl hb)
        (by show c.val - 1024 + 1024 = c.val; omega)
  · rw [dif_neg hk]
    rw [concatenate_pair_apply_right (t := S2048x2048) (s₁ := S1024x2048) (s₂ := S1024x2048) 0 _ _ _ (ix2 k c) rfl rfl
      (ix2 (⟨k.val - 1024, by have := k.isLt; omega⟩ : Fin 1024) c) (fun b hb => by
        match b with
        | ⟨0, _⟩ => exact absurd rfl hb
        | ⟨1, _⟩ => rfl)
      (by show k.val - 1024 + 1024 = k.val; omega)]
    by_cases hc : c.val < 1024
    · rw [dif_pos hc]
      exact concatenate_pair_apply_left (t := S1024x2048) (s₁ := S1024x1024) (s₂ := S1024x1024) 1 _ _ _ _ rfl
        (ix2 (⟨k.val - 1024, by have := k.isLt; omega⟩ : Fin 1024) (⟨c.val, hc⟩ : Fin 1024)) (fun b => by
          match b with
          | ⟨0, _⟩ => rfl
          | ⟨1, _⟩ => rfl)
    · rw [dif_neg hc]
      exact concatenate_pair_apply_right (t := S1024x2048) (s₁ := S1024x1024) (s₂ := S1024x1024) 1 _ _ _ _ rfl rfl
        (ix2 (⟨k.val - 1024, by have := k.isLt; omega⟩ : Fin 1024) (⟨c.val - 1024, by have := c.isLt; omega⟩ : Fin 1024)) (fun b hb => by
          match b with
          | ⟨0, _⟩ => rfl
          | ⟨1, _⟩ => exact absurd rfl hb)
        (by show c.val - 1024 + 1024 = c.val; omega)

/-- Four pieces that hold W_re, -W_im, W_im, W_re, joined two by two, are the block matrix of (W_re, W_im). -/
private theorem quad_block {A B C D : S1024x1024.Idx → EReal} {Wre Wim : Gru.Mat}
    (hA : ∀ k c : Fin 1024, A (ix2 k c) = Wre k c)
    (hB : ∀ k c : Fin 1024, B (ix2 k c) = -(Wim k c))
    (hC : ∀ k c : Fin 1024, C (ix2 k c) = Wim k c)
    (hD : ∀ k c : Fin 1024, D (ix2 k c) = Wre k c) (k c : Fin 2048) :
    concatenate S2048x2048 0
      [⟨S1024x2048, concatenate S1024x2048 1 [⟨S1024x1024, A⟩, ⟨S1024x1024, B⟩]
          Gen.concatenates_S1024x1024_S1024x1024_S1024x2048_d1⟩,
       ⟨S1024x2048, concatenate S1024x2048 1 [⟨S1024x1024, C⟩, ⟨S1024x1024, D⟩]
          Gen.concatenates_S1024x1024_S1024x1024_S1024x2048_d1⟩]
      Gen.concatenates_S1024x2048_S1024x2048_S2048x2048_d0 (ix2 k c)
    = Gru.blockMat Wre Wim k c := by
  rw [quad_apply]
  unfold Gru.blockMat
  by_cases hk : k.val < 1024 <;> by_cases hc : c.val < 1024
  · simp only [dif_pos hk, dif_pos hc, hA]
  · simp only [dif_pos hk, dif_neg hc, hB]
  · simp only [dif_neg hk, dif_pos hc, hC]
  · simp only [dif_neg hk, dif_neg hc, hD]

/-- A weight array read at row k and column g * 1024 + c is gate g's entry (k, c). -/
private theorem gate_read (W : Gru.Wts) (g : Fin 3) (k c : Fin 1024) (i : S1024x3072.Idx)
    (h0 : (i 0).val = k.val) (h1 : (i 1).val = g.val * 1024 + c.val) : W i = Gru.gate W g k c := by
  unfold Gru.gate Gru.gcol
  exact congrArg W (funext fun a => Fin.ext (by
    match a with
    | ⟨0, _⟩ => exact h0
    | ⟨1, _⟩ => exact h1))

/-- Two pieces of 1024 entries joined end to end, read at entry c. -/
private theorem pair_apply {α : Type} (A B : S1024.Idx → α) (c : Fin 2048) :
    concatenate S2048 0 [⟨S1024, A⟩, ⟨S1024, B⟩] Gen.concatenates_S1024_S1024_S2048_d0 (ix1 c)
    = if h : c.val < 1024 then A (ix1 ⟨c.val, h⟩)
      else B (ix1 ⟨c.val - 1024, by have := c.isLt; omega⟩) := by
  by_cases hc : c.val < 1024
  · rw [dif_pos hc]
    exact concatenate_pair_apply_left (t := S2048) (s₁ := S1024) (s₂ := S1024) 0 _ _ _ _ rfl
      (ix1 (⟨c.val, hc⟩ : Fin 1024)) (fun b => by
        match b with
        | ⟨0, _⟩ => rfl)
  · rw [dif_neg hc]
    exact concatenate_pair_apply_right (t := S2048) (s₁ := S1024) (s₂ := S1024) 0 _ _ _ _ rfl rfl
      (ix1 (⟨c.val - 1024, by have := c.isLt; omega⟩ : Fin 1024)) (fun b hb => by
        match b with
        | ⟨0, _⟩ => exact absurd rfl hb)
      (by show c.val - 1024 + 1024 = c.val; omega)

/-- A bias array read at entry g * 1024 + j is gate g's entry j. -/
private theorem bias_read (v : Gru.Bias) (g : Fin 3) (j : Fin 1024) (i : S3072.Idx)
    (h : (i 0).val = g.val * 1024 + j.val) : v i = v (ix1 (Gru.gcol g j)) := by
  unfold Gru.gcol
  exact congrArg v (funext fun a => Fin.ext (by
    match a with
    | ⟨0, _⟩ => exact h))

/-- Two pieces that hold gate g's real and imaginary bias entries, joined end to end, are the joined bias. -/
private theorem pair_joined {A B : S1024.Idx → EReal} {br bi : Gru.Bias} {g : Fin 3}
    (hA : ∀ j : Fin 1024, A (ix1 j) = br (ix1 (Gru.gcol g j)))
    (hB : ∀ j : Fin 1024, B (ix1 j) = bi (ix1 (Gru.gcol g j))) (c : Fin 2048) :
    concatenate S2048 0 [⟨S1024, A⟩, ⟨S1024, B⟩] Gen.concatenates_S1024_S1024_S2048_d0 (ix1 c)
    = joined br bi g c := by
  rw [pair_apply]
  unfold joined
  by_cases hc : c.val < 1024
  · simp only [dif_pos hc, hA]
  · simp only [dif_neg hc, hB]

/-- The input weights' block matrix, gate z. -/
theorem blk_w0 (x2 x3 : (⟨S1024x3072, .f32⟩ : BufTy).Contents (Elt Ideal)) (k c : Fin 2048) :
    Cert.ReferenceIdeal.Read.val_main_v21 (F := Ideal) x2 x3 (ix2 k c) = Gru.blockMat (Gru.gate x2 0) (Gru.gate x3 0) k c := by
  unfold Read.val_main_v21 Read.val_main_v19 Read.val_main_v20
  exact quad_block (Wre := Gru.gate x2 0) (Wim := Gru.gate x3 0)
    (fun k c => by
      rw [Read.val_main_v0_apply]
      exact gate_read x2 0 k c _ rfl (by show c.val = 0 * 1024 + c.val; omega))
    (fun k c => by
      rw [Read.val_main_v18_apply, Read.val_main_v3_apply]
      exact congrArg (fun y : EReal => -y)
        (gate_read x3 0 k c _ rfl (by show c.val = 0 * 1024 + c.val; omega)))
    (fun k c => by
      rw [Read.val_main_v3_apply]
      exact gate_read x3 0 k c _ rfl (by show c.val = 0 * 1024 + c.val; omega))
    (fun k c => by
      rw [Read.val_main_v0_apply]
      exact gate_read x2 0 k c _ rfl (by show c.val = 0 * 1024 + c.val; omega)) k c

/-- The input weights' block matrix, gate r. -/
theorem blk_w1 (x2 x3 : (⟨S1024x3072, .f32⟩ : BufTy).Contents (Elt Ideal)) (k c : Fin 2048) :
    Cert.ReferenceIdeal.Read.val_main_v30 (F := Ideal) x2 x3 (ix2 k c) = Gru.blockMat (Gru.gate x2 1) (Gru.gate x3 1) k c := by
  unfold Read.val_main_v30 Read.val_main_v28 Read.val_main_v29
  exact quad_block (Wre := Gru.gate x2 1) (Wim := Gru.gate x3 1)
    (fun k c => by
      rw [Read.val_main_v1_apply]
      exact gate_read x2 1 k c _ rfl (by show 1024 + c.val = 1 * 1024 + c.val; omega))
    (fun k c => by
      rw [Read.val_main_v27_apply, Read.val_main_v4_apply]
      exact congrArg (fun y : EReal => -y)
        (gate_read x3 1 k c _ rfl (by show 1024 + c.val = 1 * 1024 + c.val; omega)))
    (fun k c => by
      rw [Read.val_main_v4_apply]
      exact gate_read x3 1 k c _ rfl (by show 1024 + c.val = 1 * 1024 + c.val; omega))
    (fun k c => by
      rw [Read.val_main_v1_apply]
      exact gate_read x2 1 k c _ rfl (by show 1024 + c.val = 1 * 1024 + c.val; omega)) k c

/-- The input weights' block matrix, gate h. -/
theorem blk_w2 (x2 x3 : (⟨S1024x3072, .f32⟩ : BufTy).Contents (Elt Ideal)) (k c : Fin 2048) :
    Cert.ReferenceIdeal.Read.val_main_v39 (F := Ideal) x2 x3 (ix2 k c) = Gru.blockMat (Gru.gate x2 2) (Gru.gate x3 2) k c := by
  unfold Read.val_main_v39 Read.val_main_v37 Read.val_main_v38
  exact quad_block (Wre := Gru.gate x2 2) (Wim := Gru.gate x3 2)
    (fun k c => by
      rw [Read.val_main_v2_apply]
      exact gate_read x2 2 k c _ rfl (by show 2048 + c.val = 2 * 1024 + c.val; omega))
    (fun k c => by
      rw [Read.val_main_v36_apply, Read.val_main_v5_apply]
      exact congrArg (fun y : EReal => -y)
        (gate_read x3 2 k c _ rfl (by show 2048 + c.val = 2 * 1024 + c.val; omega)))
    (fun k c => by
      rw [Read.val_main_v5_apply]
      exact gate_read x3 2 k c _ rfl (by show 2048 + c.val = 2 * 1024 + c.val; omega))
    (fun k c => by
      rw [Read.val_main_v2_apply]
      exact gate_read x2 2 k c _ rfl (by show 2048 + c.val = 2 * 1024 + c.val; omega)) k c

/-- The recurrent weights' block matrix, gate z. -/
theorem blk_u0 (x4 x5 : (⟨S1024x3072, .f32⟩ : BufTy).Contents (Elt Ideal)) (k c : Fin 2048) :
    Cert.ReferenceIdeal.Read.val_main_v48 (F := Ideal) x4 x5 (ix2 k c) = Gru.blockMat (Gru.gate x4 0) (Gru.gate x5 0) k c := by
  unfold Read.val_main_v48 Read.val_main_v46 Read.val_main_v47
  exact quad_block (Wre := Gru.gate x4 0) (Wim := Gru.gate x5 0)
    (fun k c => by
      rw [Read.val_main_v6_apply]
      exact gate_read x4 0 k c _ rfl (by show c.val = 0 * 1024 + c.val; omega))
    (fun k c => by
      rw [Read.val_main_v45_apply, Read.val_main_v9_apply]
      exact congrArg (fun y : EReal => -y)
        (gate_read x5 0 k c _ rfl (by show c.val = 0 * 1024 + c.val; omega)))
    (fun k c => by
      rw [Read.val_main_v9_apply]
      exact gate_read x5 0 k c _ rfl (by show c.val = 0 * 1024 + c.val; omega))
    (fun k c => by
      rw [Read.val_main_v6_apply]
      exact gate_read x4 0 k c _ rfl (by show c.val = 0 * 1024 + c.val; omega)) k c

/-- The recurrent weights' block matrix, gate r. -/
theorem blk_u1 (x4 x5 : (⟨S1024x3072, .f32⟩ : BufTy).Contents (Elt Ideal)) (k c : Fin 2048) :
    Cert.ReferenceIdeal.Read.val_main_v59 (F := Ideal) x4 x5 (ix2 k c) = Gru.blockMat (Gru.gate x4 1) (Gru.gate x5 1) k c := by
  unfold Read.val_main_v59 Read.val_main_v57 Read.val_main_v58
  exact quad_block (Wre := Gru.gate x4 1) (Wim := Gru.gate x5 1)
    (fun k c => by
      rw [Read.val_main_v7_apply]
      exact gate_read x4 1 k c _ rfl (by show 1024 + c.val = 1 * 1024 + c.val; omega))
    (fun k c => by
      rw [Read.val_main_v56_apply, Read.val_main_v10_apply]
      exact congrArg (fun y : EReal => -y)
        (gate_read x5 1 k c _ rfl (by show 1024 + c.val = 1 * 1024 + c.val; omega)))
    (fun k c => by
      rw [Read.val_main_v10_apply]
      exact gate_read x5 1 k c _ rfl (by show 1024 + c.val = 1 * 1024 + c.val; omega))
    (fun k c => by
      rw [Read.val_main_v7_apply]
      exact gate_read x4 1 k c _ rfl (by show 1024 + c.val = 1 * 1024 + c.val; omega)) k c

/-- The recurrent weights' block matrix, gate h. -/
theorem blk_u2 (x4 x5 : (⟨S1024x3072, .f32⟩ : BufTy).Contents (Elt Ideal)) (k c : Fin 2048) :
    Cert.ReferenceIdeal.Read.val_main_v71 (F := Ideal) x4 x5 (ix2 k c) = Gru.blockMat (Gru.gate x4 2) (Gru.gate x5 2) k c := by
  unfold Read.val_main_v71 Read.val_main_v69 Read.val_main_v70
  exact quad_block (Wre := Gru.gate x4 2) (Wim := Gru.gate x5 2)
    (fun k c => by
      rw [Read.val_main_v8_apply]
      exact gate_read x4 2 k c _ rfl (by show 2048 + c.val = 2 * 1024 + c.val; omega))
    (fun k c => by
      rw [Read.val_main_v68_apply, Read.val_main_v11_apply]
      exact congrArg (fun y : EReal => -y)
        (gate_read x5 2 k c _ rfl (by show 2048 + c.val = 2 * 1024 + c.val; omega)))
    (fun k c => by
      rw [Read.val_main_v11_apply]
      exact gate_read x5 2 k c _ rfl (by show 2048 + c.val = 2 * 1024 + c.val; omega))
    (fun k c => by
      rw [Read.val_main_v8_apply]
      exact gate_read x4 2 k c _ rfl (by show 2048 + c.val = 2 * 1024 + c.val; omega)) k c

/-- Gate 0's bias, real parts then imaginary parts. -/
theorem bias0 (x6 x7 : (⟨S3072, .f32⟩ : BufTy).Contents (Elt Ideal)) (c : Fin 2048) :
    Cert.ReferenceIdeal.Read.val_main_v23 (F := Ideal) x6 x7 (ix1 c) = joined x6 x7 0 c := by
  unfold Read.val_main_v23
  exact pair_joined (br := x6) (bi := x7) (g := 0)
    (fun j => by
      rw [Read.val_main_v12_apply]
      exact bias_read x6 0 j _ (by show j.val = 0 * 1024 + j.val; omega))
    (fun j => by
      rw [Read.val_main_v15_apply]
      exact bias_read x7 0 j _ (by show j.val = 0 * 1024 + j.val; omega)) c

/-- Gate 1's bias, real parts then imaginary parts. -/
theorem bias1 (x6 x7 : (⟨S3072, .f32⟩ : BufTy).Contents (Elt Ideal)) (c : Fin 2048) :
    Cert.ReferenceIdeal.Read.val_main_v32 (F := Ideal) x6 x7 (ix1 c) = joined x6 x7 1 c := by
  unfold Read.val_main_v32
  exact pair_joined (br := x6) (bi := x7) (g := 1)
    (fun j => by
      rw [Read.val_main_v13_apply]
      exact bias_read x6 1 j _ (by show 1024 + j.val = 1 * 1024 + j.val; omega))
    (fun j => by
      rw [Read.val_main_v16_apply]
      exact bias_read x7 1 j _ (by show 1024 + j.val = 1 * 1024 + j.val; omega)) c

/-- Gate 2's bias, real parts then imaginary parts. -/
theorem bias2 (x6 x7 : (⟨S3072, .f32⟩ : BufTy).Contents (Elt Ideal)) (c : Fin 2048) :
    Cert.ReferenceIdeal.Read.val_main_v41 (F := Ideal) x6 x7 (ix1 c) = joined x6 x7 2 c := by
  unfold Read.val_main_v41
  exact pair_joined (br := x6) (bi := x7) (g := 2)
    (fun j => by
      rw [Read.val_main_v14_apply]
      exact bias_read x6 2 j _ (by show 2048 + j.val = 2 * 1024 + j.val; omega))
    (fun j => by
      rw [Read.val_main_v17_apply]
      exact bias_read x7 2 j _ (by show 2048 + j.val = 2 * 1024 + j.val; omega)) c

end Cert.RefBlocks

end
-- ==== Proof.RefValue.lean ====
/-
  The reference's result is the specification's, entry by entry, for real inputs.

  The reference forms, per gate, the 2048 x 2048 block matrix [[W_re, -W_im], [W_im, W_re]] of the complex weight and
  multiplies whole 2048-entry rows by it; its biases are the real and imaginary parts laid end to end; its hard sigmoid
  is the same clip; everything else is entrywise.  With the block product (BlockProduct.lean) each of its matrix
  products is the cell's real part in columns 0..1023 and its imaginary part in columns 1024..2047.
-/
import proofs.«126988_j23922967838776_1_alg».proof.Proof.Gen.ReferenceIdeal.Read
import proofs.«126988_j23922967838776_1_alg».proof.Proof.Spec
import proofs.«126988_j23922967838776_1_alg».proof.Proof.BlockProduct
import proofs.«126988_j23922967838776_1_alg».proof.Proof.RefBlocks
import proofs.«126988_j23922967838776_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefValue

open Cert.ReferenceIdeal Idealize.ShloMosaic Idealize.ShloMosaic.ValueIdx

/-! ## Private helpers

Everything below is read at one entry (row b, column c) of the [4096, 2048] arrays.  First the reference's matrix
products and biases in block form, with no case split on the column; then the two halves of the columns, where the
block products become the cell's real and imaginary parts. -/

section Helpers

variable (x0 x1 : (⟨S4096x2048, .f32⟩ : BufTy).Contents (Elt Ideal))
  (x2 x3 x4 x5 : (⟨S1024x3072, .f32⟩ : BufTy).Contents (Elt Ideal))
  (x6 x7 : (⟨S3072, .f32⟩ : BufTy).Contents (Elt Ideal))

/-- The left operand of a row-by-matrix product is read at (row b, position k). -/
private theorem lidx_ix2 (b : Fin 4096) (c k : Fin 2048) : Read.lidx_main_v22 (ix2 b c) k = ix2 b k := by
  funext a; match a with
  | ⟨0, _⟩ => rfl
  | ⟨1, _⟩ => rfl

/-- The right operand of a row-by-matrix product is read at (position k, column c). -/
private theorem ridx_ix2 (b : Fin 4096) (c k : Fin 2048) : Read.ridx_main_v22 (ix2 b c) k = ix2 k c := by
  funext a; match a with
  | ⟨0, _⟩ => rfl
  | ⟨1, _⟩ => rfl

/-- A row times a matrix whose entries are a block matrix's: the sum over the 2048 positions. -/
private theorem dot_rows (a : S4096x2048.Idx → EReal) (M : S2048x2048.Idx → EReal) (Wre Wim : Gru.Mat)
    (hM : ∀ k c : Fin 2048, M (ix2 k c) = Gru.blockMat Wre Wim k c) (b : Fin 4096) (c : Fin 2048) :
    ∑ k : Fin 2048, a (Read.lidx_main_v22 (ix2 b c) k) * M (Read.ridx_main_v22 (ix2 b c) k)
      = ∑ k : Fin 2048, a (ix2 b k) * Gru.blockMat Wre Wim k c := by
  refine Finset.sum_congr rfl fun k _ => ?_
  rw [lidx_ix2, ridx_ix2, hM]

/-- The joined bias, broadcast to every row, is read at its column. -/
private theorem bidx_ix1 (b : Fin 4096) (c : Fin 2048) : Read.idx_main_v24 (Read.idx_main_v25 (ix2 b c)) = ix1 c := by
  funext a; match a with
  | ⟨0, _⟩ => rfl

/-! ### The six matrix products -/

private theorem dot22 (b : Fin 4096) (c : Fin 2048) :
    Read.val_main_v22 (F := Ideal) x0 x2 x3 (ix2 b c)
      = ∑ k : Fin 2048, x0 (ix2 b k) * Gru.blockMat (Gru.gate x2 0) (Gru.gate x3 0) k c := by
  rw [Read.val_main_v22_apply]; exact dot_rows x0 _ _ _ (RefBlocks.blk_w0 x2 x3) b c

private theorem dot31 (b : Fin 4096) (c : Fin 2048) :
    Read.val_main_v31 (F := Ideal) x0 x2 x3 (ix2 b c)
      = ∑ k : Fin 2048, x0 (ix2 b k) * Gru.blockMat (Gru.gate x2 1) (Gru.gate x3 1) k c := by
  rw [Read.val_main_v31_apply]; exact dot_rows x0 _ _ _ (RefBlocks.blk_w1 x2 x3) b c

private theorem dot40 (b : Fin 4096) (c : Fin 2048) :
    Read.val_main_v40 (F := Ideal) x0 x2 x3 (ix2 b c)
      = ∑ k : Fin 2048, x0 (ix2 b k) * Gru.blockMat (Gru.gate x2 2) (Gru.gate x3 2) k c := by
  rw [Read.val_main_v40_apply]; exact dot_rows x0 _ _ _ (RefBlocks.blk_w2 x2 x3) b c

private theorem dot49 (b : Fin 4096) (c : Fin 2048) :
    Read.val_main_v49 (F := Ideal) x1 x4 x5 (ix2 b c)
      = ∑ k : Fin 2048, x1 (ix2 b k) * Gru.blockMat (Gru.gate x4 0) (Gru.gate x5 0) k c := by
  rw [Read.val_main_v49_apply]; exact dot_rows x1 _ _ _ (RefBlocks.blk_u0 x4 x5) b c

private theorem dot60 (b : Fin 4096) (c : Fin 2048) :
    Read.val_main_v60 (F := Ideal) x1 x4 x5 (ix2 b c)
      = ∑ k : Fin 2048, x1 (ix2 b k) * Gru.blockMat (Gru.gate x4 1) (Gru.gate x5 1) k c := by
  rw [Read.val_main_v60_apply]; exact dot_rows x1 _ _ _ (RefBlocks.blk_u1 x4 x5) b c

private theorem dot72 (b : Fin 4096) (c : Fin 2048) :
    Read.val_main_v72 (F := Ideal) x0 x1 x2 x3 x4 x5 x6 x7 (ix2 b c)
      = ∑ k : Fin 2048, Read.val_main_v67 (F := Ideal) x0 x1 x2 x3 x4 x5 x6 x7 (ix2 b k)
          * Gru.blockMat (Gru.gate x4 2) (Gru.gate x5 2) k c := by
  rw [Read.val_main_v72_apply]
  exact dot_rows (Read.val_main_v67 (F := Ideal) x0 x1 x2 x3 x4 x5 x6 x7) _ _ _ (RefBlocks.blk_u2 x4 x5) b c

/-! ### The three biases -/

private theorem bias25 (b : Fin 4096) (c : Fin 2048) :
    Read.val_main_v25 (F := Ideal) x6 x7 (ix2 b c) = RefBlocks.joined x6 x7 0 c := by
  rw [Read.val_main_v25_apply, Read.val_main_v24_apply]
  exact (congrArg _ (bidx_ix1 b c)).trans (RefBlocks.bias0 x6 x7 c)

private theorem bias34 (b : Fin 4096) (c : Fin 2048) :
    Read.val_main_v34 (F := Ideal) x6 x7 (ix2 b c) = RefBlocks.joined x6 x7 1 c := by
  rw [Read.val_main_v34_apply, Read.val_main_v33_apply]
  exact (congrArg _ (bidx_ix1 b c)).trans (RefBlocks.bias1 x6 x7 c)

private theorem bias43 (b : Fin 4096) (c : Fin 2048) :
    Read.val_main_v43 (F := Ideal) x6 x7 (ix2 b c) = RefBlocks.joined x6 x7 2 c := by
  rw [Read.val_main_v43_apply, Read.val_main_v42_apply]
  exact (congrArg _ (bidx_ix1 b c)).trans (RefBlocks.bias2 x6 x7 c)

/-! ### A gate's argument in block form -/

/-- Input row times the gate's input block matrix, plus the joined bias, plus state row times the gate's recurrent
    block matrix: what the hard sigmoid (gates z, r) or the hyperbolic tangent (candidate) is applied to, at column c. -/
private def garg (x h : Fin 2048 → EReal) (Wr Wi Ur Ui : Gru.Mat) (br bi : Gru.Bias) (g : Fin 3) (c : Fin 2048) : EReal :=
  ((∑ k : Fin 2048, x k * Gru.blockMat Wr Wi k c) + RefBlocks.joined br bi g c)
    + ∑ k : Fin 2048, h k * Gru.blockMat Ur Ui k c

/-- The update gate at (b, c). -/
private theorem z_at (b : Fin 4096) (c : Fin 2048) :
    Read.val_main_v55 (F := Ideal) x0 x1 x2 x3 x4 x5 x6 x7 (ix2 b c)
      = Gru.hsig (garg (fun k => x0 (ix2 b k)) (fun k => x1 (ix2 b k))
          (Gru.gate x2 0) (Gru.gate x3 0) (Gru.gate x4 0) (Gru.gate x5 0) x6 x7 0 c) := by
  rw [Read.val_main_v55_apply, Read.val_main_call0_v4_apply, Read.val_main_call0_v3_apply, Read.val_main_cst_2_apply,
    Read.val_main_call0_v2_apply, Read.val_main_call0_v1_apply, Read.val_main_call0_v0_apply, Read.val_main_cst_1_apply,
    Read.val_main_v54_apply, Read.val_main_v52_apply, Read.val_main_v51_apply, Read.val_main_cst_apply,
    Read.val_main_v53_apply, Read.val_main_cst_0_apply, Read.val_main_v50_apply, Read.val_main_v26_apply,
    dot22, bias25, dot49]
  rfl

/-- The reset gate at (b, c). -/
private theorem r_at (b : Fin 4096) (c : Fin 2048) :
    Read.val_main_v66 (F := Ideal) x0 x1 x2 x3 x4 x5 x6 x7 (ix2 b c)
      = Gru.hsig (garg (fun k => x0 (ix2 b k)) (fun k => x1 (ix2 b k))
          (Gru.gate x2 1) (Gru.gate x3 1) (Gru.gate x4 1) (Gru.gate x5 1) x6 x7 1 c) := by
  rw [Read.val_main_v66_apply, Read.val_main_call1_v4_apply, Read.val_main_call1_v3_apply, Read.val_main_cst_6_apply,
    Read.val_main_call1_v2_apply, Read.val_main_call1_v1_apply, Read.val_main_call1_v0_apply, Read.val_main_cst_5_apply,
    Read.val_main_v65_apply, Read.val_main_v63_apply, Read.val_main_v62_apply, Read.val_main_cst_3_apply,
    Read.val_main_v64_apply, Read.val_main_cst_4_apply, Read.val_main_v61_apply, Read.val_main_v35_apply,
    dot31, bias34, dot60]
  rfl

/-- The candidate's argument at (b, c); its state row is the reset state r * h. -/
private theorem n_at (b : Fin 4096) (c : Fin 2048) :
    Read.val_main_v73 (F := Ideal) x0 x1 x2 x3 x4 x5 x6 x7 (ix2 b c)
      = garg (fun k => x0 (ix2 b k)) (fun k => Read.val_main_v67 (F := Ideal) x0 x1 x2 x3 x4 x5 x6 x7 (ix2 b k))
          (Gru.gate x2 2) (Gru.gate x3 2) (Gru.gate x4 2) (Gru.gate x5 2) x6 x7 2 c := by
  rw [Read.val_main_v73_apply, Read.val_main_v44_apply, dot40, bias43, dot72]
  rfl

/-- The result at (b, c): z * h + (1 - z) * tanh (candidate's argument). -/
private theorem out_at (b : Fin 4096) (c : Fin 2048) :
    Read.val_main_v79 (F := Ideal) x0 x1 x2 x3 x4 x5 x6 x7 (ix2 b c)
      = Read.val_main_v55 (F := Ideal) x0 x1 x2 x3 x4 x5 x6 x7 (ix2 b c) * x1 (ix2 b c)
        + (Ideal.ofBits .f32 0x3F800000#32 - Read.val_main_v55 (F := Ideal) x0 x1 x2 x3 x4 x5 x6 x7 (ix2 b c))
          * Ideal.tanh (Read.val_main_v73 (F := Ideal) x0 x1 x2 x3 x4 x5 x6 x7 (ix2 b c)) := by
  rw [Read.val_main_v79_apply, Read.val_main_v75_apply, Read.val_main_v78_apply, Read.val_main_v77_apply,
    Read.val_main_v76_apply, Read.val_main_cst_7_apply, Read.val_main_v74_apply]
  rfl

end Helpers

/-! ## The two halves of the columns

Column lo j is the real part's column j, column up j the imaginary part's. -/

section Halves

/-- The joined bias in the first half is the real bias. -/
private theorem joined_lo (br bi : Gru.Bias) (g : Fin 3) (j : Fin 1024) :
    RefBlocks.joined br bi g (Gru.lo j) = Gru.gbias br g j := by
  unfold RefBlocks.joined
  exact dif_pos j.isLt

/-- Column up j, less 1024, is j. -/
private theorem up_sub (j : Fin 1024) (h : (Gru.up j).val - 1024 < 1024) :
    (⟨(Gru.up j).val - 1024, h⟩ : Fin 1024) = j :=
  Fin.ext (by show 1024 + j.val - 1024 = j.val; omega)

/-- The joined bias in the second half is the imaginary bias. -/
private theorem joined_up (br bi : Gru.Bias) (g : Fin 3) (j : Fin 1024) :
    RefBlocks.joined br bi g (Gru.up j) = Gru.gbias bi g j := by
  unfold RefBlocks.joined
  have hn : ¬ (1024 + j.val < 1024) := by omega
  exact (dif_neg hn).trans (congrArg (fun q => bi (ix1 (Gru.gcol g q))) (up_sub j _))

/-- A gate's argument in the first half: real parts of the two complex products and the real bias. -/
private theorem garg_lo (x h : Fin 2048 → EReal) (Wr Wi Ur Ui : Gru.Mat) (br bi : Gru.Bias) (g : Fin 3) (j : Fin 1024) :
    garg x h Wr Wi Ur Ui br bi g (Gru.lo j)
      = (Gru.cre (fun k => x (Gru.lo k)) (fun k => x (Gru.up k)) Wr Wi j + Gru.gbias br g j)
        + Gru.cre (fun k => h (Gru.lo k)) (fun k => h (Gru.up k)) Ur Ui j := by
  unfold garg
  rw [Gru.dot_block_lo, Gru.dot_block_lo, joined_lo]

/-- A gate's argument in the second half: imaginary parts and the imaginary bias, for real first halves of both rows
    and real imaginary weights. -/
private theorem garg_up (x h : Fin 2048 → EReal) (Wr Wi Ur Ui : Gru.Mat) (br bi : Gru.Bias) (g : Fin 3)
    (hx : ∀ k : Fin 1024, Gru.IsReal (x (Gru.lo k))) (hWi : ∀ k j : Fin 1024, Gru.IsReal (Wi k j))
    (hh : ∀ k : Fin 1024, Gru.IsReal (h (Gru.lo k))) (hUi : ∀ k j : Fin 1024, Gru.IsReal (Ui k j)) (j : Fin 1024) :
    garg x h Wr Wi Ur Ui br bi g (Gru.up j)
      = (Gru.cim (fun k => x (Gru.lo k)) (fun k => x (Gru.up k)) Wr Wi j + Gru.gbias bi g j)
        + Gru.cim (fun k => h (Gru.lo k)) (fun k => h (Gru.up k)) Ur Ui j := by
  unfold garg
  rw [Gru.dot_block_up x Wr Wi hx hWi, Gru.dot_block_up h Ur Ui hh hUi, joined_up]

/-- The specification's array in the first half. -/
private theorem out_lo (x h : Gru.Act) (Wr Wi Ur Ui : Gru.Wts) (br bi : Gru.Bias) (b : Fin 4096) (j : Fin 1024) :
    Gru.out x h Wr Wi Ur Ui br bi (ix2 b (Gru.lo j)) = (Gru.rowCell x h Wr Wi Ur Ui br bi b).ore j := by
  unfold Gru.out
  exact dif_pos j.isLt

/-- The specification's array in the second half. -/
private theorem out_up (x h : Gru.Act) (Wr Wi Ur Ui : Gru.Wts) (br bi : Gru.Bias) (b : Fin 4096) (j : Fin 1024) :
    Gru.out x h Wr Wi Ur Ui br bi (ix2 b (Gru.up j)) = (Gru.rowCell x h Wr Wi Ur Ui br bi b).oim j := by
  unfold Gru.out
  have hn : ¬ (1024 + j.val < 1024) := by omega
  exact (dif_neg hn).trans (congrArg (Gru.Cell.oim (Gru.rowCell x h Wr Wi Ur Ui br bi b)) (up_sub j _))

variable (x0 x1 : (⟨S4096x2048, .f32⟩ : BufTy).Contents (Elt Ideal))
  (x2 x3 x4 x5 : (⟨S1024x3072, .f32⟩ : BufTy).Contents (Elt Ideal))
  (x6 x7 : (⟨S3072, .f32⟩ : BufTy).Contents (Elt Ideal))

private theorem z_lo (b : Fin 4096) (j : Fin 1024) :
    Read.val_main_v55 (F := Ideal) x0 x1 x2 x3 x4 x5 x6 x7 (ix2 b (Gru.lo j)) = (Gru.rowCell x0 x1 x2 x3 x4 x5 x6 x7 b).zre j := by
  rw [z_at, garg_lo]; rfl

private theorem z_up (h0 : ∀ i, Gru.IsReal (x0 i)) (h1 : ∀ i, Gru.IsReal (x1 i)) (h3 : ∀ i, Gru.IsReal (x3 i)) (h5 : ∀ i, Gru.IsReal (x5 i)) (b : Fin 4096) (j : Fin 1024) :
    Read.val_main_v55 (F := Ideal) x0 x1 x2 x3 x4 x5 x6 x7 (ix2 b (Gru.up j)) = (Gru.rowCell x0 x1 x2 x3 x4 x5 x6 x7 b).zim j := by
  rw [z_at, garg_up (fun k => x0 (ix2 b k)) (fun k => x1 (ix2 b k)) (Gru.gate x2 0) (Gru.gate x3 0) (Gru.gate x4 0) (Gru.gate x5 0) x6 x7 0
    (fun k => h0 _) (fun k j => h3 _) (fun k => h1 _) (fun k j => h5 _)]; rfl

private theorem r_lo (b : Fin 4096) (j : Fin 1024) :
    Read.val_main_v66 (F := Ideal) x0 x1 x2 x3 x4 x5 x6 x7 (ix2 b (Gru.lo j)) = (Gru.rowCell x0 x1 x2 x3 x4 x5 x6 x7 b).rre j := by
  rw [r_at, garg_lo]; rfl

private theorem r_up (h0 : ∀ i, Gru.IsReal (x0 i)) (h1 : ∀ i, Gru.IsReal (x1 i)) (h3 : ∀ i, Gru.IsReal (x3 i)) (h5 : ∀ i, Gru.IsReal (x5 i)) (b : Fin 4096) (j : Fin 1024) :
    Read.val_main_v66 (F := Ideal) x0 x1 x2 x3 x4 x5 x6 x7 (ix2 b (Gru.up j)) = (Gru.rowCell x0 x1 x2 x3 x4 x5 x6 x7 b).rim j := by
  rw [r_at, garg_up (fun k => x0 (ix2 b k)) (fun k => x1 (ix2 b k)) (Gru.gate x2 1) (Gru.gate x3 1) (Gru.gate x4 1) (Gru.gate x5 1) x6 x7 1
    (fun k => h0 _) (fun k j => h3 _) (fun k => h1 _) (fun k j => h5 _)]; rfl

/-- The reset state's real parts. -/
private theorem p_lo (b : Fin 4096) (k : Fin 1024) :
    Read.val_main_v67 (F := Ideal) x0 x1 x2 x3 x4 x5 x6 x7 (ix2 b (Gru.lo k)) = (Gru.rowCell x0 x1 x2 x3 x4 x5 x6 x7 b).pre k := by
  rw [Read.val_main_v67_apply, r_lo]; rfl

/-- The reset state's imaginary parts. -/
private theorem p_up (h0 : ∀ i, Gru.IsReal (x0 i)) (h1 : ∀ i, Gru.IsReal (x1 i)) (h3 : ∀ i, Gru.IsReal (x3 i)) (h5 : ∀ i, Gru.IsReal (x5 i)) (b : Fin 4096) (k : Fin 1024) :
    Read.val_main_v67 (F := Ideal) x0 x1 x2 x3 x4 x5 x6 x7 (ix2 b (Gru.up k)) = (Gru.rowCell x0 x1 x2 x3 x4 x5 x6 x7 b).pim k := by
  rw [Read.val_main_v67_apply, r_up x0 x1 x2 x3 x4 x5 x6 x7 h0 h1 h3 h5]; rfl

/-- The candidate's real part. -/
private theorem n_lo (h0 : ∀ i, Gru.IsReal (x0 i)) (h1 : ∀ i, Gru.IsReal (x1 i)) (h3 : ∀ i, Gru.IsReal (x3 i)) (h5 : ∀ i, Gru.IsReal (x5 i)) (b : Fin 4096) (j : Fin 1024) :
    Ideal.tanh (Read.val_main_v73 (F := Ideal) x0 x1 x2 x3 x4 x5 x6 x7 (ix2 b (Gru.lo j))) = (Gru.rowCell x0 x1 x2 x3 x4 x5 x6 x7 b).candRe j := by
  have hp : (fun k : Fin 1024 => Read.val_main_v67 (F := Ideal) x0 x1 x2 x3 x4 x5 x6 x7 (ix2 b (Gru.lo k))) = (Gru.rowCell x0 x1 x2 x3 x4 x5 x6 x7 b).pre :=
    funext (p_lo x0 x1 x2 x3 x4 x5 x6 x7 b)
  have hq : (fun k : Fin 1024 => Read.val_main_v67 (F := Ideal) x0 x1 x2 x3 x4 x5 x6 x7 (ix2 b (Gru.up k))) = (Gru.rowCell x0 x1 x2 x3 x4 x5 x6 x7 b).pim :=
    funext (p_up x0 x1 x2 x3 x4 x5 x6 x7 h0 h1 h3 h5 b)
  rw [n_at, garg_lo, hp, hq]; rfl

/-- The candidate's imaginary part; the reset state's real parts are real, being a hard sigmoid times a real. -/
private theorem n_up (h0 : ∀ i, Gru.IsReal (x0 i)) (h1 : ∀ i, Gru.IsReal (x1 i)) (h3 : ∀ i, Gru.IsReal (x3 i)) (h5 : ∀ i, Gru.IsReal (x5 i)) (b : Fin 4096) (j : Fin 1024) :
    Ideal.tanh (Read.val_main_v73 (F := Ideal) x0 x1 x2 x3 x4 x5 x6 x7 (ix2 b (Gru.up j))) = (Gru.rowCell x0 x1 x2 x3 x4 x5 x6 x7 b).candIm j := by
  have hp : (fun k : Fin 1024 => Read.val_main_v67 (F := Ideal) x0 x1 x2 x3 x4 x5 x6 x7 (ix2 b (Gru.lo k))) = (Gru.rowCell x0 x1 x2 x3 x4 x5 x6 x7 b).pre :=
    funext (p_lo x0 x1 x2 x3 x4 x5 x6 x7 b)
  have hq : (fun k : Fin 1024 => Read.val_main_v67 (F := Ideal) x0 x1 x2 x3 x4 x5 x6 x7 (ix2 b (Gru.up k))) = (Gru.rowCell x0 x1 x2 x3 x4 x5 x6 x7 b).pim :=
    funext (p_up x0 x1 x2 x3 x4 x5 x6 x7 h0 h1 h3 h5 b)
  have hr : ∀ k : Fin 1024, Gru.IsReal ((fun k => Read.val_main_v67 (F := Ideal) x0 x1 x2 x3 x4 x5 x6 x7 (ix2 b k)) (Gru.lo k)) := fun k => by
    show Gru.IsReal (Read.val_main_v67 (F := Ideal) x0 x1 x2 x3 x4 x5 x6 x7 (ix2 b (Gru.lo k)))
    rw [p_lo]; exact Gru.IsReal.mul (Gru.hsig_isReal _) (h1 _)
  rw [n_at, garg_up (fun k => x0 (ix2 b k)) (fun k => Read.val_main_v67 (F := Ideal) x0 x1 x2 x3 x4 x5 x6 x7 (ix2 b k)) (Gru.gate x2 2) (Gru.gate x3 2) (Gru.gate x4 2) (Gru.gate x5 2) x6 x7 2
    (fun k => h0 _) (fun k j => h3 _) hr (fun k j => h5 _), hp, hq]; rfl

end Halves

/-- The reference's result as a function of the eight arguments is the specification's array, when the input rows, the
    state rows and the imaginary parts of both weight arrays are real. -/
theorem ref_eq (x0 x1 : (⟨S4096x2048, .f32⟩ : BufTy).Contents (Elt Ideal)) (x2 x3 x4 x5 : (⟨S1024x3072, .f32⟩ : BufTy).Contents (Elt Ideal))
    (x6 x7 : (⟨S3072, .f32⟩ : BufTy).Contents (Elt Ideal))
    (h0 : ∀ i, Gru.IsReal (x0 i)) (h1 : ∀ i, Gru.IsReal (x1 i)) (h3 : ∀ i, Gru.IsReal (x3 i)) (h5 : ∀ i, Gru.IsReal (x5 i)) :
    Cert.ReferenceIdeal.Read.val_main_v79 (F := Ideal) x0 x1 x2 x3 x4 x5 x6 x7 = Gru.out x0 x1 x2 x3 x4 x5 x6 x7 := by
  funext i
  obtain ⟨b, c, rfl⟩ : ∃ (b : Fin 4096) (c : Fin 2048), i = ix2 b c := ⟨i 0, i 1, eq_ix2 i⟩
  by_cases hc : c.val < 1024
  · -- a column of the real half
    obtain ⟨j, rfl⟩ : ∃ j : Fin 1024, c = Gru.lo j := ⟨⟨c.val, hc⟩, rfl⟩
    rw [out_at, z_lo, n_lo x0 x1 x2 x3 x4 x5 x6 x7 h0 h1 h3 h5, out_lo]; rfl
  · -- a column of the imaginary half
    obtain ⟨j, rfl⟩ : ∃ j : Fin 1024, c = Gru.up j :=
      ⟨⟨c.val - 1024, by have := c.isLt; omega⟩, Fin.ext (by show c.val = 1024 + (c.val - 1024); omega)⟩
    rw [out_at, z_up x0 x1 x2 x3 x4 x5 x6 x7 h0 h1 h3 h5, n_up x0 x1 x2 x3 x4 x5 x6 x7 h0 h1 h3 h5, out_up]; rfl

end Cert.RefValue

end
-- ==== Proof.Finite.lean ====
/-
  The precondition says every float input is finite; in exact arithmetic, that every entry is a real number.

  The printed precondition is the conjunction, over the eight arguments, of "every entry's absolute value is below
  +infinity".  On the extended reals |x| < +infinity excludes exactly the two infinities.
-/
import proofs.«126988_j23922967838776_1_alg».proof.Pre_finite_inputs
import proofs.«126988_j23922967838776_1_alg».proof.Proof.Spec
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The single-precision word with all exponent bits set and no fraction bit is +infinity. -/
private theorem ofBits_inf : Ideal.ofBits .f32 0x7F800000#32 = (⊤ : EReal) := by
  simp [Ideal.ofBits, Ideal.ieee]

/-- An extended real whose absolute value max x (-x) lies strictly below +infinity is a real number: the two
    infinities both have absolute value +infinity. -/
private theorem isReal_of_abs_lt (x : EReal)
    (h : Ideal.cmp .olt (max x (-x)) (Ideal.ofBits .f32 0x7F800000#32) = 1#1) : Gru.IsReal x := by
  rw [ofBits_inf] at h
  induction x using EReal.rec with
  | bot => exact absurd h (by simp [Ideal.cmp])
  | top => exact absurd h (by simp [Ideal.cmp])
  | coe r => exact ⟨r, rfl⟩

/-- From the precondition all ones: every entry of the input rows, the state rows, and the imaginary parts of both
    weight arrays is a real number (the four arrays whose realness the block product needs). -/
theorem real_of_fn [Cert.Pre_finite_inputs.Facts] (a0 a1 : FVec Ideal S4096x2048 .f32) (a2 a3 a4 a5 : FVec Ideal S1024x3072 .f32)
    (a6 a7 : FVec Ideal S3072 .f32)
    (h : Cert.Pre_finite_inputs.fn (F := Ideal) a0 a1 a2 a3 a4 a5 a6 a7 = fun _ => 1#1) :
    (∀ i, Gru.IsReal (a0 i)) ∧ (∀ i, Gru.IsReal (a1 i)) ∧ (∀ i, Gru.IsReal (a3 i)) ∧ (∀ i, Gru.IsReal (a5 i)) := by
  haveI : Subsingleton S_.Idx := ⟨fun a b => funext fun d => d.elim0⟩
  have h0 := congrFun h ValueIdx.ix0
  dsimp only [Cert.Pre_finite_inputs.fn, fn_part1, fn_part2, andi] at h0
  simp only [IntOp.andi_eq_one] at h0
  obtain ⟨⟨⟨⟨⟨⟨⟨e0, e1⟩, _⟩, e3⟩, _⟩, e5⟩, _⟩, _⟩ := h0
  exact ⟨fun i => isReal_of_abs_lt _ (Host.reduce_andi_all _ _ _ _ _ e0 i),
    fun i => isReal_of_abs_lt _ (Host.reduce_andi_all _ _ _ _ _ e1 i),
    fun i => isReal_of_abs_lt _ (Host.reduce_andi_all _ _ _ _ _ e3 i),
    fun i => isReal_of_abs_lt _ (Host.reduce_andi_all _ _ _ _ _ e5 i)⟩

end Cert.Finite

end
-- ==== Proof.lean ====
/-
  The certificate: a complex-valued gated recurrent cell as one pipelined kernel, against its plain reference.

  The kernel handles 128 rows of the batch per grid point.  Per row it forms the six complex products of the input row
  and of the previous state row with the three gates' weights, each as four real 1024 x 1024 matrix products
  (a_re W_re + a_im W_im and a_im W_re - a_re W_im), applies the hard sigmoid and the hyperbolic tangent, and blends
  the old state with the candidate.  The reference multiplies whole 2048-entry rows by the 2048 x 2048 block matrices
  [[W_re, -W_im], [W_im, W_re]].  On the extended reals the two agree entry by entry when the inputs are real: the
  first 1024 columns of a block product regroup one sum of 2048 terms into two of 1024; the last 1024 columns also
  move a sign out of a sum, which is where the finiteness of the inputs is used (BlockProduct.lean).

  The three frames: the two kernel programs run by the pipeline's frame run around their one region (K/, KI/: the
  proof data, the body's triple, the run), the reference by its straight-line run.  The idealized kernel is the
  kernel's own text read on the extended reals (no operation was rewritten), so nothing is owed for that conjunct.
  The value: the idealized kernel's result array is the specification's (KI/Value.lean) and so is the reference's
  (RefValue.lean), for arguments that agree and are finite (Finite.lean).
-/
import proofs.«126988_j23922967838776_1_alg».proof.Defs
import proofs.«126988_j23922967838776_1_alg».proof.Proof.Gen.Kernel
import proofs.«126988_j23922967838776_1_alg».proof.Proof.Gen.KernelIdeal
import proofs.«126988_j23922967838776_1_alg».proof.Proof.Gen.ReferenceIdeal
import proofs.«126988_j23922967838776_1_alg».proof.Proof.Gen.Pre_finite_inputs
import proofs.«126988_j23922967838776_1_alg».proof.Proof.Gen.ReferenceIdeal.Run
import proofs.«126988_j23922967838776_1_alg».proof.Proof.Gen.ReferenceIdeal.Read
import proofs.«126988_j23922967838776_1_alg».proof.Proof.K.Run
import proofs.«126988_j23922967838776_1_alg».proof.Proof.KI.Run
import proofs.«126988_j23922967838776_1_alg».proof.Proof.KI.Value
import proofs.«126988_j23922967838776_1_alg».proof.Proof.RefValue
import proofs.«126988_j23922967838776_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as launched. -/
theorem frame_kernel : Cert.frame_Kernel := fun m ρ _ => Cert.Kernel.Run.frame (F := Bits) m ρ

/-- So does the kernel read on the extended reals. -/
theorem frame_kernelIdeal : Cert.frame_KernelIdeal := fun m ρ _ => Cert.KernelIdeal.Run.frame (F := Ideal) m ρ

/-- So does the reference: its straight-line run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the eight finite arguments, the idealized kernel and the reference end with the
    same result array: the specification's, at those arguments. -/
theorem algebraic : Cert.algebraic_KernelIdeal_ReferenceIdeal := by
  intro m ρ m' ρ' hpre hagree
  refine ⟨_, Cert.KernelIdeal.Value.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq]
  obtain ⟨a0, a1, a2, a3, a4, a5, a6, a7⟩ := hagree c
  rw [a0, a1, a2, a3, a4, a5, a6, a7]
  obtain ⟨r0, r1, r3, r5⟩ := Cert.Finite.real_of_fn _ _ _ _ _ _ _ _ (hpre c)
  exact Cert.RefValue.ref_eq _ _ _ _ _ _ _ _ r0 r1 r3 r5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
